-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x100000 : Shape := ⟨2, ![2048, 100000]⟩
abbrev S2048 : Shape := ⟨1, ![2048]⟩
abbrev S1 : Shape := ⟨1, ![1]⟩
abbrev S_ : Shape := ⟨0, ![]⟩

class Facts : Prop where
  bcast_S_S2048x100000 : S_.BroadcastsInDim S2048x100000 (![] : Fin 0 → Fin S2048x100000.rank)
  reducesTo_S2048x100000_S_d0_1 : S2048x100000.ReducesTo [0, 1] S_
  h_S_ : 0 < S_.numel
  bcast_S_S1 : S_.BroadcastsInDim S1 (![] : Fin 0 → Fin S1.rank)
  reducesTo_S1_S_d0 : S1.ReducesTo [0] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x100000 .f32) (main_arg1 : IVec S2048 32) (main_arg2 : FVec F S1 .f32) : IVec S_ 1 :=
  let main_v0 : FVec F S2048x100000 .f32 := Host.absf main_arg0
  let main_cst : FVec F S_ .f32 := constant S_ .f32 0x7F800000#32
  let main_v1 : FVec F S2048x100000 .f32 := broadcastInDim S2048x100000 ![] bcast_S_S2048x100000 main_cst
  let main_v2 : IVec S2048x100000 1 := cmpf .olt main_v0 main_v1
  let main_c : IVec S_ 1 := constantI S_ 1 1#1
  let main_v3 : IVec S_ 1 := (fun x v => Host.reduce IntOp.andi x v reducesTo_S2048x100000_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg1 main_v9
  let main_c_3 : IVec S_ 32 := constantI S_ 32 100000#32
  let main_v11 : IVec S2048 32 := broadcastInDim S2048 ![] bcast_S_S2048 main_c_3
  let main_v12 : IVec S2048 1 := cmpi .slt main_arg1 main_v11
  let main_v13 : IVec S2048 1 := andi main_v10 main_v12
  let main_c_4 : IVec S_ 1 := constantI S_ 1 1#1
  let main_v14 : IVec S_ 1 := (fun x v => Host.reduce IntOp.andi x v reducesTo_S2048_S_d0 h_S_) main_v13 main_c_4
  let main_v15 : IVec S_ 1 := andi main_v8 main_v14
  main_v15
-- ==== Kernel.lean ====
abbrev S2048x100000 : Shape := ⟨2, ![2048, 100000]⟩
abbrev S2048 : Shape := ⟨1, ![2048]⟩
abbrev S1 : Shape := ⟨1, ![1]⟩
abbrev S_ : Shape := ⟨0, ![]⟩
abbrev S2048x1 : Shape := ⟨2, ![2048, 1]⟩
abbrev S2048x2 : Shape := ⟨2, ![2048, 2]⟩
abbrev S1x1 : Shape := ⟨2, ![1, 1]⟩
abbrev S256x1 : Shape := ⟨2, ![256, 1]⟩
abbrev S256x4096 : Shape := ⟨2, ![256, 4096]⟩
abbrev S256 : Shape := ⟨1, ![256]⟩

abbrev nBuf : Space → Nat
  | .hbm => 64
  | .vmem => 13
  | .smem => 0
  | _ => 0

abbrev bufTy : (tb : Table) → Fin (tcTables nBuf tb) → BufTy
  | .hbm, ⟨0, _⟩ => ⟨S2048x100000, .f32⟩
  | .hbm, ⟨1, _⟩ => ⟨S2048, .i32⟩
  | .hbm, ⟨2, _⟩ => ⟨S1, .f32⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S2048x1, .i32⟩
  | .hbm, ⟨20, _⟩ => ⟨S2048x2, .i32⟩
  | .hbm, ⟨21, _⟩ => ⟨S2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .i1⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S2048x1, .i32⟩
  | .hbm, ⟨50, _⟩ => ⟨S2048x1, .f32⟩
  | .hbm, ⟨51, _⟩ => ⟨S2048x1, .f32⟩
  | .hbm, ⟨52, _⟩ => ⟨S1x1, .f32⟩
  | .hbm, ⟨53, _⟩ => ⟨S2048x1, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S2048, .f32⟩
  | .hbm, ⟨58, _⟩ => ⟨S2048, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S256x1, .i32⟩
  | .local _ .vmem, ⟨1, _⟩ => ⟨S256x1, .i32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S1x1, .f32⟩
  | .local _ .vmem, ⟨7, _⟩ => ⟨S256x4096, .f32⟩
  | .local _ .vmem, ⟨8, _⟩ => ⟨S256x4096, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | _, _ => ⟨S2048x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_cst_11 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v58 : BitVec 1 := Scalar.cmpi .eq arg1 c24_i32
  let v59 : BitVec 32 := Scalar.extui v58
  let c0_i32_25 : BitVec 32 := 0#32
  let v60 : BitVec 1 := Scalar.cmpi .ne v59 c0_i32_25
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  shapeCasts_S2048_S2048x1 : S2048.ShapeCasts S2048x1
  shapeCasts_S1_S1x1 : S1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S256x1_S256x4096 : S256x1.Broadcasts S256x4096
  broadcasts_S1x1_S256x4096 : S1x1.Broadcasts S256x4096
  iota_S256x4096_d1_w32 : S256x4096.Iotas .tc 32 [1]
  reduces_S256x4096_S256 : S256x4096.Reduces [1] S256
  shapeCasts_S256_S256x1 : S256.ShapeCasts S256x1
  shapeCasts_S2048x1_S2048 : S2048x1.ShapeCasts S2048
  reducesTo_S2048_S_d0 : S2048.ReducesTo [0] S_
  h_S_ : 0 < S_.numel
  gather_S2048x100000_S2048x2_S2048_n_01_n_n_01_1_11_wf : GatherDims.WF S2048x100000 S2048x2 S2048 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S2048x1.size a
  hwx0_0 : ∀ i : grid0.Coords, EltTy.bits .i32 = 32 ∨ (Rect.block (s := S2048x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .f32 = 32 ∨ (Rect.block (s := S2048x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x4096.size a < S2048x100000.size a
  hwx0_4 : ∀ i : grid0.Coords, EltTy.bits .f32 = 32 ∨ (Rect.unit (s := S2048x100000) (fun a => cc0_transform_4 i a * S256x4096.size a) (fun a => (Pipeline.Clip.of (cc0_transform_4 i a) (S256x4096.size a) (S2048x100000.size a)).extent (S256x4096.size a)) fun a => Pipeline.Clip.inb (Pipeline.Clip.ok_of (hstart0_4 i a))).WholeWords (EltTy.packing .f32)
  hwxs0_4 : ∀ i : grid0.Coords, EltTy.bits .f32 = 32 ∨ (Rect.unit (s := S256x4096) (fun _ => 0) (fun a => (Pipeline.Clip.of (cc0_transform_4 i a) (S256x4096.size a) (S2048x100000.size a)).extent (S256x4096.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S2048x1.size a
  hwx0_5 : ∀ i : grid0.Coords, EltTy.bits .f32 = 32 ∨ (Rect.block (s := S2048x1) S256x1.size (cc0_transform_5 i) (hinb0_5 i)).WholeWords (EltTy.packing .f32)

variable [Facts₀]

def gather_S2048x100000_S2048x2_S2048_n_01_n_n_01_1_11 : GatherDims S2048x100000 S2048x2 S2048 where
  offsetDims := []
  collapsedSliceDims := [0, 1]
  operandBatchingDims := []
  startIndicesBatchingDims := []
  startIndexMap := [0, 1]
  indexVectorDim := 1
  sliceSizes := ![1, 1]
  wf := gather_S2048x100000_S2048x2_S2048_n_01_n_n_01_1_11_wf

abbrev win0_0 : Pipeline.Window sig grid0 :=
  Pipeline.Window.ofSpec (Memref.whole main_v30) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_arg0) S256x4096.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v34) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x100000 : Shape := ⟨2, ![2048, 100000]⟩
abbrev S2048 : Shape := ⟨1, ![2048]⟩
abbrev S1 : Shape := ⟨1, ![1]⟩
abbrev S_ : Shape := ⟨0, ![]⟩
abbrev S2048x1 : Shape := ⟨2, ![2048, 1]⟩
abbrev S2048x2 : Shape := ⟨2, ![2048, 2]⟩

abbrev nBuf : Space → Nat
  | .hbm => 117
  | .vmem => 0
  | .smem => 0
  | _ => 0

abbrev bufTy : (tb : Table) → Fin (tcTables nBuf tb) → BufTy
  | .hbm, ⟨0, _⟩ => ⟨S2048x100000, .f32⟩
  | .hbm, ⟨1, _⟩ => ⟨S2048, .i32⟩
  | .hbm, ⟨2, _⟩ => ⟨S1, .f32⟩
  | .hbm, ⟨3, _⟩ => ⟨S2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x100000, .f32⟩
  | .hbm, ⟨8, _⟩ => ⟨S2048x100000, .f32⟩
  | .hbm, ⟨9, _⟩ => ⟨S_, .f32⟩
  | .hbm, ⟨10, _⟩ => ⟨S2048x100000, .f32⟩
  | .hbm, ⟨11, _⟩ => ⟨S2048x100000, .f32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048x1, .i32⟩
  | .hbm, ⟨28, _⟩ => ⟨S2048x2, .i32⟩
  | .hbm, ⟨29, _⟩ => ⟨S2048, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .i1⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x100000, .f32⟩
  | .hbm, ⟨51, _⟩ => ⟨S2048x100000, .i1⟩
  | .hbm, ⟨52, _⟩ => ⟨S_, .f32⟩
  | .hbm, ⟨53, _⟩ => ⟨S2048x100000, .f32⟩
  | .hbm, ⟨54, _⟩ => ⟨S2048x100000, .f32⟩
  | .hbm, ⟨55, _⟩ => ⟨S2048x100000, .f32⟩
  | .hbm, ⟨56, _⟩ => ⟨S2048x100000, .f32⟩
  | .hbm, ⟨57, _⟩ => ⟨S2048, .f32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S_, .i32⟩
  | .hbm, ⟨66, _⟩ => ⟨S2048, .i32⟩
  | .hbm, ⟨67, _⟩ => ⟨S2048, .i1⟩
  | .hbm, ⟨68, _⟩ => ⟨S_, .i32⟩
  | .hbm, ⟨69, _⟩ => ⟨S2048, .i32⟩
  | .hbm, ⟨70, _⟩ => ⟨S2048, .i32⟩
  | .hbm, ⟨71, _⟩ => ⟨S2048, .i32⟩
  | .hbm, ⟨72, _⟩ => ⟨S2048x1, .i32⟩
  | .hbm, ⟨73, _⟩ => ⟨S2048x1, .i32⟩
  | .hbm, ⟨74, _⟩ => ⟨S2048x2, .i32⟩
  | .hbm, ⟨75, _⟩ => ⟨S2048x100000, .f32⟩
  | .hbm, ⟨76, _⟩ => ⟨S_, .f32⟩
  | .hbm, ⟨77, _⟩ => ⟨S2048x100000, .f32⟩
  | .hbm, ⟨78, _⟩ => ⟨S2048x100000, .f32⟩
  | .hbm, ⟨79, _⟩ => ⟨S_, .f32⟩
  | .hbm, ⟨80, _⟩ => ⟨S2048, .f32⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S2048x1, .f32⟩
  | .hbm, ⟨85, _⟩ => ⟨S2048x100000, .f32⟩
  | .hbm, ⟨86, _⟩ => ⟨S2048x100000, .f32⟩
  | .hbm, ⟨87, _⟩ => ⟨S2048x100000, .f32⟩
  | .hbm, ⟨88, _⟩ => ⟨S_, .f32⟩
  | .hbm, ⟨89, _⟩ => ⟨S2048, .f32⟩
  | .hbm, ⟨90, _⟩ => ⟨S2048x1, .f32⟩
  | .hbm, ⟨91, _⟩ => ⟨S2048x1, .f32⟩
  | .hbm, ⟨92, _⟩ => ⟨S2048x100000, .f32⟩
  | .hbm, ⟨93, _⟩ => ⟨S2048x100000, .f32⟩
  | .hbm, ⟨94, _⟩ => ⟨S_, .i32⟩
  | .hbm, ⟨95, _⟩ => ⟨S2048, .i32⟩
  | .hbm, ⟨96, _⟩ => ⟨S2048, .i1⟩
  | .hbm, ⟨97, _⟩ => ⟨S_, .i32⟩
  | .hbm, ⟨98, _⟩ => ⟨S2048, .i32⟩
  | .hbm, ⟨99, _⟩ => ⟨S2048, .i32⟩
  | .hbm, ⟨100, _⟩ => ⟨S2048, .i32⟩
  | .hbm, ⟨101, _⟩ => ⟨S_, .i32⟩
  | .hbm, ⟨102, _⟩ => ⟨S2048, .i32⟩
  | .hbm, ⟨103, _⟩ => ⟨S2048, .i1⟩
  | .hbm, ⟨104, _⟩ => ⟨S_, .i32⟩
  | .hbm, ⟨105, _⟩ => ⟨S2048, .i32⟩
  | .hbm, ⟨106, _⟩ => ⟨S2048, .i32⟩
  | .hbm, ⟨107, _⟩ => ⟨S2048, .i32⟩
  | .hbm, ⟨108, _⟩ => ⟨S2048x1, .i32⟩
  | .hbm, ⟨109, _⟩ => ⟨S2048x1, .i32⟩
  | .hbm, ⟨110, _⟩ => ⟨S2048x2, .i32⟩
  | .hbm, ⟨111, _⟩ => ⟨S2048, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S2048x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_call3_cst : Ref sig .tc := ⟨.hbm, 79, rfl⟩
abbrev main_call3_v0 : Ref sig .tc := ⟨.hbm, 80, rfl⟩
abbrev main_call3_cst_0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_cst_1 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_v55 : Ref sig .tc := ⟨.hbm, 93, rfl⟩
abbrev main_c_14 : Ref sig .tc := ⟨.hbm, 94, rfl⟩
abbrev main_v56 : Ref sig .tc := ⟨.hbm, 95, rfl⟩
abbrev main_v57 : Ref sig .tc := ⟨.hbm, 96, rfl⟩
abbrev main_c_15 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_c_16 : Ref sig .tc := ⟨.hbm, 101, rfl⟩
abbrev main_v61 : Ref sig .tc := ⟨.hbm, 102, rfl⟩
abbrev main_v62 : Ref sig .tc := ⟨.hbm, 103, rfl⟩
abbrev main_c_17 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_18 : Ref sig .tc := ⟨.hbm, 112, rfl⟩
abbrev main_v70 : Ref sig .tc := ⟨.hbm, 113, rfl⟩
abbrev main_cst_19 : Ref sig .tc := ⟨.hbm, 114, rfl⟩
abbrev main_v71 : Ref sig .tc := ⟨.hbm, 115, rfl⟩
abbrev main_v72 : Ref sig .tc := ⟨.hbm, 116, rfl⟩

abbrev nD : Nat := 1
abbrev τ : Topo := Topo.v7x

variable {F : FTy → Type} [FloatOps F]

class Facts₀ : Prop where
  bcast_S_S2048x100000 : S_.BroadcastsInDim S2048x100000 (![] : Fin 0 → Fin S2048x100000.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S_S2048x1 : S_.BroadcastsInDim S2048x1 (![] : Fin 0 → Fin S2048x1.rank)
  bcast_S2048x1_S2048x100000_0_1 : S2048x1.BroadcastsInDim S2048x100000 (![0, 1] : Fin 2 → Fin S2048x100000.rank)
  shapeCasts_S1_S_ : S1.ShapeCasts S_
  shapeCasts_S2048x1_S2048 : S2048x1.ShapeCasts S2048
  reducesTo_S2048x100000_S2048_d1 : S2048x100000.ReducesTo [1] S2048
  h_S_ : 0 < S_.numel
  reducesTo_S2048_S_d0 : S2048.ReducesTo [0] S_
  gather_S2048x100000_S2048x2_S2048_n_01_n_n_01_1_11_wf : GatherDims.WF S2048x100000 S2048x2 S2048 [] [0, 1] [] [0, 1] [] 1 ![1, 1]
  scatter_S2048x100000_S2048x2_S2048_n_01_01_1_wf : ScatterDims.WF S2048x100000 S2048x2 S2048 [] [0, 1] [0, 1] 1

variable [Facts₀]

def gather_S2048x100000_S2048x2_S2048_n_01_n_n_01_1_11 : GatherDims S2048x100000 S2048x2 S2048 where
  offsetDims := []
  collapsedSliceDims := [0, 1]
  operandBatchingDims := []
  startIndicesBatchingDims := []
  startIndexMap := [0, 1]
  indexVectorDim := 1
  sliceSizes := ![1, 1]
  wf := gather_S2048x100000_S2048x2_S2048_n_01_n_n_01_1_11_wf
def scatter_S2048x100000_S2048x2_S2048_n_01_01_1 : ScatterDims S2048x100000 S2048x2 S2048 where
  updateWindowDims := []
  insertedWindowDims := [0, 1]
  scatterDimsToOperandDims := [0, 1]
  indexVectorDim := 1
  wf := scatter_S2048x100000_S2048x2_S2048_n_01_01_1_wf

class Facts : Prop extends Facts₀ where

variable [Facts]
-- ==== Proof.K.Runs.lean ====
/- What the three runs of the kernel body share: the body's two branch conditions decided over the
   8 x 25 grid, where the output window is idle and where it is written back, each window's current
   staging memref at a point, the two carried scratch buffers as memrefs and views, and the
   pipeline's invariant spelled over the scratch memrefs. -/
import proofs.«421104_j22986664968859_1_alg».proof.Proof.Gen.Kernel.Frame
import proofs.«421104_j22986664968859_1_alg».proof.Proof.Gen.Kernel.Skeleton
import Idealize.ShloMosaic.Lib.Pipeline.FrameBody
import Idealize.ShloMosaic.Lib.Ring
import Idealize.ShloMosaic.Lib.Tactic

-- membership in a rectangle of full-size extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional: grid coordinate 1 is 0 (the scalar chain of the
    body substituted). -/
abbrev cond0_0 (i : grid0.Coords) : Prop := (Scalar.cmpi .ne (Scalar.extui (Scalar.cmpi .eq (BitVec.ofNat 32 (i 1).val) 0#32)) 0#32) = 1#1
/-- It holds at the first point of each row of 25 — decided over the grid. -/
theorem hcond0_0 : ∀ t : Fin cfg0.N, cond0_0 (grid0.coords t) ↔ t.val % 25 = 0 :=
  (by decide +kernel : ∀ t : Fin grid0.N, cond0_0 (grid0.coords t) ↔ t.val % 25 = 0)

/-- The condition of the body's second conditional: grid coordinate 1 is 24. -/
abbrev cond0_1 (i : grid0.Coords) : Prop := k0_cond2 i = 1#1
/-- It holds at the last point of each row of 25 — decided over the grid. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle, fetched and written back -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl

/-- Where the second conditional fails the output window is idle: the body stores nothing into it. -/
theorem idleAt0_5 : ∀ t : Fin cfg0.N, ¬cond0_1 (grid0.coords t) → cfg0.idle 5 (grid0.coords t) = true :=
  (by decide +kernel : ∀ t : Fin grid0.N, ¬cond0_1 (grid0.coords t) → cfg0.idle 5 (grid0.coords t) = true)
/-- Where the second conditional holds the output window is live: the body stores into it. -/
theorem liveAt0_5 : ∀ t : Fin cfg0.N, cond0_1 (grid0.coords t) → cfg0.idle 5 (grid0.coords t) = false :=
  (by decide +kernel : ∀ t : Fin grid0.N, cond0_1 (grid0.coords t) → cfg0.idle 5 (grid0.coords t) = false)
/-- Where the second conditional fails the output's block is not written back. -/
theorem noFlush0_5 : ∀ t : Fin cfg0.N, ¬cond0_1 (grid0.coords t) → (cfg0.win 5).flush t = false := fun t h => by
  have h1 := (Gen.flush0_5 t).not.2 (fun h' => h ((hcond0_1 t).2 h'))
  exact Bool.eq_false_iff.2 h1
/-- Where the second conditional holds the output's block is written back. -/
theorem flush0_5 : ∀ t : Fin cfg0.N, cond0_1 (grid0.coords t) → (cfg0.win 5).flush t = true := fun t h =>
  (Gen.flush0_5 t).2 ((hcond0_1 t).1 h)
/-- Window 4's block index moves at every point: it is fetched at every point. -/
theorem fetch0_4 : ∀ t : Fin cfg0.N, (cfg0.win 4).fetch t = true := Gen.fetch0_4

/-! ## The staging and scratch memrefs the body is called on -/

/-- One staging buffer of the output window, through which its contents are stated. -/
abbrev VO0_5 : View sig .tc .vmem S256x1 .f32 := (Memref.whole cc0_stg5_0 : Memref sig .tc .vmem S256x1 .f32).view
/-- Each window's current staging memref at point `t`, as the pipeline passes it, and its wholeness. -/
abbrev ms0_0 (t : Fin cfg0.N) : Memref sig .tc .vmem S256x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x1 .f32 := Memref.whole cc0_scratch0
abbrev scM0_1 : Memref sig .tc .vmem S256x1 .f32 := Memref.whole cc0_scratch1
/-- The two scratch buffers the kernel carries between points (the running maximum and the running
    sum), as views: what they hold is stated through them. -/
abbrev VS0_0 : View sig .tc .vmem S256x1 .f32 := scM0_0.view
abbrev VS0_1 : View sig .tc .vmem S256x1 .f32 := scM0_1.view

/-- The pipeline's invariant with the scratch operands as memrefs owned at some contents: what the
    body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.K.Contents.lean ====
/- What the staging buffers and the two carried scratch buffers hold after the kernel body at each grid
   point, as explicit terms of the body's payloads over the input blocks, and the pipeline's proof data
   stated over them. The grid is 8 row blocks by 25 column blocks; point n is row block n / 25, column block
   n % 25. The two scratch buffers hold, per row of the block, the running maximum and the running sum of
   exponentials of the row's logits over the column blocks met so far; they are reset at column block 0,
   and at column block 24 the output block receives maximum + log sum. The column window's blocks overhang
   the array in the last column block: the buffer's tail there holds words nothing names, which the proof
   data fix as the zero word (the body's values do not depend on them). -/
import proofs.«421104_j22986664968859_1_alg».proof.Proof.K.Runs
import Idealize.ShloMosaic.Lib.Pipeline.Frame
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, each at its literal type -/

/-- The labels' block at point `t` (rows of the point's row block). -/
abbrev xb0 (c : Dev nD) (t : Fin cfg0.N) : Vec F S256x1 .i32 := iblk m c 0 t
/-- The margin cosines' block at point `t`. -/
abbrev xb1 (c : Dev nD) (t : Fin cfg0.N) : Vec F S256x1 .f32 := iblk m c 1 t
/-- The target logits' block at point `t`. -/
abbrev xb2 (c : Dev nD) (t : Fin cfg0.N) : Vec F S256x1 .f32 := iblk m c 2 t
/-- The scalar `t`'s one-entry block. -/
abbrev xb3 (c : Dev nD) (t : Fin cfg0.N) : Vec F S1x1 .f32 := iblk m c 3 t
/-- The cosine array's block at point `t`, filled out past the array's end (the last column block
    overhangs it by 2400 columns) with the zero word. -/
def xb4 (c : Dev nD) (t : Fin cfg0.N) : Vec F S256x4096 .f32 :=
  win0_4.fill (grid0.coords t) (fun _ => Scalar.ofBits .f32 0#32) (iblk m c 4 t)

/-- The block of masked, scaled logits the body computes at point `t`. -/
def lgAt (c : Dev nD) (t : Fin cfg0.N) : FVec F S256x4096 .f32 :=
  k0_pay7 (grid0.coords t) (xb4 m c t) (xb1 m c t) (xb3 m c t) (xb0 m c t) (xb2 m c t)
/-- Its row maxima. -/
def rmAt (c : Dev nD) (t : Fin cfg0.N) : FVec F S256 .f32 :=
  k0_pay8 (grid0.coords t) (xb4 m c t) (xb1 m c t) (xb3 m c t) (xb0 m c t) (xb2 m c t)

/-! ## The carried scratch after each point -/

/-- What a point whose column block is 0 leaves in the two scratch buffers: the update from the reset
    state (maximum -∞, sum 0). -/
def scReset (c : Dev nD) (t : Fin cfg0.N) : Vec F S256x1 .f32 × Vec F S256x1 .f32 :=
  (k0_pay3 (rmAt m c t) (k0_pay5 (F := F)), k0_pay2 (lgAt m c t) (rmAt m c t) (k0_pay5 (F := F)) (k0_pay5 (F := F)) (k0_pay6 (F := F)))
/-- What any other point leaves there: the update from what the point before left, `p`. -/
def scStep (c : Dev nD) (t : Fin cfg0.N) (p : Vec F S256x1 .f32 × Vec F S256x1 .f32) : Vec F S256x1 .f32 × Vec F S256x1 .f32 :=
  (k0_pay3 (rmAt m c t) p.1, k0_pay2 (lgAt m c t) (rmAt m c t) p.1 p.1 p.2)

/-- The two scratch buffers (running maximum, running sum) after the body at point `n`, by recursion on
    the point. -/
def scAt (c : Dev nD) : (n : ℕ) → n < cfg0.N → Vec F S256x1 .f32 × Vec F S256x1 .f32
  | 0, hn => scReset m c ⟨0, hn⟩
  | n + 1, hn =>
    if (n + 1) % 25 = 0 then scReset m c ⟨n + 1, hn⟩
    else scStep m c ⟨n + 1, hn⟩ (scAt c n (Nat.lt_of_succ_lt hn))

theorem scAt_reset (c : Dev nD) (t : Fin cfg0.N) (h : t.val % 25 = 0) : scAt m c t.val t.isLt = scReset m c t := by
  obtain ⟨n, hn⟩ := t
  cases n with
  | zero => rfl
  | succ n => exact if_pos h

theorem scAt_step (c : Dev nD) (t : Fin cfg0.N) (h : ¬t.val % 25 = 0) :
    scAt m c t.val t.isLt = scStep m c t (scAt m c (t.val - 1) (Nat.lt_of_le_of_lt (Nat.sub_le _ _) t.isLt)) := by
  obtain ⟨n, hn⟩ := t
  cases n with
  | zero => exact absurd (Nat.zero_mod _) h
  | succ n => exact if_neg h

/-- What the output block's staging buffer holds after the body at point `n` where the body stores into it
    (column block 24): running maximum + log of the running sum, of what the point leaves in the scratch. At
    the other points the window is idle and this term is not consulted. -/
def outAt (c : Dev nD) (n : ℕ) (hn : n < cfg0.N) : Vec F S256x1 .f32 :=
  k0_pay4 (scAt m c n hn).1 (scAt m c n hn).2

/-! ## The region invariant -/

/-- The region invariant before position `n`: before the first point the class's (every scratch at
    anything); afterwards the two scratch buffers at what the point before left and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((scAt m c n hn).1) ∗ owns (c : Thread nD τ) scM0_1 fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt m c n hn).1) ∗ owns (c : Thread nD τ) scM0_1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt m c (n - 1) (by omega)).1) ∗ owns (c : Thread nD τ) scM0_1 fullShare ((scAt m c (n - 1) (by omega)).2)) ∗ (∃ r, prngReg c r)) := by
  cases n with
  | zero => exact absurd rfl hz
  | succ n => rfl

/-! ## The pipeline's proof data -/

/-- The proof data of the one pipeline on core `c`: the arrays as the region finds them; after the body at
    point `t` each input's buffer at its block (the column window's filled out with the zero word) and the
    output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xb4 m c t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = xb4 m c t := by dsimp only [dats]
theorem after0_5 (c : Dev nD) (t : Fin cfg0.N) : (dats m 0 c).after 5 t = outAt m c t.val t.isLt := by dsimp only [dats]

/-- Each uncut input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The column window is fetched at every point: its buffer holds the block on the part inside the array
    and whatever the overwrite before the fetch left, `d`, past the array's end. -/
theorem before0_4 (c : Dev nD) (t : Fin cfg0.N) (d) :
    (dats m 0 c).before 4 t d = win0_4.fill (grid0.coords t) d (iblk m c 4 t) := by
  unfold Dat.before; rw [if_pos (fetch0_4 t)]
  unfold Dat.fetched Dat.blockOf iblk; rw [A_eq]

end Cert.Kernel.Body

end
-- ==== Proof.K.RunA.lean ====
/- The run of the kernel body at the first point of a row of the grid: the first conditional is
   taken (the running maximum is reset to minus infinity and the running sum to zero, whatever the
   two scratch buffers held), the second is not; the scratches are then read and stored into once
   more each; the output's staging buffer is not touched. -/
import proofs.«421104_j22986664968859_1_alg».proof.Proof.K.Runs

-- membership in a rectangle of full-size extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratch memrefs, as
    pieces (last first), when the first conditional is taken and the second is not, WITH the proof
    that on whole memrefs — the five inputs at their contents, the output's buffer at contents `xi5`
    handed back untouched, the scratches at ANY contents — the body runs to the continuation holding
    the inputs as they were, the output's buffer as it was, and each scratch with its pieces written. -/
noncomputable def kernelRun0_A (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : cond0_0 i) (hc1 : ¬cond0_1 i)
    (x0 : Vec F S256x1 .i32) (x1 x2 : Vec F S256x1 .f32) (x3 : Vec F S1x1 .f32) (x4 : Vec F S256x4096 .f32) :
    Σ' (L5 : List (View.Piece (Elt F) S256x1 .f32)) (LS0 : List (View.Piece (Elt F) S256x1 .f32)), { LS1 : List (View.Piece (Elt F) S256x1 .f32) //
      ∀ (xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨[], ?_, ?_, fun xi5 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Body

end
-- ==== Proof.K.RunB.lean ====
/- The run of the kernel body at a point in the middle of a row of the grid: neither conditional
   is taken; the two carried scratch buffers arrive at the contents the point before left, are read,
   and are stored into once each; the output's staging buffer is not touched. -/
import proofs.«421104_j22986664968859_1_alg».proof.Proof.K.RunA

-- membership in a rectangle of full-size extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratch memrefs, as
    pieces (last first), when neither conditional is taken, WITH the proof that on whole memrefs —
    the five inputs at their contents, the output's buffer at contents `xi5` handed back untouched,
    the scratches at the contents `xs0`, `xs1` the point before left — the body runs to the
    continuation holding the inputs as they were, the output's buffer as it was, and each scratch
    with its pieces written. -/
noncomputable def kernelRun0_B (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : ¬cond0_1 i)
    (x0 : Vec F S256x1 .i32) (x1 x2 : Vec F S256x1 .f32) (x3 : Vec F S1x1 .f32) (x4 : Vec F S256x4096 .f32) (xs0 xs1 : Vec F S256x1 .f32) :
    Σ' (L5 : List (View.Piece (Elt F) S256x1 .f32)) (LS0 : List (View.Piece (Elt F) S256x1 .f32)), { LS1 : List (View.Piece (Elt F) S256x1 .f32) //
      ∀ (xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨[], ?_, ?_, fun xi5 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Body

end
-- ==== Proof.K.RunC.lean ====
/- The run of the kernel body at the last point of a row of the grid: the first conditional is
   not taken, the second is; the two carried scratch buffers arrive at the contents the point before
   left, are read and stored into once each, then read back, and the row's result (the running
   maximum plus the logarithm of the running sum) is stored into the output's staging buffer. -/
import proofs.«421104_j22986664968859_1_alg».proof.Proof.K.RunB

-- membership in a rectangle of full-size extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratch memrefs, as
    pieces (last first), when the first conditional is not taken and the second is, WITH the proof
    that on whole memrefs — the five inputs at their contents, the output's buffer at ANY contents,
    the scratches at the contents `xs0`, `xs1` the point before left — the body runs to the
    continuation holding the inputs as they were and the output's buffer and each scratch with its
    pieces written. -/
noncomputable def kernelRun0_C (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : cond0_1 i)
    (x0 : Vec F S256x1 .i32) (x1 x2 : Vec F S256x1 .f32) (x3 : Vec F S1x1 .f32) (x4 : Vec F S256x4096 .f32) (xs0 xs1 : Vec F S256x1 .f32) :
    Σ' (L5 : List (View.Piece (Elt F) S256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨?_, ?_, ?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Body

end
-- ==== Proof.K.Pieces.lean ====
/- What the pieces each run of the kernel body found read back as: each carried scratch buffer and the
   output's staging buffer after the body, as explicit terms of the body's payloads over the input blocks
   and over what the scratches held when the body started. -/
import proofs.«421104_j22986664968859_1_alg».proof.Proof.K.RunC
import Idealize.ShloMosaic.Lib.Pipeline.Value

-- membership in a rectangle of full-size extents recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem off00 : (![0, 0] : Fin 2 → ℕ) = fun _ => 0 := by funext a; fin_cases a <;> rfl

/-- At a row's first point the running-maximum scratch ends as the update, by the block's row maxima, of the reset value (minus infinity). -/
theorem pieceA_0 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : cond0_0 i) (hc1 : ¬cond0_1 i) (x0 : Vec F S256x1 .i32) (x1 x2 : Vec F S256x1 .f32) (x3 : Vec F S1x1 .f32) (x4 : Vec F S256x4096 .f32) (f : arg8.view.ty.Contents (Elt F)) :
    arg8.view.read (Elt F) (arg8.view.writes (Elt F) f (kernelRun0_A c i arg2 harg2 arg3 harg3 arg4 harg4 arg5 harg5 arg6 harg6 arg7 harg7 arg8 harg8 arg9 harg9 hc0 hc1 x0 x1 x2 x3 x4).2.1) = k0_pay3 (k0_pay8 i x4 x1 x3 x0 x2) (k0_pay5 (F := F)) := by
  rw [View.read_writes_eq_canon _ _ _ (View.cover_of_tiledL (kernelRun0_A c i arg2 harg2 arg3 harg3 arg4 harg4 arg5 harg5 arg6 harg6 arg7 harg7 arg8 harg8 arg9 harg9 hc0 hc1 x0 x1 x2 x3 x4).2.1 S256x1.size (by sl_kernel_rfl))]
  unfold kernelRun0_A; dsimp only; sl_unfold_words
  rw [View.canon_cons_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a row's first point the running-sum scratch ends as the update of the reset values (maximum minus infinity, sum zero) by the block. -/
theorem pieceA_1 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : cond0_0 i) (hc1 : ¬cond0_1 i) (x0 : Vec F S256x1 .i32) (x1 x2 : Vec F S256x1 .f32) (x3 : Vec F S1x1 .f32) (x4 : Vec F S256x4096 .f32) (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 hc0 hc1 x0 x1 x2 x3 x4).2.2.1) = k0_pay2 (k0_pay7 i x4 x1 x3 x0 x2) (k0_pay8 i x4 x1 x3 x0 x2) (k0_pay5 (F := F)) (k0_pay5 (F := F)) (k0_pay6 (F := F)) := by
  rw [View.read_writes_eq_canon _ _ _ (View.cover_of_tiledL (kernelRun0_A c i arg2 harg2 arg3 harg3 arg4 harg4 arg5 harg5 arg6 harg6 arg7 harg7 arg8 harg8 arg9 harg9 hc0 hc1 x0 x1 x2 x3 x4).2.2.1 S256x1.size (by sl_kernel_rfl))]
  unfold kernelRun0_A; dsimp only; sl_unfold_words
  rw [View.canon_cons_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a middle point the running-maximum scratch ends as the update, by the block's row maxima, of what it held. -/
theorem pieceB_0 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : ¬cond0_1 i) (x0 : Vec F S256x1 .i32) (x1 x2 : Vec F S256x1 .f32) (x3 : Vec F S1x1 .f32) (x4 : Vec F S256x4096 .f32) (xs0 xs1 : Vec F S256x1 .f32) (f : arg8.view.ty.Contents (Elt F)) :
    arg8.view.read (Elt F) (arg8.view.writes (Elt F) f (kernelRun0_B c i arg2 harg2 arg3 harg3 arg4 harg4 arg5 harg5 arg6 harg6 arg7 harg7 arg8 harg8 arg9 harg9 hc0 hc1 x0 x1 x2 x3 x4 xs0 xs1).2.1) = k0_pay3 (k0_pay8 i x4 x1 x3 x0 x2) xs0 := by
  rw [View.read_writes_eq_canon _ _ _ (View.cover_of_tiledL (kernelRun0_B c i arg2 harg2 arg3 harg3 arg4 harg4 arg5 harg5 arg6 harg6 arg7 harg7 arg8 harg8 arg9 harg9 hc0 hc1 x0 x1 x2 x3 x4 xs0 xs1).2.1 S256x1.size (by sl_kernel_rfl))]
  unfold kernelRun0_B; dsimp only; sl_unfold_words
  rw [View.canon_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a middle point the running-sum scratch ends as the update by the block of what the two scratches held. -/
theorem pieceB_1 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : ¬cond0_1 i) (x0 : Vec F S256x1 .i32) (x1 x2 : Vec F S256x1 .f32) (x3 : Vec F S1x1 .f32) (x4 : Vec F S256x4096 .f32) (xs0 xs1 : Vec F S256x1 .f32) (f : arg9.view.ty.Contents (Elt F)) :
    arg9.view.read (Elt F) (arg9.view.writes (Elt F) f (kernelRun0_B c i arg2 harg2 arg3 harg3 arg4 harg4 arg5 harg5 arg6 harg6 arg7 harg7 arg8 harg8 arg9 harg9 hc0 hc1 x0 x1 x2 x3 x4 xs0 xs1).2.2.1) = k0_pay2 (k0_pay7 i x4 x1 x3 x0 x2) (k0_pay8 i x4 x1 x3 x0 x2) xs0 xs0 xs1 := by
  rw [View.read_writes_eq_canon _ _ _ (View.cover_of_tiledL (kernelRun0_B c i arg2 harg2 arg3 harg3 arg4 harg4 arg5 harg5 arg6 harg6 arg7 harg7 arg8 harg8 arg9 harg9 hc0 hc1 x0 x1 x2 x3 x4 xs0 xs1).2.2.1 S256x1.size (by sl_kernel_rfl))]
  unfold kernelRun0_B; dsimp only; sl_unfold_words
  rw [View.canon_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a row's last point the running-maximum scratch ends as at a middle point. -/
theorem pieceC_0 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : cond0_1 i) (x0 : Vec F S256x1 .i32) (x1 x2 : Vec F S256x1 .f32) (x3 : Vec F S1x1 .f32) (x4 : Vec F S256x4096 .f32) (xs0 xs1 : Vec F S256x1 .f32) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 hc0 hc1 x0 x1 x2 x3 x4 xs0 xs1).2.1) = k0_pay3 (k0_pay8 i x4 x1 x3 x0 x2) xs0 := by
  rw [View.read_writes_eq_canon _ _ _ (View.cover_of_tiledL (kernelRun0_C c i arg2 harg2 arg3 harg3 arg4 harg4 arg5 harg5 arg6 harg6 arg7 harg7 arg8 harg8 arg9 harg9 hc0 hc1 x0 x1 x2 x3 x4 xs0 xs1).2.1 S256x1.size (by sl_kernel_rfl))]
  unfold kernelRun0_C; dsimp only; sl_unfold_words
  rw [View.canon_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a row's last point the running-sum scratch ends as at a middle point. -/
theorem pieceC_1 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : cond0_1 i) (x0 : Vec F S256x1 .i32) (x1 x2 : Vec F S256x1 .f32) (x3 : Vec F S1x1 .f32) (x4 : Vec F S256x4096 .f32) (xs0 xs1 : Vec F S256x1 .f32) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 hc0 hc1 x0 x1 x2 x3 x4 xs0 xs1).2.2.1) = k0_pay2 (k0_pay7 i x4 x1 x3 x0 x2) (k0_pay8 i x4 x1 x3 x0 x2) xs0 xs0 xs1 := by
  rw [View.read_writes_eq_canon _ _ _ (View.cover_of_tiledL (kernelRun0_C c i arg2 harg2 arg3 harg3 arg4 harg4 arg5 harg5 arg6 harg6 arg7 harg7 arg8 harg8 arg9 harg9 hc0 hc1 x0 x1 x2 x3 x4 xs0 xs1).2.2.1 S256x1.size (by sl_kernel_rfl))]
  unfold kernelRun0_C; dsimp only; sl_unfold_words
  rw [View.canon_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a row's last point the output's staging buffer ends as the final maximum plus the logarithm of the final sum: the two scratches read back after their updates. -/
theorem pieceC_5 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : cond0_1 i) (x0 : Vec F S256x1 .i32) (x1 x2 : Vec F S256x1 .f32) (x3 : Vec F S1x1 .f32) (x4 : Vec F S256x4096 .f32) (xs0 xs1 : Vec F S256x1 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 hc0 hc1 x0 x1 x2 x3 x4 xs0 xs1).1) = k0_pay4 (k0_pay3 (k0_pay8 i x4 x1 x3 x0 x2) xs0) (k0_pay2 (k0_pay7 i x4 x1 x3 x0 x2) (k0_pay8 i x4 x1 x3 x0 x2) xs0 xs0 xs1) := by
  rw [View.read_writes_eq_canon _ _ _ (View.cover_of_tiledL (kernelRun0_C c i arg2 harg2 arg3 harg3 arg4 harg4 arg5 harg5 arg6 harg6 arg7 harg7 arg8 harg8 arg9 harg9 hc0 hc1 x0 x1 x2 x3 x4 xs0 xs1).1 S256x1.size (by sl_kernel_rfl))]
  unfold kernelRun0_C; dsimp only; sl_unfold_words
  rw [View.canon_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

end Cert.Kernel.Body

end
-- ==== Proof.K.Indep.lean ====
/-
  The masked logits do not depend on what lies past the array's end.

  The window of the 2048 × 100000 array is cut into blocks of 256 × 4096; the last column block
  (block 24) holds 100000 − 24 · 4096 = 1696 columns of the array, and the rest of the block lies
  past the array's end. The body replaces by a constant every entry whose global column,
  4096 · (column block) + (column in the block), is not below 100000. A position of the block is
  either inside the array, where the block's contents are the array's whatever filler is used, or
  past its end, where the global column is at least 100000 and the entry is replaced by the
  constant. So the masked block is the same for any two fillers.
-/
import proofs.«421104_j22986664968859_1_alg».proof.Proof.Gen.Kernel.Skeleton
import proofs.«421104_j22986664968859_1_alg».proof.Proof.Gen.Kernel.Frame
import Idealize.ShloMosaic.Lib.Pipeline
import Idealize.ShloMosaic.Lib.StableHlo.Predicate

noncomputable section

namespace Cert.Kernel.Body

open Idealize.ShloMosaic
open Cert.Kernel Cert.Kernel.Gen

variable {F : FTy → Type} [FloatOps F]

/-- A choice between two values by a one-bit word depends on the first value only where the bit is set. -/
theorem select_congr {α : Type} (c : BitVec 1) (a a' b : α) (h : c = 1#1 → a = a') :
    Scalar.select c a b = Scalar.select c a' b := by
  unfold Scalar.select
  split
  · next hc => rw [h hc]
  · rfl

/-- The compare "global column < 100000" on 32-bit words, decoded: column q of column block c passes
    it only if 4096 · c + q < 100000. All the numbers are below 2³¹. -/
theorem col_lt (c : Fin 25) (q : Fin 4096)
    (h : IntOp.cmpi .slt (IntOp.addi (BitVec.ofNat 32 (0 * 4096 + q.val)) (Scalar.muli (BitVec.ofNat 32 c.val) 4096#32))
      100000#32 = 1#1) : 4096 * c.val + q.val < 100000 := by
  have hc := c.isLt
  have hq := q.isLt
  have e : (IntOp.addi (BitVec.ofNat 32 (0 * 4096 + q.val)) (Scalar.muli (BitVec.ofNat 32 c.val) 4096#32)).toNat
      = 4096 * c.val + q.val := by
    simp only [IntOp.addi, Scalar.muli, IntOp.muli, BitVec.toNat_add, BitVec.toNat_mul, BitVec.toNat_ofNat]
    omega
  rw [StableHlo.Predicate.slt_iff_toNat (by rw [e]; omega) (by decide), e] at h
  simpa using h

/-- The window's pointwise form: at a position y the masked logits read the block only at y, and
    only if the global column of y is below 100000. -/
theorem pay7_congr (i : grid0.Coords) (v3 v3' : Vec F S256x4096 .f32) (v8 : Vec F S256x1 .f32) (v10 : Vec F S1x1 .f32)
    (v22 : Vec F S256x1 .i32) (v26 : Vec F S256x1 .f32) (y : S256x4096.Idx)
    (h : 4096 * (i 1).val + (y 1).val < 100000 → v3 y = v3' y) :
    k0_pay7 i v3 v8 v10 v22 v26 y = k0_pay7 i v3' v8 v10 v22 v26 y := by
  unfold k0_pay7
  dsimp only [select, cmpi, cmpf, mulf, addf, maximumf, minimumf, broadcast, addi, iota, List.foldl]
  apply select_congr
  intro hc
  rw [h (col_lt (i 1) (y 1) hc)]

/-- How many columns of column block c lie inside the array: all 4096 when the block ends inside
    it, else 100000 − 4096 · c. -/
theorem xsize_col (i : grid0.Coords) :
    win0_4.xsize i 1 = if ((i 1).val + 1) * 4096 ≤ 100000 then 4096 else 100000 - (i 1).val * 4096 := by
  have hi : (i 1).val < 25 := (i 1).isLt
  have e : cc0_transform_4 i 1 = (i 1).val := by
    show (BitVec.ofNat 32 (i 1).val).toNat = (i 1).val
    rw [BitVec.toNat_ofNat]
    omega
  show (Pipeline.Clip.of (cc0_transform_4 i 1) 4096 100000).extent 4096 = _
  rw [e]
  unfold Pipeline.Clip.of
  split <;> rfl

/-- Every row of a block lies inside the array: 8 · 256 = 2048. -/
theorem xsize_row (i : grid0.Coords) : win0_4.xsize i 0 = 256 := by
  have hi : (i 0).val < 8 := (i 0).isLt
  have e : cc0_transform_4 i 0 = (i 0).val := by
    show (BitVec.ofNat 32 (i 0).val).toNat = (i 0).val
    rw [BitVec.toNat_ofNat]
    omega
  show (Pipeline.Clip.of (cc0_transform_4 i 0) 256 2048).extent 256 = _
  rw [e]
  unfold Pipeline.Clip.of
  rw [if_pos (by omega)]

/-- A position of the block that the transfer does not move has its global column at or past 100000. -/
theorem col_ge_of_not_moved (i : grid0.Coords) (y : win0_4.block.Idx) (h : ¬win0_4.moved i y = true) :
    100000 ≤ 4096 * (i 1).val + (y 1).val := by
  rw [Pipeline.Window.moved_iff] at h
  by_contra hlt
  apply h
  intro a
  have h0 := (y 0).isLt
  have h1 := (y 1).isLt
  match a with
  | 0 => rw [xsize_row]; exact h0
  | 1 =>
    rw [xsize_col]
    split
    · exact h1
    · omega

/-- The masked logits are the same for any two fillers of the part of the block past the array's end. -/
theorem pay7_fill (i : grid0.Coords) (d d' : win0_4.block.Idx → Elt F .f32) (g : (win0_4.xblock i).Idx → Elt F .f32)
    (v8 : Vec F S256x1 .f32) (v10 : Vec F S1x1 .f32) (v22 : Vec F S256x1 .i32) (v26 : Vec F S256x1 .f32) :
    k0_pay7 i (win0_4.fill i d g) v8 v10 v22 v26 = k0_pay7 i (win0_4.fill i d' g) v8 v10 v22 v26 := by
  funext y
  apply pay7_congr
  intro hlt
  by_cases hm : win0_4.moved i y = true
  · unfold Pipeline.Window.fill
    rw [dif_pos hm, dif_pos hm]
  · have := col_ge_of_not_moved i y hm
    omega

/-- The row maxima of the masked logits likewise. -/
theorem pay8_fill (i : grid0.Coords) (d d' : win0_4.block.Idx → Elt F .f32) (g : (win0_4.xblock i).Idx → Elt F .f32)
    (v8 : Vec F S256x1 .f32) (v10 : Vec F S1x1 .f32) (v22 : Vec F S256x1 .i32) (v26 : Vec F S256x1 .f32) :
    k0_pay8 i (win0_4.fill i d g) v8 v10 v22 v26 = k0_pay8 i (win0_4.fill i d' g) v8 v10 v22 v26 := by
  unfold k0_pay8
  rw [pay7_fill i d d' g]

end Cert.Kernel.Body

end
-- ==== Proof.K.Body.lean ====
/- The body obligation of the pipelined kernel at every grid point, and the frame run.

   At a point the body is handed the five input buffers at their blocks (the column window's filled out,
   past the array's end, with whatever the buffer held), the output's buffer, and through the invariant
   the two carried scratch buffers. The point is in one of three cases by its column block: the first of
   a row (the scratch is reset: it may arrive holding anything), a middle one, or the last (the output
   block is stored). In each case the body's run leaves each scratch — and in the last case the output —
   holding its pieces, which read back as the payload terms of the contents module; the masked logits do
   not depend on the filler past the array's end, so these are the contents stated over the zero filler.
   The launch is the library's, with host lines before and after the region. -/
import proofs.«421104_j22986664968859_1_alg».proof.Proof.K.Contents
import proofs.«421104_j22986664968859_1_alg».proof.Proof.K.Pieces
import proofs.«421104_j22986664968859_1_alg».proof.Proof.K.Indep
import proofs.«421104_j22986664968859_1_alg».proof.Proof.K.RunC
import Idealize.ShloMosaic.Lib.Pipeline.Frame
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The payloads over any filler -/

/-- The running maximum a point leaves, computed over the column block filled out with any filler,
    is the one stated over the zero filler. -/
theorem step_fst (c : Dev nD) (t : Fin cfg0.N) (d4 : win0_4.block.Idx → Elt F .f32)
    (p : Vec F S256x1 .f32 × Vec F S256x1 .f32) :
    k0_pay3 (k0_pay8 (grid0.coords t) (win0_4.fill (grid0.coords t) d4 (iblk m c 4 t)) (iblk m c 1 t) (iblk m c 3 t) (iblk m c 0 t) (iblk m c 2 t)) p.1
      = (scStep m c t p).1 := by
  unfold scStep rmAt xb4
  rw [pay8_fill (grid0.coords t) d4 (fun _ => Scalar.ofBits .f32 0#32)]

/-- The running sum likewise. -/
theorem step_snd (c : Dev nD) (t : Fin cfg0.N) (d4 : win0_4.block.Idx → Elt F .f32)
    (p : Vec F S256x1 .f32 × Vec F S256x1 .f32) :
    k0_pay2 (k0_pay7 (grid0.coords t) (win0_4.fill (grid0.coords t) d4 (iblk m c 4 t)) (iblk m c 1 t) (iblk m c 3 t) (iblk m c 0 t) (iblk m c 2 t))
        (k0_pay8 (grid0.coords t) (win0_4.fill (grid0.coords t) d4 (iblk m c 4 t)) (iblk m c 1 t) (iblk m c 3 t) (iblk m c 0 t) (iblk m c 2 t)) p.1 p.1 p.2
      = (scStep m c t p).2 := by
  unfold scStep lgAt rmAt xb4
  rw [pay8_fill (grid0.coords t) d4 (fun _ => Scalar.ofBits .f32 0#32),
    pay7_fill (grid0.coords t) d4 (fun _ => Scalar.ofBits .f32 0#32)]

/-- The running maximum the first point of a row leaves, over any filler. -/
theorem reset_fst (c : Dev nD) (t : Fin cfg0.N) (d4 : win0_4.block.Idx → Elt F .f32) :
    k0_pay3 (k0_pay8 (grid0.coords t) (win0_4.fill (grid0.coords t) d4 (iblk m c 4 t)) (iblk m c 1 t) (iblk m c 3 t) (iblk m c 0 t) (iblk m c 2 t)) (k0_pay5 (F := F))
      = (scReset m c t).1 := by
  unfold scReset rmAt xb4
  rw [pay8_fill (grid0.coords t) d4 (fun _ => Scalar.ofBits .f32 0#32)]

/-- The running sum the first point of a row leaves, over any filler. -/
theorem reset_snd (c : Dev nD) (t : Fin cfg0.N) (d4 : win0_4.block.Idx → Elt F .f32) :
    k0_pay2 (k0_pay7 (grid0.coords t) (win0_4.fill (grid0.coords t) d4 (iblk m c 4 t)) (iblk m c 1 t) (iblk m c 3 t) (iblk m c 0 t) (iblk m c 2 t))
        (k0_pay8 (grid0.coords t) (win0_4.fill (grid0.coords t) d4 (iblk m c 4 t)) (iblk m c 1 t) (iblk m c 3 t) (iblk m c 0 t) (iblk m c 2 t))
        (k0_pay5 (F := F)) (k0_pay5 (F := F)) (k0_pay6 (F := F))
      = (scReset m c t).2 := by
  unfold scReset lgAt rmAt xb4
  rw [pay8_fill (grid0.coords t) d4 (fun _ => Scalar.ofBits .f32 0#32),
    pay7_fill (grid0.coords t) d4 (fun _ => Scalar.ofBits .f32 0#32)]

/-! ## What each window's buffer is left at -/

theorem leaves0_0 (c : Dev nD) (t : Fin cfg0.N) :
    (dats m 0 c).leaves 0 t = owns (c : Thread nD τ) (ms0_0 t) fullShare (iblk m c 0 t) := by
  have h : (dats m 0 c).leaves 0 t = owns (c : Thread nD τ) (ms0_0 t) fullShare ((dats m 0 c).after 0 t) := by
    unfold Dat.leaves; rw [liveAt0_0 t]
  rw [h, after0_0]
theorem leaves0_1 (c : Dev nD) (t : Fin cfg0.N) :
    (dats m 0 c).leaves 1 t = owns (c : Thread nD τ) (ms0_1 t) fullShare (iblk m c 1 t) := by
  have h : (dats m 0 c).leaves 1 t = owns (c : Thread nD τ) (ms0_1 t) fullShare ((dats m 0 c).after 1 t) := by
    unfold Dat.leaves; rw [liveAt0_1 t]
  rw [h, after0_1]
theorem leaves0_2 (c : Dev nD) (t : Fin cfg0.N) :
    (dats m 0 c).leaves 2 t = owns (c : Thread nD τ) (ms0_2 t) fullShare (iblk m c 2 t) := by
  have h : (dats m 0 c).leaves 2 t = owns (c : Thread nD τ) (ms0_2 t) fullShare ((dats m 0 c).after 2 t) := by
    unfold Dat.leaves; rw [liveAt0_2 t]
  rw [h, after0_2]
theorem leaves0_3 (c : Dev nD) (t : Fin cfg0.N) :
    (dats m 0 c).leaves 3 t = owns (c : Thread nD τ) (ms0_3 t) fullShare (iblk m c 3 t) := by
  have h : (dats m 0 c).leaves 3 t = owns (c : Thread nD τ) (ms0_3 t) fullShare ((dats m 0 c).after 3 t) := by
    unfold Dat.leaves; rw [liveAt0_3 t]
  rw [h, after0_3]
/-- The column window's buffer is left holding its block on the part inside the array, and anything
    past the array's end. -/
theorem leaves0_4 (c : Dev nD) (t : Fin cfg0.N) :
    (dats m 0 c).leaves 4 t
      = iprop(∃ d, owns (c : Thread nD τ) (ms0_4 t) fullShare (win0_4.fill (grid0.coords t) d (iblk m c 4 t))) := by
  have h : (dats m 0 c).leaves 4 t
      = iprop(∃ d, owns (c : Thread nD τ) (ms0_4 t) fullShare (win0_4.fill (grid0.coords t) d (win0_4.cut (grid0.coords t) ((dats m 0 c).after 4 t)))) := by
    unfold Dat.leaves; rw [liveAt0_4 t]; rfl
  rw [h, after0_4]; unfold xb4; rw [Window.cut_fill]
/-- Where the output block is stored its buffer is left at the stated contents. -/
theorem leaves0_5_live (c : Dev nD) (t : Fin cfg0.N) (hc1 : cond0_1 (grid0.coords t)) :
    (dats m 0 c).leaves 5 t = owns (c : Thread nD τ) (ms0_5 t) fullShare (outAt m c t.val t.isLt) := by
  have h : (dats m 0 c).leaves 5 t = owns (c : Thread nD τ) (ms0_5 t) fullShare ((dats m 0 c).after 5 t) := by
    unfold Dat.leaves; rw [liveAt0_5 t hc1]
  rw [h, after0_5]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t)

set_option maxHeartbeats 4800000 in
/-- The body at any point. The inputs' buffers hold their blocks, the column window's filled out with
    whatever its buffer held; the point's column block says which case it is in; the invariant hands the
    body the two scratch buffers at what the point before left (at anything at the first point) and takes
    them back at this point's contents, each read back off its pieces; the output's buffer is handed back
    as it came except at a row's last point, where it is left at maximum + log sum; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 200 := lt_of_lt_of_eq t.isLt (show cfg0.N = 200 from N_0)
  by_cases h0 : t.val % 25 = 0
  · -- the first point of a row
    have hc0 : cond0_0 (grid0.coords t) := (hcond0_0 t).mpr h0
    have hc1 : ¬cond0_1 (grid0.coords t) := fun h => by have := (hcond0_1 t).mp h; omega
    rw [Dat.leaves_idle (dats m 0 c) 5 t (idleAt0_5 t hc1) (noFlush0_5 t hc1)]
    rw [scAt_reset m c t h0]
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk m c 0 t) (iblk m c 1 t) (iblk m c 2 t) (iblk m c 3 t) (win0_4.fill (grid0.coords t) d4 (iblk m c 4 t))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact (pieceA_0 c _ _ _ _ _ _ _ _ _ _ _ _ _ _ _ _ _ _ _ _ _ _ _ _ _).trans (reset_fst m c t d4)
          · unfold owns; iexists _; isplitr
            swap; · iexact HS1
            ipureintro; exact (pieceA_1 c _ _ _ _ _ _ _ _ _ _ _ _ _ _ _ _ _ _ _ _ _ _ _ _ _).trans (reset_snd m c t d4)
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk m c 0 t) (iblk m c 1 t) (iblk m c 2 t) (iblk m c 3 t) (win0_4.fill (grid0.coords t) d4 (iblk m c 4 t))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact (pieceA_0 c _ _ _ _ _ _ _ _ _ _ _ _ _ _ _ _ _ _ _ _ _ _ _ _ _).trans (reset_fst m c t d4)
          · unfold owns; iexists _; isplitr
            swap; · iexact HS1
            ipureintro; exact (pieceA_1 c _ _ _ _ _ _ _ _ _ _ _ _ _ _ _ _ _ _ _ _ _ _ _ _ _).trans (reset_snd m c t d4)
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5
  · have hc0 : ¬cond0_0 (grid0.coords t) := fun h => h0 ((hcond0_0 t).mp h)
    have hz : t.val ≠ 0 := fun hz => h0 (by rw [hz])
    by_cases h24 : t.val % 25 = 24
    · -- the last point of a row
      have hc1 : cond0_1 (grid0.coords t) := (hcond0_1 t).mpr h24
      rw [leaves0_5_live m c t hc1]
      unfold outAt
      rw [scAt_step m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk m c 0 t) (iblk m c 1 t) (iblk m c 2 t) (iblk m c 3 t) (win0_4.fill (grid0.coords t) d4 (iblk m c 4 t)) (scAt m c (t.val - 1) (Nat.lt_of_le_of_lt (Nat.sub_le _ _) t.isLt)).1 (scAt m c (t.val - 1) (Nat.lt_of_le_of_lt (Nat.sub_le _ _) t.isLt)).2).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact (pieceC_0 c _ _ _ _ _ _ _ _ _ _ _ _ _ _ _ _ _ _ _ _ _ _ _ _ _ _ _).trans (step_fst m c t d4 _)
          · unfold owns; iexists _; isplitr
            swap; · iexact HS1
            ipureintro; exact (pieceC_1 c _ _ _ _ _ _ _ _ _ _ _ _ _ _ _ _ _ _ _ _ _ _ _ _ _ _ _).trans (step_snd m c t d4 _)
        iexact Hg
      isplitl [Ho]; · iexact Ho
      isplitl [H0]; · iexact H0
      isplitl [H1]; · iexact H1
      isplitl [H2]; · iexact H2
      isplitl [H3]; · iexact H3
      isplitl [H4]; · iexists d4; iexact H4
      unfold owns; iexists _; isplitr
      swap; · iexact H5
      ipureintro
      exact (pieceC_5 c _ _ _ _ _ _ _ _ _ _ _ _ _ _ _ _ _ _ _ _ _ _ _ _ _ _ _).trans
        (by rw [step_fst m c t d4 (scAt m c (t.val - 1) (Nat.lt_of_le_of_lt (Nat.sub_le _ _) t.isLt)), step_snd m c t d4 (scAt m c (t.val - 1) (Nat.lt_of_le_of_lt (Nat.sub_le _ _) t.isLt))])
    · -- a middle point of a row
      have hc1 : ¬cond0_1 (grid0.coords t) := fun h => h24 ((hcond0_1 t).mp h)
      rw [Dat.leaves_idle (dats m 0 c) 5 t (idleAt0_5 t hc1) (noFlush0_5 t hc1)]
      rw [scAt_step m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk m c 0 t) (iblk m c 1 t) (iblk m c 2 t) (iblk m c 3 t) (win0_4.fill (grid0.coords t) d4 (iblk m c 4 t)) (scAt m c (t.val - 1) (Nat.lt_of_le_of_lt (Nat.sub_le _ _) t.isLt)).1 (scAt m c (t.val - 1) (Nat.lt_of_le_of_lt (Nat.sub_le _ _) t.isLt)).2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact (pieceB_0 c _ _ _ _ _ _ _ _ _ _ _ _ _ _ _ _ _ _ _ _ _ _ _ _ _ _ _).trans (step_fst m c t d4 _)
          · unfold owns; iexists _; isplitr
            swap; · iexact HS1
            ipureintro; exact (pieceB_1 c _ _ _ _ _ _ _ _ _ _ _ _ _ _ _ _ _ _ _ _ _ _ _ _ _ _ _).trans (step_snd m c t d4 _)
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5

/-- The library's body obligation, at every point. -/
theorem body_obligation (c : Dev nD) : Pipeline.BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch buffers' named
    contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 200 := N_0; omega)

/-! ## The run and the frame -/

-- the launch theorem's implicit arguments are found by unifying its conclusion with this one, which takes
-- unfolding plain definitions in a metavariable's type
set_option backward.isDefEq.respectTransparency.types false in
/-- At the compiled mesh, for any values, from any memory with zero counters: every weakly fair execution
    of @main on the TensorCores terminates, and every final state has every array of the pipeline at what
    the library computes from the proof data and every other unscoped buffer as the host lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Runs.lean ====
/- What the three runs of the kernel body share: the body's two branch conditions decided over the
   8 x 25 grid, where the output window is idle and where it is written back, each window's current
   staging memref at a point, the two carried scratch buffers as memrefs and views, and the
   pipeline's invariant spelled over the scratch memrefs. -/
import proofs.«421104_j22986664968859_1_alg».proof.Proof.Gen.KernelIdeal.Frame
import proofs.«421104_j22986664968859_1_alg».proof.Proof.Gen.KernelIdeal.Skeleton
import Idealize.ShloMosaic.Lib.Pipeline.FrameBody
import Idealize.ShloMosaic.Lib.Ring
import Idealize.ShloMosaic.Lib.Tactic

-- membership in a rectangle of full-size extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's first conditional: grid coordinate 1 is 0 (the scalar chain of the
    body substituted). -/
abbrev cond0_0 (i : grid0.Coords) : Prop := (Scalar.cmpi .ne (Scalar.extui (Scalar.cmpi .eq (BitVec.ofNat 32 (i 1).val) 0#32)) 0#32) = 1#1
/-- It holds at the first point of each row of 25 — decided over the grid. -/
theorem hcond0_0 : ∀ t : Fin cfg0.N, cond0_0 (grid0.coords t) ↔ t.val % 25 = 0 :=
  (by decide +kernel : ∀ t : Fin grid0.N, cond0_0 (grid0.coords t) ↔ t.val % 25 = 0)

/-- The condition of the body's second conditional: grid coordinate 1 is 24. -/
abbrev cond0_1 (i : grid0.Coords) : Prop := k0_cond2 i = 1#1
/-- It holds at the last point of each row of 25 — decided over the grid. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle, fetched and written back -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl

/-- Where the second conditional fails the output window is idle: the body stores nothing into it. -/
theorem idleAt0_5 : ∀ t : Fin cfg0.N, ¬cond0_1 (grid0.coords t) → cfg0.idle 5 (grid0.coords t) = true :=
  (by decide +kernel : ∀ t : Fin grid0.N, ¬cond0_1 (grid0.coords t) → cfg0.idle 5 (grid0.coords t) = true)
/-- Where the second conditional holds the output window is live: the body stores into it. -/
theorem liveAt0_5 : ∀ t : Fin cfg0.N, cond0_1 (grid0.coords t) → cfg0.idle 5 (grid0.coords t) = false :=
  (by decide +kernel : ∀ t : Fin grid0.N, cond0_1 (grid0.coords t) → cfg0.idle 5 (grid0.coords t) = false)
/-- Where the second conditional fails the output's block is not written back. -/
theorem noFlush0_5 : ∀ t : Fin cfg0.N, ¬cond0_1 (grid0.coords t) → (cfg0.win 5).flush t = false := fun t h => by
  have h1 := (Gen.flush0_5 t).not.2 (fun h' => h ((hcond0_1 t).2 h'))
  exact Bool.eq_false_iff.2 h1
/-- Where the second conditional holds the output's block is written back. -/
theorem flush0_5 : ∀ t : Fin cfg0.N, cond0_1 (grid0.coords t) → (cfg0.win 5).flush t = true := fun t h =>
  (Gen.flush0_5 t).2 ((hcond0_1 t).1 h)
/-- Window 4's block index moves at every point: it is fetched at every point. -/
theorem fetch0_4 : ∀ t : Fin cfg0.N, (cfg0.win 4).fetch t = true := Gen.fetch0_4

/-! ## The staging and scratch memrefs the body is called on -/

/-- One staging buffer of the output window, through which its contents are stated. -/
abbrev VO0_5 : View sig .tc .vmem S256x1 .f32 := (Memref.whole cc0_stg5_0 : Memref sig .tc .vmem S256x1 .f32).view
/-- Each window's current staging memref at point `t`, as the pipeline passes it, and its wholeness. -/
abbrev ms0_0 (t : Fin cfg0.N) : Memref sig .tc .vmem S256x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x1 .f32 := Memref.whole cc0_scratch0
abbrev scM0_1 : Memref sig .tc .vmem S256x1 .f32 := Memref.whole cc0_scratch1
/-- The two scratch buffers the kernel carries between points (the running maximum and the running
    sum), as views: what they hold is stated through them. -/
abbrev VS0_0 : View sig .tc .vmem S256x1 .f32 := scM0_0.view
abbrev VS0_1 : View sig .tc .vmem S256x1 .f32 := scM0_1.view

/-- The pipeline's invariant with the scratch operands as memrefs owned at some contents: what the
    body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.KI.Contents.lean ====
/- What the staging buffers and the two carried scratch buffers hold after the kernel body at each grid
   point, as explicit terms of the body's payloads over the input blocks, and the pipeline's proof data
   stated over them. The grid is 8 row blocks by 25 column blocks; point n is row block n / 25, column block
   n % 25. The two scratch buffers hold, per row of the block, the running maximum and the running sum of
   exponentials of the row's logits over the column blocks met so far; they are reset at column block 0,
   and at column block 24 the output block receives maximum + log sum. The column window's blocks overhang
   the array in the last column block: the buffer's tail there holds words nothing names, which the proof
   data fix as the zero word (the body's values do not depend on them). -/
import proofs.«421104_j22986664968859_1_alg».proof.Proof.KI.Runs
import Idealize.ShloMosaic.Lib.Pipeline.Frame
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The input blocks at a point, each at its literal type -/

/-- The labels' block at point `t` (rows of the point's row block). -/
abbrev xb0 (c : Dev nD) (t : Fin cfg0.N) : Vec F S256x1 .i32 := iblk m c 0 t
/-- The margin cosines' block at point `t`. -/
abbrev xb1 (c : Dev nD) (t : Fin cfg0.N) : Vec F S256x1 .f32 := iblk m c 1 t
/-- The target logits' block at point `t`. -/
abbrev xb2 (c : Dev nD) (t : Fin cfg0.N) : Vec F S256x1 .f32 := iblk m c 2 t
/-- The scalar `t`'s one-entry block. -/
abbrev xb3 (c : Dev nD) (t : Fin cfg0.N) : Vec F S1x1 .f32 := iblk m c 3 t
/-- The cosine array's block at point `t`, filled out past the array's end (the last column block
    overhangs it by 2400 columns) with the zero word. -/
def xb4 (c : Dev nD) (t : Fin cfg0.N) : Vec F S256x4096 .f32 :=
  win0_4.fill (grid0.coords t) (fun _ => Scalar.ofBits .f32 0#32) (iblk m c 4 t)

/-- The block of masked, scaled logits the body computes at point `t`. -/
def lgAt (c : Dev nD) (t : Fin cfg0.N) : FVec F S256x4096 .f32 :=
  k0_pay7 (grid0.coords t) (xb4 m c t) (xb1 m c t) (xb3 m c t) (xb0 m c t) (xb2 m c t)
/-- Its row maxima. -/
def rmAt (c : Dev nD) (t : Fin cfg0.N) : FVec F S256 .f32 :=
  k0_pay8 (grid0.coords t) (xb4 m c t) (xb1 m c t) (xb3 m c t) (xb0 m c t) (xb2 m c t)

/-! ## The carried scratch after each point -/

/-- What a point whose column block is 0 leaves in the two scratch buffers: the update from the reset
    state (maximum -∞, sum 0). -/
def scReset (c : Dev nD) (t : Fin cfg0.N) : Vec F S256x1 .f32 × Vec F S256x1 .f32 :=
  (k0_pay3 (rmAt m c t) (k0_pay5 (F := F)), k0_pay2 (lgAt m c t) (rmAt m c t) (k0_pay5 (F := F)) (k0_pay5 (F := F)) (k0_pay6 (F := F)))
/-- What any other point leaves there: the update from what the point before left, `p`. -/
def scStep (c : Dev nD) (t : Fin cfg0.N) (p : Vec F S256x1 .f32 × Vec F S256x1 .f32) : Vec F S256x1 .f32 × Vec F S256x1 .f32 :=
  (k0_pay3 (rmAt m c t) p.1, k0_pay2 (lgAt m c t) (rmAt m c t) p.1 p.1 p.2)

/-- The two scratch buffers (running maximum, running sum) after the body at point `n`, by recursion on
    the point. -/
def scAt (c : Dev nD) : (n : ℕ) → n < cfg0.N → Vec F S256x1 .f32 × Vec F S256x1 .f32
  | 0, hn => scReset m c ⟨0, hn⟩
  | n + 1, hn =>
    if (n + 1) % 25 = 0 then scReset m c ⟨n + 1, hn⟩
    else scStep m c ⟨n + 1, hn⟩ (scAt c n (Nat.lt_of_succ_lt hn))

theorem scAt_reset (c : Dev nD) (t : Fin cfg0.N) (h : t.val % 25 = 0) : scAt m c t.val t.isLt = scReset m c t := by
  obtain ⟨n, hn⟩ := t
  cases n with
  | zero => rfl
  | succ n => exact if_pos h

theorem scAt_step (c : Dev nD) (t : Fin cfg0.N) (h : ¬t.val % 25 = 0) :
    scAt m c t.val t.isLt = scStep m c t (scAt m c (t.val - 1) (Nat.lt_of_le_of_lt (Nat.sub_le _ _) t.isLt)) := by
  obtain ⟨n, hn⟩ := t
  cases n with
  | zero => exact absurd (Nat.zero_mod _) h
  | succ n => exact if_neg h

/-- What the output block's staging buffer holds after the body at point `n` where the body stores into it
    (column block 24): running maximum + log of the running sum, of what the point leaves in the scratch. At
    the other points the window is idle and this term is not consulted. -/
def outAt (c : Dev nD) (n : ℕ) (hn : n < cfg0.N) : Vec F S256x1 .f32 :=
  k0_pay4 (scAt m c n hn).1 (scAt m c n hn).2

/-! ## The region invariant -/

/-- The region invariant before position `n`: before the first point the class's (every scratch at
    anything); afterwards the two scratch buffers at what the point before left and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((scAt m c n hn).1) ∗ owns (c : Thread nD τ) scM0_1 fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt m c n hn).1) ∗ owns (c : Thread nD τ) scM0_1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt m c (n - 1) (by omega)).1) ∗ owns (c : Thread nD τ) scM0_1 fullShare ((scAt m c (n - 1) (by omega)).2)) ∗ (∃ r, prngReg c r)) := by
  cases n with
  | zero => exact absurd rfl hz
  | succ n => rfl

/-! ## The pipeline's proof data -/

/-- The proof data of the one pipeline on core `c`: the arrays as the region finds them; after the body at
    point `t` each input's buffer at its block (the column window's filled out with the zero word) and the
    output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xb4 m c t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = xb4 m c t := by dsimp only [dats]
theorem after0_5 (c : Dev nD) (t : Fin cfg0.N) : (dats m 0 c).after 5 t = outAt m c t.val t.isLt := by dsimp only [dats]

/-- Each uncut input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The column window is fetched at every point: its buffer holds the block on the part inside the array
    and whatever the overwrite before the fetch left, `d`, past the array's end. -/
theorem before0_4 (c : Dev nD) (t : Fin cfg0.N) (d) :
    (dats m 0 c).before 4 t d = win0_4.fill (grid0.coords t) d (iblk m c 4 t) := by
  unfold Dat.before; rw [if_pos (fetch0_4 t)]
  unfold Dat.fetched Dat.blockOf iblk; rw [A_eq]

end Cert.KernelIdeal.Body

end
-- ==== Proof.KI.RunA.lean ====
/- The run of the kernel body at the first point of a row of the grid: the first conditional is
   taken (the running maximum is reset to minus infinity and the running sum to zero, whatever the
   two scratch buffers held), the second is not; the scratches are then read and stored into once
   more each; the output's staging buffer is not touched. -/
import proofs.«421104_j22986664968859_1_alg».proof.Proof.KI.Runs

-- membership in a rectangle of full-size extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in the output's staging memref and in the two scratch memrefs, as
    pieces (last first), when the first conditional is taken and the second is not, WITH the proof
    that on whole memrefs — the five inputs at their contents, the output's buffer at contents `xi5`
    handed back untouched, the scratches at ANY contents — the body runs to the continuation holding
    the inputs as they were, the output's buffer as it was, and each scratch with its pieces written. -/
noncomputable def kernelRun0_A (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : cond0_0 i) (hc1 : ¬cond0_1 i)
    (x0 : Vec F S256x1 .i32) (x1 x2 : Vec F S256x1 .f32) (x3 : Vec F S1x1 .f32) (x4 : Vec F S256x4096 .f32) :
    Σ' (L5 : List (View.Piece (Elt F) S256x1 .f32)) (LS0 : List (View.Piece (Elt F) S256x1 .f32)), { LS1 : List (View.Piece (Elt F) S256x1 .f32) //
      ∀ (xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨[], ?_, ?_, fun xi5 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Body

end
-- ==== Proof.KI.RunB.lean ====
/- The run of the kernel body at a point in the middle of a row of the grid: neither conditional
   is taken; the two carried scratch buffers arrive at the contents the point before left, are read,
   and are stored into once each; the output's staging buffer is not touched. -/
import proofs.«421104_j22986664968859_1_alg».proof.Proof.KI.RunA

-- membership in a rectangle of full-size extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in the output's staging memref and in the two scratch memrefs, as
    pieces (last first), when neither conditional is taken, WITH the proof that on whole memrefs —
    the five inputs at their contents, the output's buffer at contents `xi5` handed back untouched,
    the scratches at the contents `xs0`, `xs1` the point before left — the body runs to the
    continuation holding the inputs as they were, the output's buffer as it was, and each scratch
    with its pieces written. -/
noncomputable def kernelRun0_B (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : ¬cond0_1 i)
    (x0 : Vec F S256x1 .i32) (x1 x2 : Vec F S256x1 .f32) (x3 : Vec F S1x1 .f32) (x4 : Vec F S256x4096 .f32) (xs0 xs1 : Vec F S256x1 .f32) :
    Σ' (L5 : List (View.Piece (Elt F) S256x1 .f32)) (LS0 : List (View.Piece (Elt F) S256x1 .f32)), { LS1 : List (View.Piece (Elt F) S256x1 .f32) //
      ∀ (xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨[], ?_, ?_, fun xi5 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Body

end
-- ==== Proof.KI.RunC.lean ====
/- The run of the kernel body at the last point of a row of the grid: the first conditional is
   not taken, the second is; the two carried scratch buffers arrive at the contents the point before
   left, are read and stored into once each, then read back, and the row's result (the running
   maximum plus the logarithm of the running sum) is stored into the output's staging buffer. -/
import proofs.«421104_j22986664968859_1_alg».proof.Proof.KI.RunB

-- membership in a rectangle of full-size extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in the output's staging memref and in the two scratch memrefs, as
    pieces (last first), when the first conditional is not taken and the second is, WITH the proof
    that on whole memrefs — the five inputs at their contents, the output's buffer at ANY contents,
    the scratches at the contents `xs0`, `xs1` the point before left — the body runs to the
    continuation holding the inputs as they were and the output's buffer and each scratch with its
    pieces written. -/
noncomputable def kernelRun0_C (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : cond0_1 i)
    (x0 : Vec F S256x1 .i32) (x1 x2 : Vec F S256x1 .f32) (x3 : Vec F S1x1 .f32) (x4 : Vec F S256x4096 .f32) (xs0 xs1 : Vec F S256x1 .f32) :
    Σ' (L5 : List (View.Piece (Elt F) S256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨?_, ?_, ?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Body

end
-- ==== Proof.KI.Pieces.lean ====
/- What the pieces each run of the kernel body found read back as: each carried scratch buffer and the
   output's staging buffer after the body, as explicit terms of the body's payloads over the input blocks
   and over what the scratches held when the body started. -/
import proofs.«421104_j22986664968859_1_alg».proof.Proof.KI.RunC
import Idealize.ShloMosaic.Lib.Pipeline.Value

-- membership in a rectangle of full-size extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem off00 : (![0, 0] : Fin 2 → ℕ) = fun _ => 0 := by funext a; fin_cases a <;> rfl

/-- At a row's first point the running-maximum scratch ends as the update, by the block's row maxima, of the reset value (minus infinity). -/
theorem pieceA_0 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : cond0_0 i) (hc1 : ¬cond0_1 i) (x0 : Vec F S256x1 .i32) (x1 x2 : Vec F S256x1 .f32) (x3 : Vec F S1x1 .f32) (x4 : Vec F S256x4096 .f32) (f : arg8.view.ty.Contents (Elt F)) :
    arg8.view.read (Elt F) (arg8.view.writes (Elt F) f (kernelRun0_A c i arg2 harg2 arg3 harg3 arg4 harg4 arg5 harg5 arg6 harg6 arg7 harg7 arg8 harg8 arg9 harg9 hc0 hc1 x0 x1 x2 x3 x4).2.1) = k0_pay3 (k0_pay8 i x4 x1 x3 x0 x2) (k0_pay5 (F := F)) := by
  rw [View.read_writes_eq_canon _ _ _ (View.cover_of_tiledL (kernelRun0_A c i arg2 harg2 arg3 harg3 arg4 harg4 arg5 harg5 arg6 harg6 arg7 harg7 arg8 harg8 arg9 harg9 hc0 hc1 x0 x1 x2 x3 x4).2.1 S256x1.size (by sl_kernel_rfl))]
  unfold kernelRun0_A; dsimp only; sl_unfold_words
  rw [View.canon_cons_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a row's first point the running-sum scratch ends as the update of the reset values (maximum minus infinity, sum zero) by the block. -/
theorem pieceA_1 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : cond0_0 i) (hc1 : ¬cond0_1 i) (x0 : Vec F S256x1 .i32) (x1 x2 : Vec F S256x1 .f32) (x3 : Vec F S1x1 .f32) (x4 : Vec F S256x4096 .f32) (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 hc0 hc1 x0 x1 x2 x3 x4).2.2.1) = k0_pay2 (k0_pay7 i x4 x1 x3 x0 x2) (k0_pay8 i x4 x1 x3 x0 x2) (k0_pay5 (F := F)) (k0_pay5 (F := F)) (k0_pay6 (F := F)) := by
  rw [View.read_writes_eq_canon _ _ _ (View.cover_of_tiledL (kernelRun0_A c i arg2 harg2 arg3 harg3 arg4 harg4 arg5 harg5 arg6 harg6 arg7 harg7 arg8 harg8 arg9 harg9 hc0 hc1 x0 x1 x2 x3 x4).2.2.1 S256x1.size (by sl_kernel_rfl))]
  unfold kernelRun0_A; dsimp only; sl_unfold_words
  rw [View.canon_cons_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a middle point the running-maximum scratch ends as the update, by the block's row maxima, of what it held. -/
theorem pieceB_0 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : ¬cond0_1 i) (x0 : Vec F S256x1 .i32) (x1 x2 : Vec F S256x1 .f32) (x3 : Vec F S1x1 .f32) (x4 : Vec F S256x4096 .f32) (xs0 xs1 : Vec F S256x1 .f32) (f : arg8.view.ty.Contents (Elt F)) :
    arg8.view.read (Elt F) (arg8.view.writes (Elt F) f (kernelRun0_B c i arg2 harg2 arg3 harg3 arg4 harg4 arg5 harg5 arg6 harg6 arg7 harg7 arg8 harg8 arg9 harg9 hc0 hc1 x0 x1 x2 x3 x4 xs0 xs1).2.1) = k0_pay3 (k0_pay8 i x4 x1 x3 x0 x2) xs0 := by
  rw [View.read_writes_eq_canon _ _ _ (View.cover_of_tiledL (kernelRun0_B c i arg2 harg2 arg3 harg3 arg4 harg4 arg5 harg5 arg6 harg6 arg7 harg7 arg8 harg8 arg9 harg9 hc0 hc1 x0 x1 x2 x3 x4 xs0 xs1).2.1 S256x1.size (by sl_kernel_rfl))]
  unfold kernelRun0_B; dsimp only; sl_unfold_words
  rw [View.canon_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a middle point the running-sum scratch ends as the update by the block of what the two scratches held. -/
theorem pieceB_1 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : ¬cond0_1 i) (x0 : Vec F S256x1 .i32) (x1 x2 : Vec F S256x1 .f32) (x3 : Vec F S1x1 .f32) (x4 : Vec F S256x4096 .f32) (xs0 xs1 : Vec F S256x1 .f32) (f : arg9.view.ty.Contents (Elt F)) :
    arg9.view.read (Elt F) (arg9.view.writes (Elt F) f (kernelRun0_B c i arg2 harg2 arg3 harg3 arg4 harg4 arg5 harg5 arg6 harg6 arg7 harg7 arg8 harg8 arg9 harg9 hc0 hc1 x0 x1 x2 x3 x4 xs0 xs1).2.2.1) = k0_pay2 (k0_pay7 i x4 x1 x3 x0 x2) (k0_pay8 i x4 x1 x3 x0 x2) xs0 xs0 xs1 := by
  rw [View.read_writes_eq_canon _ _ _ (View.cover_of_tiledL (kernelRun0_B c i arg2 harg2 arg3 harg3 arg4 harg4 arg5 harg5 arg6 harg6 arg7 harg7 arg8 harg8 arg9 harg9 hc0 hc1 x0 x1 x2 x3 x4 xs0 xs1).2.2.1 S256x1.size (by sl_kernel_rfl))]
  unfold kernelRun0_B; dsimp only; sl_unfold_words
  rw [View.canon_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a row's last point the running-maximum scratch ends as at a middle point. -/
theorem pieceC_0 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : cond0_1 i) (x0 : Vec F S256x1 .i32) (x1 x2 : Vec F S256x1 .f32) (x3 : Vec F S1x1 .f32) (x4 : Vec F S256x4096 .f32) (xs0 xs1 : Vec F S256x1 .f32) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 hc0 hc1 x0 x1 x2 x3 x4 xs0 xs1).2.1) = k0_pay3 (k0_pay8 i x4 x1 x3 x0 x2) xs0 := by
  rw [View.read_writes_eq_canon _ _ _ (View.cover_of_tiledL (kernelRun0_C c i arg2 harg2 arg3 harg3 arg4 harg4 arg5 harg5 arg6 harg6 arg7 harg7 arg8 harg8 arg9 harg9 hc0 hc1 x0 x1 x2 x3 x4 xs0 xs1).2.1 S256x1.size (by sl_kernel_rfl))]
  unfold kernelRun0_C; dsimp only; sl_unfold_words
  rw [View.canon_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a row's last point the running-sum scratch ends as at a middle point. -/
theorem pieceC_1 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : cond0_1 i) (x0 : Vec F S256x1 .i32) (x1 x2 : Vec F S256x1 .f32) (x3 : Vec F S1x1 .f32) (x4 : Vec F S256x4096 .f32) (xs0 xs1 : Vec F S256x1 .f32) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 hc0 hc1 x0 x1 x2 x3 x4 xs0 xs1).2.2.1) = k0_pay2 (k0_pay7 i x4 x1 x3 x0 x2) (k0_pay8 i x4 x1 x3 x0 x2) xs0 xs0 xs1 := by
  rw [View.read_writes_eq_canon _ _ _ (View.cover_of_tiledL (kernelRun0_C c i arg2 harg2 arg3 harg3 arg4 harg4 arg5 harg5 arg6 harg6 arg7 harg7 arg8 harg8 arg9 harg9 hc0 hc1 x0 x1 x2 x3 x4 xs0 xs1).2.2.1 S256x1.size (by sl_kernel_rfl))]
  unfold kernelRun0_C; dsimp only; sl_unfold_words
  rw [View.canon_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

/-- At a row's last point the output's staging buffer ends as the final maximum plus the logarithm of the final sum: the two scratches read back after their updates. -/
theorem pieceC_5 (c : Dev nD) (i : grid0.Coords) (arg2 : Memref sig .tc .vmem S256x1 .i32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : cond0_1 i) (x0 : Vec F S256x1 .i32) (x1 x2 : Vec F S256x1 .f32) (x3 : Vec F S1x1 .f32) (x4 : Vec F S256x4096 .f32) (xs0 xs1 : Vec F S256x1 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 hc0 hc1 x0 x1 x2 x3 x4 xs0 xs1).1) = k0_pay4 (k0_pay3 (k0_pay8 i x4 x1 x3 x0 x2) xs0) (k0_pay2 (k0_pay7 i x4 x1 x3 x0 x2) (k0_pay8 i x4 x1 x3 x0 x2) xs0 xs0 xs1) := by
  rw [View.read_writes_eq_canon _ _ _ (View.cover_of_tiledL (kernelRun0_C c i arg2 harg2 arg3 harg3 arg4 harg4 arg5 harg5 arg6 harg6 arg7 harg7 arg8 harg8 arg9 harg9 hc0 hc1 x0 x1 x2 x3 x4 xs0 xs1).1 S256x1.size (by sl_kernel_rfl))]
  unfold kernelRun0_C; dsimp only; sl_unfold_words
  rw [View.canon_unit_zero (S := S256x1) off00]
  simp only [View.readAt_eq_ld, Memref.IsWhole.read_unread, View.ld_unit_zero (S := S256x1) off00, View.ld_unit_zero (S := S1x1) off00, View.ld_unit_zero (S := S256x4096) off00, View.readCov_unit_zero (S := S256x1) _ off00]

end Cert.KernelIdeal.Body

end
-- ==== Proof.KI.Indep.lean ====
/-
  The masked logits do not depend on what lies past the array's end.

  The window of the 2048 × 100000 array is cut into blocks of 256 × 4096; the last column block
  (block 24) holds 100000 − 24 · 4096 = 1696 columns of the array, and the rest of the block lies
  past the array's end. The body replaces by a constant every entry whose global column,
  4096 · (column block) + (column in the block), is not below 100000. A position of the block is
  either inside the array, where the block's contents are the array's whatever filler is used, or
  past its end, where the global column is at least 100000 and the entry is replaced by the
  constant. So the masked block is the same for any two fillers.
-/
import proofs.«421104_j22986664968859_1_alg».proof.Proof.Gen.KernelIdeal.Skeleton
import proofs.«421104_j22986664968859_1_alg».proof.Proof.Gen.KernelIdeal.Frame
import Idealize.ShloMosaic.Lib.Pipeline
import Idealize.ShloMosaic.Lib.StableHlo.Predicate

noncomputable section

namespace Cert.KernelIdeal.Body

open Idealize.ShloMosaic
open Cert.KernelIdeal Cert.KernelIdeal.Gen

variable {F : FTy → Type} [FloatOps F] [Named F]

/-- A choice between two values by a one-bit word depends on the first value only where the bit is set. -/
theorem select_congr {α : Type} (c : BitVec 1) (a a' b : α) (h : c = 1#1 → a = a') :
    Scalar.select c a b = Scalar.select c a' b := by
  unfold Scalar.select
  split
  · next hc => rw [h hc]
  · rfl

/-- The compare "global column < 100000" on 32-bit words, decoded: column q of column block c passes
    it only if 4096 · c + q < 100000. All the numbers are below 2³¹. -/
theorem col_lt (c : Fin 25) (q : Fin 4096)
    (h : IntOp.cmpi .slt (IntOp.addi (BitVec.ofNat 32 (0 * 4096 + q.val)) (Scalar.muli (BitVec.ofNat 32 c.val) 4096#32))
      100000#32 = 1#1) : 4096 * c.val + q.val < 100000 := by
  have hc := c.isLt
  have hq := q.isLt
  have e : (IntOp.addi (BitVec.ofNat 32 (0 * 4096 + q.val)) (Scalar.muli (BitVec.ofNat 32 c.val) 4096#32)).toNat
      = 4096 * c.val + q.val := by
    simp only [IntOp.addi, Scalar.muli, IntOp.muli, BitVec.toNat_add, BitVec.toNat_mul, BitVec.toNat_ofNat]
    omega
  rw [StableHlo.Predicate.slt_iff_toNat (by rw [e]; omega) (by decide), e] at h
  simpa using h

/-- The window's pointwise form: at a position y the masked logits read the block only at y, and
    only if the global column of y is below 100000. -/
theorem pay7_congr (i : grid0.Coords) (v3 v3' : Vec F S256x4096 .f32) (v8 : Vec F S256x1 .f32) (v10 : Vec F S1x1 .f32)
    (v22 : Vec F S256x1 .i32) (v26 : Vec F S256x1 .f32) (y : S256x4096.Idx)
    (h : 4096 * (i 1).val + (y 1).val < 100000 → v3 y = v3' y) :
    k0_pay7 i v3 v8 v10 v22 v26 y = k0_pay7 i v3' v8 v10 v22 v26 y := by
  unfold k0_pay7
  dsimp only [select, cmpi, cmpf, mulf, addf, maximumf, minimumf, broadcast, addi, iota, List.foldl]
  apply select_congr
  intro hc
  rw [h (col_lt (i 1) (y 1) hc)]

/-- How many columns of column block c lie inside the array: all 4096 when the block ends inside
    it, else 100000 − 4096 · c. -/
theorem xsize_col (i : grid0.Coords) :
    win0_4.xsize i 1 = if ((i 1).val + 1) * 4096 ≤ 100000 then 4096 else 100000 - (i 1).val * 4096 := by
  have hi : (i 1).val < 25 := (i 1).isLt
  have e : cc0_transform_4 i 1 = (i 1).val := by
    show (BitVec.ofNat 32 (i 1).val).toNat = (i 1).val
    rw [BitVec.toNat_ofNat]
    omega
  show (Pipeline.Clip.of (cc0_transform_4 i 1) 4096 100000).extent 4096 = _
  rw [e]
  unfold Pipeline.Clip.of
  split <;> rfl

/-- Every row of a block lies inside the array: 8 · 256 = 2048. -/
theorem xsize_row (i : grid0.Coords) : win0_4.xsize i 0 = 256 := by
  have hi : (i 0).val < 8 := (i 0).isLt
  have e : cc0_transform_4 i 0 = (i 0).val := by
    show (BitVec.ofNat 32 (i 0).val).toNat = (i 0).val
    rw [BitVec.toNat_ofNat]
    omega
  show (Pipeline.Clip.of (cc0_transform_4 i 0) 256 2048).extent 256 = _
  rw [e]
  unfold Pipeline.Clip.of
  rw [if_pos (by omega)]

/-- A position of the block that the transfer does not move has its global column at or past 100000. -/
theorem col_ge_of_not_moved (i : grid0.Coords) (y : win0_4.block.Idx) (h : ¬win0_4.moved i y = true) :
    100000 ≤ 4096 * (i 1).val + (y 1).val := by
  rw [Pipeline.Window.moved_iff] at h
  by_contra hlt
  apply h
  intro a
  have h0 := (y 0).isLt
  have h1 := (y 1).isLt
  match a with
  | 0 => rw [xsize_row]; exact h0
  | 1 =>
    rw [xsize_col]
    split
    · exact h1
    · omega

/-- The masked logits are the same for any two fillers of the part of the block past the array's end. -/
theorem pay7_fill (i : grid0.Coords) (d d' : win0_4.block.Idx → Elt F .f32) (g : (win0_4.xblock i).Idx → Elt F .f32)
    (v8 : Vec F S256x1 .f32) (v10 : Vec F S1x1 .f32) (v22 : Vec F S256x1 .i32) (v26 : Vec F S256x1 .f32) :
    k0_pay7 i (win0_4.fill i d g) v8 v10 v22 v26 = k0_pay7 i (win0_4.fill i d' g) v8 v10 v22 v26 := by
  funext y
  apply pay7_congr
  intro hlt
  by_cases hm : win0_4.moved i y = true
  · unfold Pipeline.Window.fill
    rw [dif_pos hm, dif_pos hm]
  · have := col_ge_of_not_moved i y hm
    omega

/-- The row maxima of the masked logits likewise. -/
theorem pay8_fill (i : grid0.Coords) (d d' : win0_4.block.Idx → Elt F .f32) (g : (win0_4.xblock i).Idx → Elt F .f32)
    (v8 : Vec F S256x1 .f32) (v10 : Vec F S1x1 .f32) (v22 : Vec F S256x1 .i32) (v26 : Vec F S256x1 .f32) :
    k0_pay8 i (win0_4.fill i d g) v8 v10 v22 v26 = k0_pay8 i (win0_4.fill i d' g) v8 v10 v22 v26 := by
  unfold k0_pay8
  rw [pay7_fill i d d' g]

end Cert.KernelIdeal.Body

end
-- ==== Proof.KI.Body.lean ====
/- The body obligation of the pipelined kernel at every grid point, and the frame run.

   At a point the body is handed the five input buffers at their blocks (the column window's filled out,
   past the array's end, with whatever the buffer held), the output's buffer, and through the invariant
   the two carried scratch buffers. The point is in one of three cases by its column block: the first of
   a row (the scratch is reset: it may arrive holding anything), a middle one, or the last (the output
   block is stored). In each case the body's run leaves each scratch — and in the last case the output —
   holding its pieces, which read back as the payload terms of the contents module; the masked logits do
   not depend on the filler past the array's end, so these are the contents stated over the zero filler.
   The launch is the library's, with host lines before and after the region. -/
import proofs.«421104_j22986664968859_1_alg».proof.Proof.KI.Contents
import proofs.«421104_j22986664968859_1_alg».proof.Proof.KI.Pieces
import proofs.«421104_j22986664968859_1_alg».proof.Proof.KI.Indep
import proofs.«421104_j22986664968859_1_alg».proof.Proof.KI.RunC
import Idealize.ShloMosaic.Lib.Pipeline.Frame
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The payloads over any filler -/

/-- The running maximum a point leaves, computed over the column block filled out with any filler,
    is the one stated over the zero filler. -/
theorem step_fst (c : Dev nD) (t : Fin cfg0.N) (d4 : win0_4.block.Idx → Elt F .f32)
    (p : Vec F S256x1 .f32 × Vec F S256x1 .f32) :
    k0_pay3 (k0_pay8 (grid0.coords t) (win0_4.fill (grid0.coords t) d4 (iblk m c 4 t)) (iblk m c 1 t) (iblk m c 3 t) (iblk m c 0 t) (iblk m c 2 t)) p.1
      = (scStep m c t p).1 := by
  unfold scStep rmAt xb4
  rw [pay8_fill (grid0.coords t) d4 (fun _ => Scalar.ofBits .f32 0#32)]

/-- The running sum likewise. -/
theorem step_snd (c : Dev nD) (t : Fin cfg0.N) (d4 : win0_4.block.Idx → Elt F .f32)
    (p : Vec F S256x1 .f32 × Vec F S256x1 .f32) :
    k0_pay2 (k0_pay7 (grid0.coords t) (win0_4.fill (grid0.coords t) d4 (iblk m c 4 t)) (iblk m c 1 t) (iblk m c 3 t) (iblk m c 0 t) (iblk m c 2 t))
        (k0_pay8 (grid0.coords t) (win0_4.fill (grid0.coords t) d4 (iblk m c 4 t)) (iblk m c 1 t) (iblk m c 3 t) (iblk m c 0 t) (iblk m c 2 t)) p.1 p.1 p.2
      = (scStep m c t p).2 := by
  unfold scStep lgAt rmAt xb4
  rw [pay8_fill (grid0.coords t) d4 (fun _ => Scalar.ofBits .f32 0#32),
    pay7_fill (grid0.coords t) d4 (fun _ => Scalar.ofBits .f32 0#32)]

/-- The running maximum the first point of a row leaves, over any filler. -/
theorem reset_fst (c : Dev nD) (t : Fin cfg0.N) (d4 : win0_4.block.Idx → Elt F .f32) :
    k0_pay3 (k0_pay8 (grid0.coords t) (win0_4.fill (grid0.coords t) d4 (iblk m c 4 t)) (iblk m c 1 t) (iblk m c 3 t) (iblk m c 0 t) (iblk m c 2 t)) (k0_pay5 (F := F))
      = (scReset m c t).1 := by
  unfold scReset rmAt xb4
  rw [pay8_fill (grid0.coords t) d4 (fun _ => Scalar.ofBits .f32 0#32)]

/-- The running sum the first point of a row leaves, over any filler. -/
theorem reset_snd (c : Dev nD) (t : Fin cfg0.N) (d4 : win0_4.block.Idx → Elt F .f32) :
    k0_pay2 (k0_pay7 (grid0.coords t) (win0_4.fill (grid0.coords t) d4 (iblk m c 4 t)) (iblk m c 1 t) (iblk m c 3 t) (iblk m c 0 t) (iblk m c 2 t))
        (k0_pay8 (grid0.coords t) (win0_4.fill (grid0.coords t) d4 (iblk m c 4 t)) (iblk m c 1 t) (iblk m c 3 t) (iblk m c 0 t) (iblk m c 2 t))
        (k0_pay5 (F := F)) (k0_pay5 (F := F)) (k0_pay6 (F := F))
      = (scReset m c t).2 := by
  unfold scReset lgAt rmAt xb4
  rw [pay8_fill (grid0.coords t) d4 (fun _ => Scalar.ofBits .f32 0#32),
    pay7_fill (grid0.coords t) d4 (fun _ => Scalar.ofBits .f32 0#32)]

/-! ## What each window's buffer is left at -/

theorem leaves0_0 (c : Dev nD) (t : Fin cfg0.N) :
    (dats m 0 c).leaves 0 t = owns (c : Thread nD τ) (ms0_0 t) fullShare (iblk m c 0 t) := by
  have h : (dats m 0 c).leaves 0 t = owns (c : Thread nD τ) (ms0_0 t) fullShare ((dats m 0 c).after 0 t) := by
    unfold Dat.leaves; rw [liveAt0_0 t]
  rw [h, after0_0]
theorem leaves0_1 (c : Dev nD) (t : Fin cfg0.N) :
    (dats m 0 c).leaves 1 t = owns (c : Thread nD τ) (ms0_1 t) fullShare (iblk m c 1 t) := by
  have h : (dats m 0 c).leaves 1 t = owns (c : Thread nD τ) (ms0_1 t) fullShare ((dats m 0 c).after 1 t) := by
    unfold Dat.leaves; rw [liveAt0_1 t]
  rw [h, after0_1]
theorem leaves0_2 (c : Dev nD) (t : Fin cfg0.N) :
    (dats m 0 c).leaves 2 t = owns (c : Thread nD τ) (ms0_2 t) fullShare (iblk m c 2 t) := by
  have h : (dats m 0 c).leaves 2 t = owns (c : Thread nD τ) (ms0_2 t) fullShare ((dats m 0 c).after 2 t) := by
    unfold Dat.leaves; rw [liveAt0_2 t]
  rw [h, after0_2]
theorem leaves0_3 (c : Dev nD) (t : Fin cfg0.N) :
    (dats m 0 c).leaves 3 t = owns (c : Thread nD τ) (ms0_3 t) fullShare (iblk m c 3 t) := by
  have h : (dats m 0 c).leaves 3 t = owns (c : Thread nD τ) (ms0_3 t) fullShare ((dats m 0 c).after 3 t) := by
    unfold Dat.leaves; rw [liveAt0_3 t]
  rw [h, after0_3]
/-- The column window's buffer is left holding its block on the part inside the array, and anything
    past the array's end. -/
theorem leaves0_4 (c : Dev nD) (t : Fin cfg0.N) :
    (dats m 0 c).leaves 4 t
      = iprop(∃ d, owns (c : Thread nD τ) (ms0_4 t) fullShare (win0_4.fill (grid0.coords t) d (iblk m c 4 t))) := by
  have h : (dats m 0 c).leaves 4 t
      = iprop(∃ d, owns (c : Thread nD τ) (ms0_4 t) fullShare (win0_4.fill (grid0.coords t) d (win0_4.cut (grid0.coords t) ((dats m 0 c).after 4 t)))) := by
    unfold Dat.leaves; rw [liveAt0_4 t]; rfl
  rw [h, after0_4]; unfold xb4; rw [Window.cut_fill]
/-- Where the output block is stored its buffer is left at the stated contents. -/
theorem leaves0_5_live (c : Dev nD) (t : Fin cfg0.N) (hc1 : cond0_1 (grid0.coords t)) :
    (dats m 0 c).leaves 5 t = owns (c : Thread nD τ) (ms0_5 t) fullShare (outAt m c t.val t.isLt) := by
  have h : (dats m 0 c).leaves 5 t = owns (c : Thread nD τ) (ms0_5 t) fullShare ((dats m 0 c).after 5 t) := by
    unfold Dat.leaves; rw [liveAt0_5 t hc1]
  rw [h, after0_5]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t)

set_option maxHeartbeats 4800000 in
/-- The body at any point. The inputs' buffers hold their blocks, the column window's filled out with
    whatever its buffer held; the point's column block says which case it is in; the invariant hands the
    body the two scratch buffers at what the point before left (at anything at the first point) and takes
    them back at this point's contents, each read back off its pieces; the output's buffer is handed back
    as it came except at a row's last point, where it is left at maximum + log sum; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 200 := lt_of_lt_of_eq t.isLt (show cfg0.N = 200 from N_0)
  by_cases h0 : t.val % 25 = 0
  · -- the first point of a row
    have hc0 : cond0_0 (grid0.coords t) := (hcond0_0 t).mpr h0
    have hc1 : ¬cond0_1 (grid0.coords t) := fun h => by have := (hcond0_1 t).mp h; omega
    rw [Dat.leaves_idle (dats m 0 c) 5 t (idleAt0_5 t hc1) (noFlush0_5 t hc1)]
    rw [scAt_reset m c t h0]
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk m c 0 t) (iblk m c 1 t) (iblk m c 2 t) (iblk m c 3 t) (win0_4.fill (grid0.coords t) d4 (iblk m c 4 t))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact (pieceA_0 c _ _ _ _ _ _ _ _ _ _ _ _ _ _ _ _ _ _ _ _ _ _ _ _ _).trans (reset_fst m c t d4)
          · unfold owns; iexists _; isplitr
            swap; · iexact HS1
            ipureintro; exact (pieceA_1 c _ _ _ _ _ _ _ _ _ _ _ _ _ _ _ _ _ _ _ _ _ _ _ _ _).trans (reset_snd m c t d4)
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk m c 0 t) (iblk m c 1 t) (iblk m c 2 t) (iblk m c 3 t) (win0_4.fill (grid0.coords t) d4 (iblk m c 4 t))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact (pieceA_0 c _ _ _ _ _ _ _ _ _ _ _ _ _ _ _ _ _ _ _ _ _ _ _ _ _).trans (reset_fst m c t d4)
          · unfold owns; iexists _; isplitr
            swap; · iexact HS1
            ipureintro; exact (pieceA_1 c _ _ _ _ _ _ _ _ _ _ _ _ _ _ _ _ _ _ _ _ _ _ _ _ _).trans (reset_snd m c t d4)
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5
  · have hc0 : ¬cond0_0 (grid0.coords t) := fun h => h0 ((hcond0_0 t).mp h)
    have hz : t.val ≠ 0 := fun hz => h0 (by rw [hz])
    by_cases h24 : t.val % 25 = 24
    · -- the last point of a row
      have hc1 : cond0_1 (grid0.coords t) := (hcond0_1 t).mpr h24
      rw [leaves0_5_live m c t hc1]
      unfold outAt
      rw [scAt_step m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk m c 0 t) (iblk m c 1 t) (iblk m c 2 t) (iblk m c 3 t) (win0_4.fill (grid0.coords t) d4 (iblk m c 4 t)) (scAt m c (t.val - 1) (Nat.lt_of_le_of_lt (Nat.sub_le _ _) t.isLt)).1 (scAt m c (t.val - 1) (Nat.lt_of_le_of_lt (Nat.sub_le _ _) t.isLt)).2).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact (pieceC_0 c _ _ _ _ _ _ _ _ _ _ _ _ _ _ _ _ _ _ _ _ _ _ _ _ _ _ _).trans (step_fst m c t d4 _)
          · unfold owns; iexists _; isplitr
            swap; · iexact HS1
            ipureintro; exact (pieceC_1 c _ _ _ _ _ _ _ _ _ _ _ _ _ _ _ _ _ _ _ _ _ _ _ _ _ _ _).trans (step_snd m c t d4 _)
        iexact Hg
      isplitl [Ho]; · iexact Ho
      isplitl [H0]; · iexact H0
      isplitl [H1]; · iexact H1
      isplitl [H2]; · iexact H2
      isplitl [H3]; · iexact H3
      isplitl [H4]; · iexists d4; iexact H4
      unfold owns; iexists _; isplitr
      swap; · iexact H5
      ipureintro
      exact (pieceC_5 c _ _ _ _ _ _ _ _ _ _ _ _ _ _ _ _ _ _ _ _ _ _ _ _ _ _ _).trans
        (by rw [step_fst m c t d4 (scAt m c (t.val - 1) (Nat.lt_of_le_of_lt (Nat.sub_le _ _) t.isLt)), step_snd m c t d4 (scAt m c (t.val - 1) (Nat.lt_of_le_of_lt (Nat.sub_le _ _) t.isLt))])
    · -- a middle point of a row
      have hc1 : ¬cond0_1 (grid0.coords t) := fun h => h24 ((hcond0_1 t).mp h)
      rw [Dat.leaves_idle (dats m 0 c) 5 t (idleAt0_5 t hc1) (noFlush0_5 t hc1)]
      rw [scAt_step m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk m c 0 t) (iblk m c 1 t) (iblk m c 2 t) (iblk m c 3 t) (win0_4.fill (grid0.coords t) d4 (iblk m c 4 t)) (scAt m c (t.val - 1) (Nat.lt_of_le_of_lt (Nat.sub_le _ _) t.isLt)).1 (scAt m c (t.val - 1) (Nat.lt_of_le_of_lt (Nat.sub_le _ _) t.isLt)).2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact (pieceB_0 c _ _ _ _ _ _ _ _ _ _ _ _ _ _ _ _ _ _ _ _ _ _ _ _ _ _ _).trans (step_fst m c t d4 _)
          · unfold owns; iexists _; isplitr
            swap; · iexact HS1
            ipureintro; exact (pieceB_1 c _ _ _ _ _ _ _ _ _ _ _ _ _ _ _ _ _ _ _ _ _ _ _ _ _ _ _).trans (step_snd m c t d4 _)
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5

/-- The library's body obligation, at every point. -/
theorem body_obligation (c : Dev nD) : Pipeline.BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch buffers' named
    contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 200 := N_0; omega)

/-! ## The run and the frame -/

-- the launch theorem's implicit arguments are found by unifying its conclusion with this one, which takes
-- unfolding plain definitions in a metavariable's type
set_option backward.isDefEq.respectTransparency.types false in
/-- At the compiled mesh, for any values, from any memory with zero counters: every weakly fair execution
    of @main on the TensorCores terminates, and every final state has every array of the pipeline at what
    the library computes from the proof data and every other unscoped buffer as the host lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KI.Final.lean ====
/- The output array after the run. The output window's blocks are 256 rows of the 2048 x 1 array; the
   block of row block q is written back once, at the last point 25 q + 24 of the grid's row q, and the
   eight blocks tile the array. So row r of the array ends as row r % 256 of what point
   25 (r / 256) + 24 left in the output's staging buffer. -/
import proofs.«421104_j22986664968859_1_alg».proof.Proof.KI.Contents
import Idealize.ShloMosaic.Lib.Pipeline.Value
import Idealize.ShloMosaic.Lib.ValueIdx

-- membership in a rectangle of full-size extents recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ)

/-- The staging buffer's contents after a point depend on the point's number only. -/
theorem outAt_congr (c : Dev nD) {n n' : ℕ} (h : n = n') (hn : n < cfg0.N) (hn' : n' < cfg0.N) :
    outAt m c n hn = outAt m c n' hn' := by subst h; rfl

/-- The array the output ends as: row `r` is row `r % 256` of what the last point of row block
    `r / 256` left in the staging buffer. -/
def outG (c : Dev nD) : Vec F S2048x1 .f32 := fun y =>
  outAt m c (25 * ((y 0).val / 256) + 24)
    (by have h : (y 0).val < 2048 := (y 0).isLt; have hN : cfg0.N = 200 := N_0; omega)
    (ix2 (⟨(y 0).val % 256, Nat.mod_lt _ (by decide)⟩ : Fin 256) 0)

/-- `outG` at an index whose row is row `s` of row block `n / 25`'s last point `n`. -/
theorem outG_apply (c : Dev nD) (y : S2048x1.Idx) (n : ℕ) (hn : n < cfg0.N) (s : Fin 256)
    (h1 : 25 * ((y 0).val / 256) + 24 = n) (h2 : (y 0).val % 256 = s.val) :
    outG m c y = outAt m c n hn (ix2 s 0) := by
  subst h1
  exact congrArg (fun s' : Fin 256 => outAt m c _ _ (ix2 s' 0)) (Fin.ext h2)

/-- The output window's index map, decided over the grid: the block of point `t` is row block
    `t / 25`, in the one column block. -/
theorem outIdx : ∀ t : Fin cfg0.N, win0_5.index t (0 : Fin 2) = t.val / 25 ∧ win0_5.index t (1 : Fin 2) = 0 :=
  (by decide +kernel : ∀ t : Fin grid0.N, win0_5.index t (0 : Fin 2) = t.val / 25 ∧ win0_5.index t (1 : Fin 2) = 0)

/-- WHAT A POINT WRITES BACK is its block of `outG`: at a point that writes back, `t % 25 = 24`, so the
    point is the last of its row block `t / 25`, and row `s` of its block is row `256 (t / 25) + s` of the
    array. -/
theorem flushed5_eq (c : Dev nD) (t : Fin cfg0.N) (hf : (cfg0.win 5).flush t = true) :
    (dats m 0 c).flushed 5 t = ((cfg0.win 5).blk t).view.read (Elt F) (outG m c) := by
  show (cfg0.win 5).cut (grid0.coords t) ((dats m 0 c).after 5 t) = _
  rw [after0_5]
  obtain ⟨e0, e1⟩ := outIdx t
  have h24 : t.val % 25 = 24 := (Gen.flush0_5 t).1 hf
  funext j
  obtain ⟨a, b, rfl⟩ : ∃ (a : Fin 256) (b : Fin 1), j = ix2 a b := ⟨j 0, j 1, eq_ix2 j⟩
  obtain rfl : b = 0 := Subsingleton.elim _ _
  show outAt m c t.val t.isLt (ix2 a 0) = outG m c (((cfg0.win 5).blk t).view.emb (ix2 a 0))
  have ha : a.val < 256 := a.isLt
  have hE : ((((cfg0.win 5).blk t).view.emb (ix2 a 0)) 0).val = win0_5.index t (0 : Fin 2) * 256 + 1 * a.val := rfl
  exact (outG_apply m c _ t.val t.isLt a (by rw [hE, e0]; omega) (by rw [hE, e0]; omega)).symm

/-- An index of the array is in point `t`'s block iff each coordinate is in the block's range on its axis. -/
theorem mem_blk5 (t : Fin cfg0.N) (i : S2048x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v34).slice (win0_5.rect t)).set ↔ _
  rw [View.set_slice_whole, Rect.mem_set_unit]
  exact Iff.rfl

/-- THE COVER: row `r` is in the block the last point of row block `r / 256` writes back. -/
theorem cover5 (i : S2048x1.Idx) :
    ∃ t : Fin cfg0.N, (cfg0.win 5).flush t = true ∧ i ∈ ((cfg0.win 5).blk t).view.set := by
  have hi0 : (i 0).val < 2048 := (i 0).isLt
  have hi1 : (i 1).val < 1 := (i 1).isLt
  have hN : cfg0.N = 200 := N_0
  obtain ⟨t, ht⟩ : ∃ t : Fin cfg0.N, t.val = 25 * ((i 0).val / 256) + 24 := ⟨⟨_, by omega⟩, rfl⟩
  obtain ⟨e0, e1⟩ := outIdx t
  refine ⟨t, (Gen.flush0_5 t).2 (by omega), ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1 ≤ (i 1).val ∧ (i 1).val < win0_5.index t (1 : Fin 2) * 1 + 1; omega

/-- THE ARRAY after the run is `outG`. -/
theorem final5_eq (c : Dev nD) : (dats m 0 c).arrAt 5 cfg0.N = outG m c :=
  (dats m 0 c).arrAt_eq_of_cover 5 (outG m c) (fun t hf => flushed5_eq m c t hf) cover5

/-- Row by row: row `r` of the output array after the run is row `r % 256` of what point
    `25 (r / 256) + 24` left in the staging buffer. -/
theorem final5 (c : Dev nD) (r : Fin 2048) :
    ((dats m 0 c).arrAt 5 cfg0.N : Vec F S2048x1 .f32) (ix2 r 0)
      = outAt m c (25 * (r.val / 256) + 24) (by have := r.isLt; have : cfg0.N = 200 := N_0; omega)
          (ix2 (⟨r.val % 256, Nat.mod_lt _ (by decide)⟩ : Fin 256) 0) := by
  rw [final5_eq]; rfl

end Cert.KernelIdeal.Body

end
-- ==== Proof.Spec.lean ====
/- The mathematics both programs compute, as plain functions on the extended reals, row by row.

   For a row r of cosines x r j (j < 100000), its label l r and the scalar t:
     c r j   = clip (x r j) to [-1, 1]
     tl r    = c r (l r)                         the target cosine
     ctm r   = tl·cos m − sqrt (1 − tl²)·sin m   the margin cosine
     ftl r   = ctm r  if tl > cos (π − m),  else tl − mm
     z r j   = 64 · (ftl r             if j = l r
                     c·(t + c)         if c > ctm r     (c = c r j)
                     c                 otherwise)
   The reference's row term is the log-softmax of z r at the label, (z r (l r) − M) − log Σ_j exp (z r j − M)
   with M the row maximum; the kernel's is 64·ftl r − (M' + log S') with M', S' the running maximum and
   running sum of an online pass over 25 blocks of 4096 columns, the 2400 padding columns at −∞. Both
   programs then take the mean of the 2048 row terms and negate it. The float literals stay as their bit
   patterns: the same word stands on both sides and is never evaluated. -/
import Idealize.ShloMosaic.PureOps.Ideal
import Idealize.ShloMosaic.PureOps.Ideal.Laws
import Mathlib.Data.Finset.Fold
import Mathlib.Algebra.BigOperators.Group.Finset.Basic

noncomputable section

namespace Cert.Spec

open Idealize.ShloMosaic
open scoped BigOperators

/-- The real an f32 bit pattern denotes. -/
abbrev lit (b : BitVec 32) : EReal := Ideal.ofBits .f32 b

/-- Clipping to [-1, 1]: the lesser of 1 and the greater of -1 and x. -/
def clipE (x : EReal) : EReal := min (lit 0x3F800000#32) (max (lit 0xBF800000#32) x)

/-- sin θ from cos θ: sqrt (1 − tl²). -/
def sinOf (tl : EReal) : EReal := Ideal.sqrt (lit 0x3F800000#32 - tl * tl)

/-- cos (θ + m) = tl·cos m − sin θ·sin m, the two constants as their f32 patterns. -/
def ctmOf (tl : EReal) : EReal := tl * lit 0x3F60A940#32 - sinOf tl * lit 0x3EF57744#32

/-- The margin-adjusted target logit: cos (θ + m) where tl exceeds the threshold cos (π − m), else tl − mm. -/
def ftlOf (tl : EReal) : EReal :=
  if Ideal.cmp .ogt tl (lit 0xBF60A940#32) = 1 then ctmOf tl else tl - lit 0x3E757744#32

/-- The hard-example update of a clipped cosine c against the row's margin cosine: c·(t + c) where c > ctm. -/
def modOf (c ctm t : EReal) : EReal := if Ideal.cmp .ogt c ctm = 1 then c * (t + c) else c

variable (x : Fin 2048 → Fin 100000 → EReal) (l : Fin 2048 → ℕ) (t : EReal)

/-- The row's entry at a column given as a number (0 past the row's end: never read where labels are in range). -/
def xAt (r : Fin 2048) (n : ℕ) : EReal := if h : n < 100000 then x r ⟨n, h⟩ else 0

/-- The row's target cosine. -/
def tlRow (r : Fin 2048) : EReal := clipE (xAt x r (l r))
/-- The row's margin cosine. -/
def ctmRow (r : Fin 2048) : EReal := ctmOf (tlRow x l r)
/-- The row's margin-adjusted target logit. -/
def ftlRow (r : Fin 2048) : EReal := ftlOf (tlRow x l r)

/-- The row's scaled logits. -/
def logit (r : Fin 2048) (j : Fin 100000) : EReal :=
  (if j.val = l r then ftlRow x l r else modOf (clipE (x r j)) (ctmRow x l r) t) * lit 0x42800000#32

/-- The row's maximum logit, folded from −∞. -/
def rowMax (r : Fin 2048) : EReal := (Finset.univ : Finset (Fin 100000)).fold max ⊥ (logit x l t r)

/-- The reference's row term: the log-softmax of the row at its label, as the two-pass form spells it. -/
def rowRef (r : Fin 2048) : EReal :=
  (ftlRow x l r * lit 0x42800000#32 - max ⊥ (rowMax x l t r))
    - Ideal.log (0 + ∑ j, Ideal.exp (logit x l t r j - max ⊥ (rowMax x l t r)))

/-- What both programs do with the 2048 row terms: minus their mean. -/
def lossOf (a : Fin 2048 → EReal) : EReal := -(Ideal.div (0 + ∑ r, a r) (lit 0x45000000#32))

end Cert.Spec

end
-- ==== Proof.LibRealVariance.lean ====
/-
  The calculus of "this extended real is a real number", and the variance law.

  A float is read as an extended real; the sum, difference and product of two extended reals that
  are real numbers are the real sum, difference and product, and a quotient by a nonzero real is the
  real quotient. So a column of real numbers has a real mean, and its variance computed as
  E[a²] − E[a]² equals the variance computed as E[(a − E a)²]: the identity is the textbook one in ℝ,
  carried back along the embedding ℝ → [-∞, +∞]. (At an infinity the two differ; that is why every
  entry is assumed real.)
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

/-- An extended real that is a real number. -/
def IsReal (x : EReal) : Prop := ∃ r : ℝ, x = (r : EReal)

namespace IsReal

/-- A real number, embedded, is a real number. -/
theorem coe (r : ℝ) : IsReal (r : EReal) := ⟨r, rfl⟩

theorem zero : IsReal 0 := ⟨0, rfl⟩

theorem one : IsReal 1 := ⟨1, rfl⟩

/-- The sum of two reals is the real sum. -/
theorem add {x y : EReal} (hx : IsReal x) (hy : IsReal y) : IsReal (x + y) := by
  obtain ⟨a, rfl⟩ := hx
  obtain ⟨b, rfl⟩ := hy
  exact ⟨a + b, (EReal.coe_add a b).symm⟩

/-- The negation of a real is the real negation. -/
theorem neg {x : EReal} (hx : IsReal x) : IsReal (-x) := by
  obtain ⟨a, rfl⟩ := hx
  exact ⟨-a, (EReal.coe_neg a).symm⟩

/-- The difference of two reals is the real difference. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is the real product. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is one of them. -/
theorem max {x y : EReal} (hx : IsReal x) (hy : IsReal y) : IsReal (max x y) := by
  rcases max_choice x y with h | h <;> rw [h] <;> assumption

/-- The lesser of two reals is one of them. -/
theorem min {x y : EReal} (hx : IsReal x) (hy : IsReal y) : IsReal (min x y) := by
  rcases min_choice x y with h | h <;> rw [h] <;> assumption

/-- A finite sum of reals is a real: by induction on the index set. -/
theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

/-- The sum of a whole finite family of reals is a real. -/
theorem sum {ι : Type*} [Fintype ι] (a : ι → EReal) (h : ∀ i, IsReal (a i)) : IsReal (∑ i, a i) :=
  finset_sum Finset.univ a fun i _ => h i

/-- The quotient of a real by a nonzero real is the real quotient (the product with the reciprocal). -/
theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

/-- The reciprocal square root of a positive real r is the real (√r)⁻¹. -/
theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

/-- A real number is an extended real that is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value, max x (-x), is below +∞ is a real number: at ⊤ the
    first argument is ⊤, at ⊥ the second is. -/
theorem isReal_of_abs_lt_top {x : EReal} (h : max x (-x) < ⊤) : IsReal x := by
  rw [isReal_iff]
  constructor
  · rintro rfl
    exact absurd h (by simp)
  · rintro rfl
    exact absurd h (by simp)

/-! ### The four literals -/

/-- The pattern of 200000.0 denotes the real 200000. -/
theorem ofBits_N : Ideal.ofBits .f32 0x48435000#32 = ((200000 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The pattern of 1.0 denotes the real 1. -/
theorem ofBits_one : Ideal.ofBits .f32 0x3F800000#32 = ((1 : ℝ) : EReal) := by
  simp [Ideal.ofBits, Ideal.ieee, -EReal.coe_mul]; norm_num

/-- The pattern 0x3727C5AC (the float nearest 1e-5) denotes a positive real, 10995116 · 2⁻⁴⁰.
    Only its sign and finiteness are used. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Sums of reals -/

/-- The embedding of the reals carries a finite sum to the sum of the embedded terms. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

/-- The mean of a column of embedded reals over a nonzero real count is the embedded real mean. -/
theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

/-! ### The variance law in ℝ -/

/-- The sum of squared deviations from any m, expanded. -/
theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

/-- E[r²] − E[r]² = E[(r − E r)²] over N ≠ 0 real entries. -/
theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

/-- The mean of squared deviations is a nonnegative real: a sum of squares times 1 / N, N a count. -/
theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

/-! ### The variance law at the extended reals -/

/-- The mean of squared deviations of a column of embedded reals is the embedded real one. -/
theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

/-- THE LAW: for a column of N ≠ 0 real entries, the variance as E[a²] − E[a]² is the variance as
    E[(a − E a)²]. -/
theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

/-- The variance of a column of N ≠ 0 real entries is a nonnegative real. -/
theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

/-- The mean of a column of real entries over a nonzero real count is a real. -/
theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

/-! ### The same, with each sum written from an initial zero

A float sum on the host is "the initial value plus the sum"; with the initial value 0 that is the sum. -/

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

/-! ### Regrouping a sum into blocks -/

/-- A sum over γ is the iterated sum over α then β along any bijection α × β ≃ γ. -/
theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

/-- The 200000 rows as 20 blocks of 10000: (b, r) ↦ 10000 · b + r. -/
def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

/-- A sum over the 200000 rows is the sum over the 20 blocks of the sums over each block's 10000 rows. -/
theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.KI.Inputs.lean ====
/- What the pipelined region finds in its five input arrays, in the specification's terms: the cosines
   x, each row's label (as a number below 100000), the rows' margin cosines and margin-adjusted target
   logits (which the host computes before the region from the cosine at the label), and the scalar t; and
   that the cosines and t are real numbers. -/
import proofs.«421104_j22986664968859_1_alg».proof.Proof.KI.Contents
import proofs.«421104_j22986664968859_1_alg».proof.Proof.Spec
import proofs.«421104_j22986664968859_1_alg».proof.Proof.LibRealVariance
import Idealize.ShloMosaic.Lib.ValueIdx

noncomputable section

namespace Cert.KernelIdeal.Body

open Cert.KernelIdeal Cert.KernelIdeal.Gen
open Idealize.ShloMosaic Idealize.ShloMosaic.TcCoe Idealize.SL.Sem
open Cert.Alg ValueIdx

/-- The grid point of row block `qi` and column block `k`. -/
def pt (qi : Fin 8) (k : Fin 25) : Fin cfg0.N :=
  ⟨25 * qi.val + k.val, by have := qi.isLt; have := k.isLt; have : cfg0.N = 200 := N_0; omega⟩
/-- Row `p` of row block `qi`, as a row of the array. -/
def row (qi : Fin 8) (p : Fin 256) : Fin 2048 := ⟨256 * qi.val + p.val, by have := qi.isLt; have := p.isLt; omega⟩

/-- The region's input arrays, read in the specification's terms. -/
structure Inputs (m : (ℓ : Loc nD τ sig) → Buf (Elt Ideal) ℓ) (c : Dev nD)
    (x : Fin 2048 → Fin 100000 → EReal) (l : Fin 2048 → ℕ) (t : EReal) : Prop where
  /-- the cosine array -/
  cos : ∀ r j, (V m c main_arg0 : Vec Ideal S2048x100000 .f32) (ix2 r j) = x r j
  /-- the labels, as a column -/
  lab : ∀ r, ((V m c main_v30 : Vec Ideal S2048x1 .i32) (ix2 r 0)).toNat = l r
  /-- every label is a column of the array -/
  labr : ∀ r, l r < 100000
  /-- the rows' margin cosines, as a column -/
  ctm : ∀ r, (V m c main_v31 : Vec Ideal S2048x1 .f32) (ix2 r 0) = Spec.ctmRow x l r
  /-- the rows' margin-adjusted target logits, as a column -/
  ftl : ∀ r, (V m c main_v32 : Vec Ideal S2048x1 .f32) (ix2 r 0) = Spec.ftlRow x l r
  /-- the same target logits as the vector the host lines after the region read -/
  ftl1 : ∀ r, (V m c main_v29 : Vec Ideal S2048 .f32) (ix1 r) = Spec.ftlRow x l r
  /-- the scalar t, as a one-by-one array -/
  tt : (V m c main_v33 : Vec Ideal S1x1 .f32) (ix2 0 0) = t
  /-- the cosines are real numbers -/
  realX : ∀ r j, IsReal (x r j)
  /-- t is a real number -/
  realT : IsReal t

end Cert.KernelIdeal.Body

end
-- ==== Proof.LibSoftmax.lean ====
/-
  Softmax over a finite row of real numbers, on the extended reals.

  A row s of real numbers has a real maximum M (the fold of max from -∞ over a nonempty row); every
  weight e j = exp (s j - M) is a positive real, so their sum L is a positive real; and for real values
  v j the weighted average can divide by L before or after the sum:
      ∑ j, (e j / L) · v j  =  (∑ j, e j · v j) / L.
  In ℝ this is distributivity. On [-∞, +∞] distributivity fails at the infinities, which is why every
  entry is assumed to be a real number.
-/
import proofs.«421104_j22986664968859_1_alg».proof.Proof.LibRealVariance
import Idealize.ShloMosaic.PureOps.Ideal
import Mathlib.Data.Finset.Fold
import Mathlib.Analysis.SpecialFunctions.Exp

noncomputable section

namespace Cert.Softmax

open Idealize.ShloMosaic Cert.Alg
open scoped BigOperators

/-- The f32 pattern of -∞ denotes the bottom of the extended reals. -/
theorem ofBits_neg_inf : Ideal.ofBits .f32 0xFF800000#32 = ⊥ := by simp [Ideal.ofBits, Ideal.ieee]

/-- The f32 pattern of 0.125 denotes the real 1/8. -/
theorem ofBits_eighth : Ideal.ofBits .f32 0x3E000000#32 = ((1 / 8 : ℝ) : EReal) := by
  simp [Ideal.ofBits, Ideal.ieee, -EReal.coe_mul]; norm_num

/-- The maximum of a nonempty finite row of reals, folded from -∞, is a real: it is above some entry,
    which is above -∞, and below +∞ as every entry is. -/
theorem isReal_fold_max {ι : Type*} [Fintype ι] [Nonempty ι] (s : ι → EReal) (hs : ∀ j, IsReal (s j)) :
    IsReal ((Finset.univ : Finset ι).fold max ⊥ s) := by
  rw [isReal_iff]
  constructor
  · refine ne_of_lt ?_
    rw [Finset.fold_max_lt]
    refine ⟨bot_lt_top, fun j _ => ?_⟩
    obtain ⟨r, hr⟩ := hs j
    rw [hr]; exact EReal.coe_lt_top r
  · refine ne_of_gt ?_
    rw [Finset.lt_fold_max]
    obtain ⟨j⟩ := (inferInstance : Nonempty ι)
    obtain ⟨r, hr⟩ := hs j
    exact Or.inr ⟨j, Finset.mem_univ j, by rw [hr]; exact EReal.bot_lt_coe r⟩

/-- The exponential of a difference of two reals is a positive real. -/
theorem exp_sub_pos {x M : EReal} (hx : IsReal x) (hM : IsReal M) :
    ∃ r : ℝ, 0 < r ∧ Ideal.exp (x - M) = (r : EReal) := by
  obtain ⟨a, rfl⟩ := hx
  obtain ⟨b, rfl⟩ := hM
  refine ⟨Real.exp (a - b), Real.exp_pos _, ?_⟩
  rw [← EReal.coe_sub, Ideal.exp_coe]

/-- THE LAW. For positive real weights e and real values v over a nonempty finite row, normalising
    each weight by the total before the weighted sum equals normalising the weighted sum by the total. -/
theorem sum_div_mul_eq_div_sum {ι : Type*} [Fintype ι] [Nonempty ι] (e v : ι → EReal)
    (he : ∀ j, ∃ r : ℝ, 0 < r ∧ e j = (r : EReal)) (hv : ∀ j, IsReal (v j)) :
    ∑ j, Ideal.div (e j) (∑ j, e j) * v j = Ideal.div (∑ j, e j * v j) (∑ j, e j) := by
  choose r hr using he
  choose w hw using hv
  obtain rfl : e = fun j => (r j : EReal) := funext fun j => (hr j).2
  obtain rfl : v = fun j => (w j : EReal) := funext hw
  have hl : (0 : ℝ) < ∑ j, r j := Finset.sum_pos (fun j _ => (hr j).1) Finset.univ_nonempty
  rw [← coe_finset_sum]
  simp only [Ideal.div_coe hl.ne', ← EReal.coe_mul]
  rw [← coe_finset_sum, ← coe_finset_sum, ← EReal.coe_mul]
  congr 1
  rw [Finset.sum_mul]
  exact Finset.sum_congr rfl fun j _ => by ring

end Cert.Softmax

end
-- ==== Proof.LibOnlineSoftmax.lean ====
/-
  The online log-sum-exp of a row of real numbers, on the extended reals.

  A row y of N real numbers is laid out in blocks of W columns, padded by -∞ past its end. One pass
  over the blocks keeps a running maximum m and a running sum l: from (-∞, 0), at each block,
      m' = max m (the block's maximum),   l' = l · exp (m - m') + ∑ q, exp (x q - m').
  After block k, m is the maximum M of the first (k+1)·W entries and l = ∑ exp (y j - M) over them:
  exp (-∞ - m') = 0 removes the padding (and 0 · anything = 0 removes the initial state), and the
  rescaling exp (a - m) · exp (m - m') = exp (a - m') is the addition law of the real exponential.
  So after the last block m + log l is the row's log-sum-exp, max + log ∑ exp (y j - max), the form
  computed in two passes. Every entry is assumed real: at +∞ the differences are not defined.
-/
import proofs.«421104_j22986664968859_1_alg».proof.Proof.LibRealVariance
import proofs.«421104_j22986664968859_1_alg».proof.Proof.LibSoftmax
import Idealize.ShloMosaic.PureOps.Ideal
import Mathlib.Data.Finset.Fold
import Mathlib.Data.Fintype.BigOperators
import Mathlib.Algebra.Order.BigOperators.Group.Finset
import Mathlib.Analysis.SpecialFunctions.Exp
import Mathlib.Analysis.SpecialFunctions.Log.Basic
import Mathlib.Data.EReal.Operations
import Mathlib.Tactic.Ring

noncomputable section

namespace Cert.Online

open Cert.Alg Idealize.ShloMosaic
open scoped BigOperators

/-! ### The online pass -/

/-- The maximum of a block, folded from -∞. -/
def bmax {W : ℕ} (x : Fin W → EReal) : EReal := (Finset.univ : Finset (Fin W)).fold max ⊥ x

/-- The running maximum after a block: the greater of the old one and the block's. -/
def stepM {W : ℕ} (mo : EReal) (x : Fin W → EReal) : EReal := max mo (bmax x)

/-- The running sum after a block: the old sum rescaled to the new maximum, plus the block's terms. -/
def stepL {W : ℕ} (mo lo : EReal) (x : Fin W → EReal) : EReal :=
  lo * Ideal.exp (mo - stepM mo x) + ∑ q, Ideal.exp (x q - stepM mo x)

/-- The pair (running maximum, running sum) after blocks 0 … k, started from (-∞, 0). -/
def run {W : ℕ} (x : ℕ → Fin W → EReal) : ℕ → EReal × EReal
  | 0 => (stepM ⊥ (x 0), stepL ⊥ 0 (x 0))
  | k + 1 => (stepM (run x k).1 (x (k + 1)), stepL (run x k).1 (run x k).2 (x (k + 1)))

/-- the padded layout of a row -/
def blocks {W N : ℕ} (y : Fin N → EReal) (k : ℕ) (q : Fin W) : EReal :=
  if h : k * W + q.val < N then y ⟨k * W + q.val, h⟩ else ⊥

/-- The row continued by -∞ past its end, as a sequence. -/
def ext {N : ℕ} (y : Fin N → EReal) (n : ℕ) : EReal := if h : n < N then y ⟨n, h⟩ else ⊥

/-- Block k, column q of the padded layout is entry k·W + q of the continued row. -/
theorem blocks_eq_ext {W N : ℕ} (y : Fin N → EReal) :
    blocks (W := W) y = fun k q => ext y (k * W + q.val) := rfl

/-! ### The exponential of a difference -/

/-- The exponential is nonnegative everywhere on [-∞, +∞]. -/
theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- -∞ minus anything is -∞. -/
theorem bot_sub (m : EReal) : (⊥ : EReal) - m = ⊥ := by rw [sub_eq_add_neg, EReal.bot_add]

/-- Rescaling one term: for x real or -∞ and a, b real, exp (x - a) · exp (a - b) = exp (x - b).
    At -∞ both sides are 0; at a real it is exp (u + v) = exp u · exp v. -/
theorem exp_sub_mul_exp_sub {x : EReal} (hx : x ≠ ⊤) (a b : ℝ) :
    Ideal.exp (x - a) * Ideal.exp ((a : EReal) - b) = Ideal.exp (x - b) := by
  induction x using EReal.rec with
  | bot => rw [bot_sub, bot_sub, Ideal.exp_bot, zero_mul]
  | coe r =>
    rw [← EReal.coe_sub, ← EReal.coe_sub, ← EReal.coe_sub, Ideal.exp_coe, Ideal.exp_coe,
      Ideal.exp_coe, ← EReal.coe_mul, ← Real.exp_add]
    congr 2; ring
  | top => exact absurd rfl hx

/-- Rescaling a finite sum: for entries real or -∞ and a, b real,
    (∑ exp (f i - a)) · exp (a - b) = ∑ exp (f i - b). The terms are nonnegative, so the product
    distributes over the sum. -/
theorem sum_exp_rescale {ι : Type*} (s : Finset ι) (f : ι → EReal) (hf : ∀ i ∈ s, f i ≠ ⊤)
    (a b : ℝ) :
    (∑ i ∈ s, Ideal.exp (f i - a)) * Ideal.exp ((a : EReal) - b) = ∑ i ∈ s, Ideal.exp (f i - b) := by
  classical
  induction s using Finset.induction_on with
  | empty => simp
  | insert j s hj ih =>
    rw [Finset.sum_insert hj, Finset.sum_insert hj,
      EReal.right_distrib_of_nonneg (exp_nonneg _) (Finset.sum_nonneg fun i _ => exp_nonneg _),
      exp_sub_mul_exp_sub (hf j (Finset.mem_insert_self j s)),
      ih fun i hi => hf i (Finset.mem_insert_of_mem hi)]

/-! ### Maxima and sums over an initial segment of a sequence -/

/-- The maximum over the first a + w terms is the greater of the maximum over the first a terms and
    the maximum over the next w. -/
theorem fold_max_range_add (g : ℕ → EReal) (a w : ℕ) :
    (Finset.range (a + w)).fold max ⊥ g
      = max ((Finset.range a).fold max ⊥ g) ((Finset.range w).fold max ⊥ fun i => g (a + i)) := by
  refine eq_of_forall_ge_iff fun c => ?_
  simp only [Finset.fold_max_le, max_le_iff, bot_le, true_and, Finset.mem_range]
  constructor
  · intro h
    exact ⟨fun n hn => h n (by omega), fun i hi => h (a + i) (by omega)⟩
  · rintro ⟨h1, h2⟩ n hn
    rcases lt_or_ge n a with h | h
    · exact h1 n h
    · have := h2 (n - a) (by omega)
      rwa [Nat.add_sub_of_le h] at this

/-- A maximum over the w indices below w, as a maximum over an initial segment of ℕ. -/
theorem fold_max_fin (w : ℕ) (g : ℕ → EReal) :
    (Finset.univ : Finset (Fin w)).fold max ⊥ (fun q => g q.val) = (Finset.range w).fold max ⊥ g := by
  refine eq_of_forall_ge_iff fun c => ?_
  simp only [Finset.fold_max_le, bot_le, true_and, Finset.mem_range, Finset.mem_univ,
    forall_true_left]
  exact ⟨fun h n hn => h ⟨n, hn⟩, fun h q => h q.val q.isLt⟩

/-- The maximum over a nonempty initial segment of a sequence whose terms are below +∞ and whose
    first term is real is a real number. -/
theorem isReal_fold_max_range (g : ℕ → EReal) (hg : ∀ n, g n ≠ ⊤) (h0 : IsReal (g 0)) {n : ℕ}
    (hn : 0 < n) : IsReal ((Finset.range n).fold max ⊥ g) := by
  rw [isReal_iff]
  constructor
  · refine ne_of_lt ?_
    rw [Finset.fold_max_lt]
    exact ⟨bot_lt_top, fun i _ => lt_top_iff_ne_top.mpr (hg i)⟩
  · refine ne_of_gt ?_
    rw [Finset.lt_fold_max]
    obtain ⟨r, hr⟩ := h0
    exact Or.inr ⟨0, Finset.mem_range.mpr hn, by rw [hr]; exact EReal.bot_lt_coe r⟩

/-- The running maximum after a block of the sequence g starting at entry a. -/
theorem stepM_shift (W : ℕ) (g : ℕ → EReal) (a : ℕ) (mo : EReal) :
    stepM mo (fun q : Fin W => g (a + q.val))
      = max mo ((Finset.range W).fold max ⊥ fun i => g (a + i)) :=
  congrArg (max mo) (fold_max_fin W fun i => g (a + i))

/-- A block's sum of exponentials, as a sum over an initial segment of ℕ. -/
theorem sum_fin_shift (W : ℕ) (g : ℕ → EReal) (a : ℕ) (m : EReal) :
    ∑ q : Fin W, Ideal.exp (g (a + q.val) - m) = ∑ i ∈ Finset.range W, Ideal.exp (g (a + i) - m) :=
  Fin.sum_univ_eq_sum_range (fun i => Ideal.exp (g (a + i) - m)) W

/-! ### The invariant of the pass -/

/-- THE INVARIANT. Over a sequence g of terms below +∞ whose first term is real, cut into blocks of
    W > 0 columns, the pass after block k holds the maximum M of the first (k+1)·W terms and the sum
    of exp (g i - M) over them. -/
theorem run_seq (W : ℕ) (hW : 0 < W) (g : ℕ → EReal) (hg : ∀ n, g n ≠ ⊤) (h0 : IsReal (g 0))
    (k : ℕ) :
    run (fun k (q : Fin W) => g (k * W + q.val)) k
      = ((Finset.range ((k + 1) * W)).fold max ⊥ g,
          ∑ i ∈ Finset.range ((k + 1) * W),
            Ideal.exp (g i - (Finset.range ((k + 1) * W)).fold max ⊥ g)) := by
  induction k with
  | zero =>
    have hM : stepM ⊥ (fun q : Fin W => g (0 * W + q.val)) = (Finset.range ((0 + 1) * W)).fold max ⊥ g := by
      rw [stepM_shift, max_bot_left]
      simp only [Nat.zero_mul, Nat.zero_add, Nat.one_mul]
    show (stepM ⊥ (fun q : Fin W => g (0 * W + q.val)),
        stepL ⊥ 0 (fun q : Fin W => g (0 * W + q.val))) = _
    refine Prod.ext hM ?_
    show 0 * _ + ∑ q : Fin W, Ideal.exp (g (0 * W + q.val) - stepM ⊥ (fun q : Fin W => g (0 * W + q.val))) = _
    rw [hM, zero_mul, zero_add, sum_fin_shift]
    simp only [Nat.zero_mul, Nat.zero_add, Nat.one_mul]
  | succ k ih =>
    have hA : (k + 1 + 1) * W = (k + 1) * W + W := Nat.succ_mul (k + 1) W
    have hApos : 0 < (k + 1) * W := Nat.mul_pos (Nat.succ_pos k) hW
    obtain ⟨m, hm⟩ := isReal_fold_max_range g hg h0 hApos
    obtain ⟨m', hm'⟩ := isReal_fold_max_range g hg h0 (Nat.add_pos_left hApos W)
    have hM : stepM ((Finset.range ((k + 1) * W)).fold max ⊥ g)
        (fun q : Fin W => g ((k + 1) * W + q.val)) = (Finset.range ((k + 1) * W + W)).fold max ⊥ g := by
      rw [stepM_shift, ← fold_max_range_add]
    show (stepM (run _ k).1 (fun q : Fin W => g ((k + 1) * W + q.val)),
        stepL (run _ k).1 (run _ k).2 (fun q : Fin W => g ((k + 1) * W + q.val))) = _
    rw [ih, hA]
    refine Prod.ext hM ?_
    show (∑ i ∈ Finset.range ((k + 1) * W), Ideal.exp (g i - (Finset.range ((k + 1) * W)).fold max ⊥ g))
          * Ideal.exp ((Finset.range ((k + 1) * W)).fold max ⊥ g - stepM _ _)
        + ∑ q : Fin W, Ideal.exp (g ((k + 1) * W + q.val) - stepM _ _) = _
    rw [hM, hm', hm, sum_exp_rescale _ g (fun i _ => hg i) m m', sum_fin_shift,
      ← Finset.sum_range_add]

/-! ### The padded row -/

/-- The continued row is below +∞ everywhere. -/
theorem ext_ne_top {N : ℕ} (y : Fin N → EReal) (hy : ∀ j, IsReal (y j)) (n : ℕ) : ext y n ≠ ⊤ := by
  unfold ext
  split
  · exact ((isReal_iff _).mp (hy _)).1
  · exact bot_ne_top

/-- The maximum of the continued row over any initial segment covering the row is the row's maximum. -/
theorem fold_max_ext {N : ℕ} (y : Fin N → EReal) {n : ℕ} (hn : N ≤ n) :
    (Finset.range n).fold max ⊥ (ext y) = (Finset.univ : Finset (Fin N)).fold max ⊥ y := by
  refine eq_of_forall_ge_iff fun c => ?_
  simp only [Finset.fold_max_le, bot_le, true_and, Finset.mem_range, Finset.mem_univ,
    forall_true_left]
  constructor
  · intro h j
    have := h j.val (lt_of_lt_of_le j.isLt hn)
    rwa [ext, dif_pos j.isLt] at this
  · intro h i _
    unfold ext
    split
    · exact h _
    · exact bot_le

/-- The sum of exp (· - m) over any initial segment of the continued row covering the row is the sum
    over the row: the padding contributes exp (-∞) = 0. -/
theorem sum_exp_ext {N : ℕ} (y : Fin N → EReal) {n : ℕ} (hn : N ≤ n) (m : EReal) :
    ∑ i ∈ Finset.range n, Ideal.exp (ext y i - m) = ∑ j : Fin N, Ideal.exp (y j - m) := by
  have h1 : ∑ i ∈ Finset.range N, Ideal.exp (ext y i - m)
      = ∑ i ∈ Finset.range n, Ideal.exp (ext y i - m) :=
    Finset.sum_subset (Finset.range_mono hn) fun i _ hi => by
      have hi' : ¬ i < N := by simpa using hi
      rw [ext, dif_neg hi', bot_sub, Ideal.exp_bot]
  rw [← h1, ← Fin.sum_univ_eq_sum_range]
  refine Finset.sum_congr rfl fun j _ => ?_
  rw [ext, dif_pos j.isLt]

/-! ### The law -/

/-- After the last block the running maximum is the row's maximum. -/
theorem run_fst {W K N : ℕ} (hW : 0 < W) (hlo : K * W < N) (hhi : N ≤ (K + 1) * W)
    (y : Fin N → EReal) (hy : ∀ j, IsReal (y j)) :
    (run (blocks (W := W) y) K).1 = (Finset.univ : Finset (Fin N)).fold max ⊥ y := by
  have hN : 0 < N := lt_of_le_of_lt (Nat.zero_le _) hlo
  have h0 : IsReal (ext y 0) := by rw [ext, dif_pos hN]; exact hy _
  rw [blocks_eq_ext, run_seq W hW (ext y) (ext_ne_top y hy) h0 K]
  exact fold_max_ext y hhi

/-- After the last block the running sum is the sum of exp (y j - max) over the row. -/
theorem run_snd {W K N : ℕ} (hW : 0 < W) (hlo : K * W < N) (hhi : N ≤ (K + 1) * W)
    (y : Fin N → EReal) (hy : ∀ j, IsReal (y j)) :
    (run (blocks (W := W) y) K).2
      = ∑ j, Ideal.exp (y j - (Finset.univ : Finset (Fin N)).fold max ⊥ y) := by
  have hN : 0 < N := lt_of_le_of_lt (Nat.zero_le _) hlo
  have h0 : IsReal (ext y 0) := by rw [ext, dif_pos hN]; exact hy _
  rw [blocks_eq_ext, run_seq W hW (ext y) (ext_ne_top y hy) h0 K]
  show ∑ i ∈ Finset.range ((K + 1) * W),
      Ideal.exp (ext y i - (Finset.range ((K + 1) * W)).fold max ⊥ (ext y)) = _
  rw [fold_max_ext y hhi, sum_exp_ext y hhi]

/-- THE LAW. For a row of N real numbers in K + 1 blocks of W columns (the last one partly padding),
    the online pass ends at (m, l) with m + log l the row's log-sum-exp, so a real F less m + log l
    is F less the maximum less the logarithm of the sum of exp (y j - maximum). -/
theorem row_law {W K N : ℕ} (hW : 0 < W) (hlo : K * W < N) (hhi : N ≤ (K + 1) * W)
    (y : Fin N → EReal) (hy : ∀ j, IsReal (y j)) (F : EReal) (hF : IsReal F) :
    F - ((run (blocks (W := W) y) K).1 + Ideal.log (run (blocks (W := W) y) K).2)
      = (F - max ⊥ ((Finset.univ : Finset (Fin N)).fold max ⊥ y))
        - Ideal.log (0 + ∑ j, Ideal.exp (y j - max ⊥ ((Finset.univ : Finset (Fin N)).fold max ⊥ y))) := by
  have hN : 0 < N := lt_of_le_of_lt (Nat.zero_le _) hlo
  haveI : Nonempty (Fin N) := ⟨⟨0, hN⟩⟩
  rw [run_fst hW hlo hhi y hy, run_snd hW hlo hhi y hy, max_bot_left, zero_add]
  obtain ⟨M, hM⟩ := Cert.Softmax.isReal_fold_max y hy
  obtain ⟨f, rfl⟩ := hF
  rw [hM]
  have he : ∀ j, ∃ r : ℝ, 0 < r ∧ Ideal.exp (y j - (M : EReal)) = (r : EReal) :=
    fun j => Cert.Softmax.exp_sub_pos (hy j) (IsReal.coe M)
  choose e he using he
  have hL : (0 : ℝ) < ∑ j, e j := Finset.sum_pos (fun j _ => (he j).1) Finset.univ_nonempty
  rw [Finset.sum_congr rfl fun j _ => (he j).2, ← coe_finset_sum, Ideal.log_coe,
    if_neg (not_le.mpr hL), ← EReal.coe_add, ← EReal.coe_sub, ← EReal.coe_sub, ← EReal.coe_sub]
  congr 1
  ring

end Cert.Online

end
-- ==== Proof.KI.Recur.lean ====
/- The online recurrence the two carried scratch buffers follow, at the extended reals. Per row of a row
   block the first scratch holds a running maximum and the second a running sum: each point takes the row
   maxima of its block of logits, replaces the maximum m by m' = max m (the block's maximum), and the sum
   l by l · exp (m - m') + ∑ q, exp (x q - m'); the first point of a row of the grid starts from (-∞, 0);
   the last stores maximum + log sum into the output's block. Read at a row, these are the steps of the
   online log-sum-exp pass, so after column block k the scratches hold the pass's state after blocks 0 … k. -/
import proofs.«421104_j22986664968859_1_alg».proof.Proof.KI.Contents
import proofs.«421104_j22986664968859_1_alg».proof.Proof.KI.Inputs
import proofs.«421104_j22986664968859_1_alg».proof.Proof.LibOnlineSoftmax
import proofs.«421104_j22986664968859_1_alg».proof.Proof.LibSoftmax
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Body

open Cert.KernelIdeal Cert.KernelIdeal.Gen Idealize.ShloMosaic Idealize.ShloMosaic.TcCoe Idealize.SL.Sem Cert.Alg
open Idealize.ShloMosaic.ValueIdx
open scoped BigOperators

variable (m : (ℓ : Loc nD τ sig) → Buf (Elt Ideal) ℓ) (c : Dev nD)

/-! ## The payloads at a row -/

/-- A vector of 256 entries cast to a column reads entry `p` at row `p`. -/
theorem col_apply {α : Type} (v : S256.Idx → α) (p : Fin 256) :
    shapeCast S256x1 v shapeCasts_S256_S256x1 (ix2 p 0) = v (ix1 p) :=
  shapeCast_apply v _ (ix2 p 0) (ix1 p) (by
    rw [Shape.rowMajor_val_one, Shape.rowMajor_val_two]; show p.val = p.val * 1 + 0; omega)

/-- A column broadcast along the rows' 4096 entries reads its row's entry everywhere. -/
theorem bcast_apply {α : Type} (v : S256x1.Idx → α) (p : Fin 256) (q : Fin 4096) :
    broadcastTo S256x4096 v broadcasts_S256x1_S256x4096 (ix2 p q) = v (ix2 p 0) :=
  broadcastTo_apply v _ (ix2 p q) (ix2 p 0) (fun a => match a with | ⟨0, _⟩ => rfl | ⟨1, _⟩ => rfl)

/-- The index a reduction over the columns inserts column `q` into, at row `p`, is `(p, q)`. -/
theorem lift_eq (p : Fin 256) (q : Fin 4096) :
    reduces_S256x4096_S256.lift (ix1 p) q = ix2 p q :=
  funext fun a => Fin.ext <| match a with | ⟨0, _⟩ => rfl | ⟨1, _⟩ => rfl

/-- The row maxima of a block: at row `p` the maximum of the row's 4096 entries, folded from -∞. -/
theorem rowmax_apply (src : FVec Ideal S256x4096 .f32) (p : Fin 256) :
    multiReduction (F := Ideal) .maximumf [1] S256 src 0xFF800000#32 reduces_S256x4096_S256 (.inl rfl) rfl (ix1 p)
      = Cert.Online.bmax (fun q : Fin 4096 => src (ix2 p q)) := by
  refine (Ideal.multiReduction_maximumf_single (φ := .f32) src 0xFF800000#32 reduces_S256x4096_S256 (.inl rfl) rfl (ix1 p)).trans ?_
  rw [Ideal.ofBits_def, Cert.Softmax.ofBits_neg_inf]
  have e : (fun q : Fin 4096 => src (reduces_S256x4096_S256.lift (ix1 p) q)) = fun q => src (ix2 p q) :=
    funext fun q => congrArg src (lift_eq p q)
  exact congrArg (fun f : Fin 4096 → EReal => (Finset.univ : Finset (Fin 4096)).fold max ⊥ f) e

/-- The row sums of a block: at row `p` the sum of the row's 4096 entries. -/
theorem rowsum_apply (src : FVec Ideal S256x4096 .f32) (p : Fin 256) :
    multiReduction (F := Ideal) .add [1] S256 src 0x00000000#32 reduces_S256x4096_S256 (.inl rfl) rfl (ix1 p)
      = ∑ q : Fin 4096, src (ix2 p q) := by
  refine (Ideal.multiReduction_add_single (φ := .f32) src 0x00000000#32 reduces_S256x4096_S256 (.inl rfl) rfl (ix1 p)).trans ?_
  show ∑ q : Fin 4096, src (reduces_S256x4096_S256.lift (ix1 p) q) = _
  simp only [lift_eq]

/-- The new running maximum at row `p`: the greater of the old one and the block's row maximum. -/
theorem pay1_apply (v37 : FVec Ideal S256 .f32) (v39 : Vec Ideal S256x1 .f32) (p : Fin 256) :
    k0_pay1 v37 v39 (ix2 p 0) = max (v39 (ix2 p 0)) (v37 (ix1 p)) := by
  show max (v39 (ix2 p 0)) (shapeCast S256x1 v37 shapeCasts_S256_S256x1 (ix2 p 0)) = _
  rw [col_apply]

/-- What is stored into the running-maximum scratch is that new maximum. -/
theorem pay3_apply (v37 : FVec Ideal S256 .f32) (v39 : Vec Ideal S256x1 .f32) (p : Fin 256) :
    k0_pay3 v37 v39 (ix2 p 0) = max (v39 (ix2 p 0)) (v37 (ix1 p)) := by
  show shapeCast S256x1 (k0_pay1 v37 v39) shapeCasts_S256x1_S256x1 (ix2 p 0) = _
  rw [shapeCast_self, pay1_apply]

/-- What is stored into the running-sum scratch at row `p`: the old sum rescaled to the new maximum
    plus the row's exponentials taken at the new maximum. -/
theorem pay2_apply (v36 : FVec Ideal S256x4096 .f32) (v37 : FVec Ideal S256 .f32) (v39 v41 v47 : Vec Ideal S256x1 .f32) (p : Fin 256) :
    k0_pay2 v36 v37 v39 v41 v47 (ix2 p 0)
      = v47 (ix2 p 0) * Ideal.exp (v41 (ix2 p 0) - max (v39 (ix2 p 0)) (v37 (ix1 p)))
        + ∑ q : Fin 4096, Ideal.exp (v36 (ix2 p q) - max (v39 (ix2 p 0)) (v37 (ix1 p))) := by
  show shapeCast S256x1 (addf (mulf v47 (exp (subf v41 (k0_pay1 v37 v39))))
      (shapeCast S256x1 (multiReduction (F := Ideal) .add [1] S256
        (exp (subf v36 (broadcastTo S256x4096 (k0_pay1 v37 v39) broadcasts_S256x1_S256x4096))) 0x00000000#32
        reduces_S256x4096_S256 (.inl rfl) rfl) shapeCasts_S256_S256x1)) shapeCasts_S256x1_S256x1 (ix2 p 0) = _
  rw [shapeCast_self, addf_apply, col_apply, rowsum_apply]
  show v47 (ix2 p 0) * Ideal.exp (v41 (ix2 p 0) - k0_pay1 v37 v39 (ix2 p 0))
      + ∑ q : Fin 4096, Ideal.exp (v36 (ix2 p q) - broadcastTo S256x4096 (k0_pay1 v37 v39) broadcasts_S256x1_S256x4096 (ix2 p q)) = _
  simp only [bcast_apply, pay1_apply]

/-- The reset value of the running maximum is -∞ at every row. -/
theorem pay5_apply (p : Fin 256) : k0_pay5 (F := Ideal) (ix2 p 0) = ⊥ := by
  show shapeCast S256x1 (broadcast S256x1 (Scalar.ofBits (F := Ideal) .f32 0xFF800000#32)) shapeCasts_S256x1_S256x1 (ix2 p 0) = _
  rw [shapeCast_self, broadcast_apply]
  exact Cert.Softmax.ofBits_neg_inf

/-- The reset value of the running sum is 0 at every row. -/
theorem pay6_apply (p : Fin 256) : k0_pay6 (F := Ideal) (ix2 p 0) = 0 := by
  show shapeCast S256x1 (broadcast S256x1 (Scalar.ofBits (F := Ideal) .f32 0x00000000#32)) shapeCasts_S256x1_S256x1 (ix2 p 0) = _
  rw [shapeCast_self, broadcast_apply]
  exact Ideal.ofBits_zero_f32

/-- The stored result at row `p`: maximum plus logarithm of the sum. -/
theorem pay4_apply (v61 v62 : Vec Ideal S256x1 .f32) (p : Fin 256) :
    k0_pay4 v61 v62 (ix2 p 0) = v61 (ix2 p 0) + Ideal.log (v62 (ix2 p 0)) := rfl

/-! ## The scratches after a point, at a row -/

/-- The block's row maxima at point `t`, read at row `p`. -/
theorem rmAt_apply (t : Fin cfg0.N) (p : Fin 256) :
    rmAt m c t (ix1 p) = Cert.Online.bmax (fun q : Fin 4096 => lgAt m c t (ix2 p q)) :=
  rowmax_apply (lgAt m c t) p

/-- A point at column block 0 leaves, at row `p`, the pass's first step from (-∞, 0). -/
theorem scReset_apply (t : Fin cfg0.N) (p : Fin 256) :
    ((scReset m c t).1 (ix2 p 0), (scReset m c t).2 (ix2 p 0))
      = (Cert.Online.stepM ⊥ (fun q => lgAt m c t (ix2 p q)), Cert.Online.stepL ⊥ 0 (fun q => lgAt m c t (ix2 p q))) := by
  unfold scReset Cert.Online.stepL Cert.Online.stepM
  dsimp only
  rw [pay3_apply, pay2_apply, pay5_apply, pay6_apply, rmAt_apply]

/-- Any other point leaves, at row `p`, the pass's step from what the point before left there. -/
theorem scStep_apply (t : Fin cfg0.N) (p : Fin 256) (s : Vec Ideal S256x1 .f32 × Vec Ideal S256x1 .f32) :
    ((scStep m c t s).1 (ix2 p 0), (scStep m c t s).2 (ix2 p 0))
      = (Cert.Online.stepM (s.1 (ix2 p 0)) (fun q => lgAt m c t (ix2 p q)),
         Cert.Online.stepL (s.1 (ix2 p 0)) (s.2 (ix2 p 0)) (fun q => lgAt m c t (ix2 p q))) := by
  unfold scStep Cert.Online.stepL Cert.Online.stepM
  dsimp only
  rw [pay3_apply, pay2_apply, rmAt_apply]

/-! ## The pass along a row of the grid -/

theorem pt_val (qi : Fin 8) (k : Fin 25) : (pt qi k).val = 25 * qi.val + k.val := rfl

/-- The scratches after a point depend on the point's number only. -/
theorem scAt_congr {n n' : ℕ} (h : n = n') (hn : n < cfg0.N) (hn' : n' < cfg0.N) :
    scAt m c n hn = scAt m c n' hn' := by subst h; rfl

/-- After column block `k` of row block `qi` the two scratches hold, at row `p`, the state of the online
    pass over the row's blocks 0 … k. -/
theorem scAt_run (qi : Fin 8) (p : Fin 256) (z : ℕ → Fin 4096 → EReal)
    (hz : ∀ (k : Fin 25) (q : Fin 4096), lgAt m c (pt qi k) (ix2 p q) = z k.val q) (k : Fin 25) :
    ((scAt m c (pt qi k).val (pt qi k).isLt).1 (ix2 p 0), (scAt m c (pt qi k).val (pt qi k).isLt).2 (ix2 p 0))
      = Cert.Online.run z k.val := by
  obtain ⟨n, hn⟩ := k
  induction n with
  | zero =>
    have h0 : (pt qi ⟨0, hn⟩).val % 25 = 0 := by rw [pt_val]; show (25 * qi.val + 0) % 25 = 0; omega
    rw [scAt_reset m c (pt qi ⟨0, hn⟩) h0, scReset_apply]
    have e : (fun q => lgAt m c (pt qi ⟨0, hn⟩) (ix2 p q)) = z 0 := funext fun q => hz ⟨0, hn⟩ q
    rw [e]; rfl
  | succ n ih =>
    have hn' : n < 25 := by omega
    have h1 : ¬(pt qi ⟨n + 1, hn⟩).val % 25 = 0 := by rw [pt_val]; show ¬(25 * qi.val + (n + 1)) % 25 = 0; omega
    have hp : (pt qi ⟨n + 1, hn⟩).val - 1 = (pt qi ⟨n, hn'⟩).val := by
      rw [pt_val, pt_val]; show 25 * qi.val + (n + 1) - 1 = 25 * qi.val + n; omega
    rw [scAt_step m c (pt qi ⟨n + 1, hn⟩) h1, scStep_apply,
      scAt_congr m c hp _ (pt qi ⟨n, hn'⟩).isLt]
    have e : (fun q => lgAt m c (pt qi ⟨n + 1, hn⟩) (ix2 p q)) = z (n + 1) := funext fun q => hz ⟨n + 1, hn⟩ q
    have ih' := ih hn'
    have i1 := congrArg Prod.fst ih'
    have i2 := congrArg Prod.snd ih'
    dsimp only at i1 i2
    rw [e, i1, i2]; rfl

/-- The row's entry of the output block after the row block's last point: the pass's final maximum plus
    the logarithm of its final sum. -/
theorem outAt_run (qi : Fin 8) (p : Fin 256) (z : ℕ → Fin 4096 → EReal)
    (hz : ∀ (k : Fin 25) (q : Fin 4096), lgAt m c (pt qi k) (ix2 p q) = z k.val q) :
    outAt m c (pt qi ⟨24, by decide⟩).val (pt qi ⟨24, by decide⟩).isLt (ix2 p 0)
      = (Cert.Online.run z 24).1 + Ideal.log (Cert.Online.run z 24).2 := by
  have h := scAt_run m c qi p z hz ⟨24, by decide⟩
  have i1 := congrArg Prod.fst h
  have i2 := congrArg Prod.snd h
  dsimp only at i1 i2
  unfold outAt
  rw [pay4_apply, i1, i2]

end Cert.KernelIdeal.Body

end
-- ==== Proof.KI.Value.lean ====
/-
  The block of masked, scaled logits the kernel body computes at a grid point, at the ideal instance, in the
  specification's terms.

  The grid is 8 row blocks by 25 column blocks; the point of row block qi and column block k is point
  25 · qi + k. Row p, lane q of its block of the cosine array is row 256 · qi + p, column 4096 · k + q of the
  array, as long as that column is below 100000 (the last column block overhangs the array by 2400 columns).
  The body clips the cosine to [-1, 1], updates it against the row's margin cosine (c · (t + c) where c exceeds
  it), puts the row's margin-adjusted target logit at the row's label, scales by 64, and replaces every entry
  whose column is not below 100000 by a constant that is -∞ on the extended reals. So the block is block k of
  the padded layout of the row's scaled logits: the logit at column 4096 · k + q inside the array, -∞ past its
  end. The columns are compared as 32-bit words; all the numbers are below 2³¹, so the words compare as the
  numbers do.
-/
import proofs.«421104_j22986664968859_1_alg».proof.Proof.KI.Inputs
import proofs.«421104_j22986664968859_1_alg».proof.Proof.KI.Indep
import proofs.«421104_j22986664968859_1_alg».proof.Proof.Spec
import proofs.«421104_j22986664968859_1_alg».proof.Proof.LibOnlineSoftmax
import Idealize.ShloMosaic.PureOps.IdealRules
import Idealize.ShloMosaic.Lib.ValueIdx
import Idealize.ShloMosaic.Lib.Pipeline.Value

set_option maxRecDepth 16384

noncomputable section

namespace Cert.KernelIdeal.Body.Lg

open Cert.KernelIdeal Cert.KernelIdeal.Gen Idealize.ShloMosaic Idealize.ShloMosaic.TcCoe Idealize.SL.Sem Cert.Alg ValueIdx

/-! ### Layout operations read at an index -/

/-- A column broadcast along the lanes reads the column's entry of the row. -/
theorem bc_col {α : Type} (v : S256x1.Idx → α) (h : S256x1.Broadcasts S256x4096) (p : Fin 256) (q : Fin 4096) :
    broadcastTo S256x4096 v h (ix2 p q) = v (ix2 p 0) :=
  broadcastTo_apply v h (ix2 p q) (ix2 p 0) (fun a => match a with | ⟨0, _⟩ => rfl | ⟨1, _⟩ => rfl)

/-- A one-by-one array broadcast to the block reads its one entry. -/
theorem bc_one {α : Type} (v : S1x1.Idx → α) (h : S1x1.Broadcasts S256x4096) (p : Fin 256) (q : Fin 4096) :
    broadcastTo S256x4096 v h (ix2 p q) = v (ix2 0 0) :=
  broadcastTo_apply v h (ix2 p q) (ix2 0 0) (fun a => match a with | ⟨0, _⟩ => rfl | ⟨1, _⟩ => rfl)

/-- A vector comparison of words at an index compares the elements. -/
theorem cmpi_at {s : Shape} {w : ℕ} (pr : CmpIPredicate) (a b : IVec s w) (i : s.Idx) :
    cmpi pr a b i = IntOp.cmpi pr (a i) (b i) := rfl
/-- A vector sum of words at an index adds the elements. -/
theorem addi_at {s : Shape} {w : ℕ} (a b : IVec s w) (i : s.Idx) : addi a b i = IntOp.addi (a i) (b i) := rfl

/-! ### Words -/

/-- A choice on an equality test of two words is the choice on their equality as numbers. -/
theorem select_eq {α : Type} (a b : BitVec 32) (X Y : α) :
    Scalar.select (IntOp.cmpi .eq a b) X Y = if a.toNat = b.toNat then X else Y := by
  unfold Scalar.select IntOp.cmpi
  by_cases h : a = b
  · subst h; simp
  · have h' : ¬ a.toNat = b.toNat := fun e => h (BitVec.eq_of_toNat_eq e)
    have hb : (a == b) = false := by simpa using h
    simp [hb, h']

/-- A choice on the signed comparison of a number below 2³¹ with 100000 is the choice on the numbers. -/
theorem select_slt {α : Type} (n : ℕ) (hn : n < 2 ^ 31) (X Y : α) :
    Scalar.select (IntOp.cmpi .slt (BitVec.ofNat 32 n) 100000#32) X Y = if n < 100000 then X else Y := by
  unfold Scalar.select IntOp.cmpi
  have h1 : (BitVec.ofNat 32 n).toInt = (n : Int) := by
    rw [BitVec.toInt_eq_toNat_of_lt] <;> simp <;> omega
  have h2 : (100000#32 : BitVec 32).toInt = 100000 := by decide
  by_cases h : n < 100000
  · simp [BitVec.slt, h1, h2, h]
  · simp [BitVec.slt, h1, h2, h]

/-- The column of lane q of column block k, as the body computes it on 32-bit words: 4096 · k + q, without wrapping. -/
theorem col_word (k q : ℕ) (hk : k < 25) (hq : q < 4096) :
    IntOp.addi (BitVec.ofNat 32 q) (Scalar.muli (BitVec.ofNat 32 k) 4096#32) = BitVec.ofNat 32 (4096 * k + q) := by
  unfold IntOp.addi Scalar.muli IntOp.muli
  apply BitVec.eq_of_toNat_eq
  simp
  omega

/-- The padding constant is -∞ at the ideal instance. -/
theorem neg_big : Named.named (F := Ideal) κ "neg_big" (φ := .f32) 0xF149F2CA#32 = (⊥ : EReal) :=
  IdealRules.named_const.ideal_named_scalar _ _ _ _ rfl

/-! ### The body's block at a row and a lane -/

/-- The body's entry at row p, lane q, over any five blocks: inside the array (column 4096 · k + q below 100000) the
    choice between the target logit, at the label's column, and the updated clipped cosine, times 64; past the
    array's end the padding constant. -/
theorem pay7_apply (i : grid0.Coords) (v3 : Vec Ideal S256x4096 .f32) (v8 : Vec Ideal S256x1 .f32) (v10 : Vec Ideal S1x1 .f32)
    (v22 : Vec Ideal S256x1 .i32) (v26 : Vec Ideal S256x1 .f32) (p : Fin 256) (q : Fin 4096) :
    k0_pay7 i v3 v8 v10 v22 v26 (ix2 p q) =
      Scalar.select (IntOp.cmpi .slt (IntOp.addi (BitVec.ofNat 32 q.val) (Scalar.muli (BitVec.ofNat 32 (i 1).val) 4096#32)) 100000#32)
        (Scalar.select (IntOp.cmpi .eq (IntOp.addi (BitVec.ofNat 32 q.val) (Scalar.muli (BitVec.ofNat 32 (i 1).val) 4096#32)) (v22 (ix2 p 0)))
            (v26 (ix2 p 0))
            (Spec.modOf (Spec.clipE (v3 (ix2 p q))) (v8 (ix2 p 0)) (v10 (ix2 0 0)))
          * Spec.lit 0x42800000#32)
        (Named.named (F := Ideal) κ "neg_big" (φ := .f32) 0xF149F2CA#32) := by
  unfold k0_pay7
  simp only [select_apply, mulf_apply, addf_apply, maximumf_apply, minimumf_apply, broadcast_apply, cmpf_apply,
    cmpi_at, addi_at, shapeCast_self, bc_col, bc_one]
  have hio : iota .tc S256x4096 32 [1] iota_S256x4096_d1_w32 (ix2 p q) = BitVec.ofNat 32 q.val :=
    iota_single_apply .tc S256x4096 32 1 iota_S256x4096_d1_w32 (ix2 p q)
  rw [hio]
  rfl

/-- In range the body's entry is the scaled logit: the margin-adjusted target logit at the row's label,
    else the clipped cosine, updated against the row's margin cosine. -/
theorem pay7_in (i : grid0.Coords) (v3 : Vec Ideal S256x4096 .f32) (v8 : Vec Ideal S256x1 .f32) (v10 : Vec Ideal S1x1 .f32)
    (v22 : Vec Ideal S256x1 .i32) (v26 : Vec Ideal S256x1 .f32) (p : Fin 256) (q : Fin 4096)
    (hlt : 4096 * (i 1).val + q.val < 100000) (xv cm fl tv : EReal) (lab : ℕ)
    (h3 : v3 (ix2 p q) = xv) (h8 : v8 (ix2 p 0) = cm) (h10 : v10 (ix2 0 0) = tv)
    (h22 : (v22 (ix2 p 0)).toNat = lab) (h26 : v26 (ix2 p 0) = fl) :
    k0_pay7 i v3 v8 v10 v22 v26 (ix2 p q)
      = (if 4096 * (i 1).val + q.val = lab then fl else Spec.modOf (Spec.clipE xv) cm tv) * Spec.lit 0x42800000#32 := by
  have hk : (i 1).val < 25 := (i 1).isLt
  have hq : q.val < 4096 := q.isLt
  rw [pay7_apply, col_word _ _ hk hq, select_slt _ (by omega), if_pos hlt, select_eq, h3, h8, h10, h22, h26,
    BitVec.toNat_ofNat, Nat.mod_eq_of_lt (by omega)]

/-- Past the array's end the body's entry is the padding constant, -∞. -/
theorem pay7_out (i : grid0.Coords) (v3 : Vec Ideal S256x4096 .f32) (v8 : Vec Ideal S256x1 .f32) (v10 : Vec Ideal S1x1 .f32)
    (v22 : Vec Ideal S256x1 .i32) (v26 : Vec Ideal S256x1 .f32) (p : Fin 256) (q : Fin 4096)
    (hge : ¬ 4096 * (i 1).val + q.val < 100000) :
    k0_pay7 i v3 v8 v10 v22 v26 (ix2 p q) = (⊥ : EReal) := by
  have hk : (i 1).val < 25 := (i 1).isLt
  have hq : q.val < 4096 := q.isLt
  rw [pay7_apply, col_word _ _ hk hq, select_slt _ (by omega), if_neg hge, neg_big]

/-! ### The blocks, read off the arrays -/

/-- The block indices of the five input windows and the grid's coordinates at every point: point n is row block
    n / 25, column block n % 25; the three columns of per-row data move with the row block, the scalar's block is
    fixed, the cosine array's block moves with both. -/
theorem idx_facts : ∀ n : Fin cfg0.N,
    win0_0.index n (0 : Fin 2) = n.val / 25 ∧ win0_0.index n (1 : Fin 2) = 0
    ∧ win0_1.index n (0 : Fin 2) = n.val / 25 ∧ win0_1.index n (1 : Fin 2) = 0
    ∧ win0_2.index n (0 : Fin 2) = n.val / 25 ∧ win0_2.index n (1 : Fin 2) = 0
    ∧ win0_3.index n (0 : Fin 2) = 0 ∧ win0_3.index n (1 : Fin 2) = 0
    ∧ win0_4.index n (0 : Fin 2) = n.val / 25 ∧ win0_4.index n (1 : Fin 2) = n.val % 25
    ∧ (grid0.coords n 0).val = n.val / 25 ∧ (grid0.coords n 1).val = n.val % 25 :=
  (by decide +kernel : ∀ n : Fin grid0.N, _)

variable (m : (ℓ : Loc nD τ sig) → Buf (Elt Ideal) ℓ) (c : Dev nD)

/-- The labels' block at a point holds the labels of the point's row block. -/
theorem xb0_apply (n : Fin cfg0.N) (p : Fin 256) (r : Fin 2048) (hr : r.val = 256 * (n.val / 25) + p.val) :
    xb0 m c n (ix2 p 0) = (V m c main_v30 : Vec Ideal S2048x1 .i32) (ix2 r 0) := by
  obtain ⟨e0, e1, -⟩ := idx_facts n
  show V m c main_v30 (((cfg0.win 0).blk n).view.emb (ix2 p 0)) = V m c main_v30 (ix2 r 0)
  refine congrArg _ (funext fun a => Fin.ext ?_)
  match a with
  | ⟨0, _⟩ => show win0_0.index n (0 : Fin 2) * 256 + 1 * p.val = r.val; omega
  | ⟨1, _⟩ => show win0_0.index n (1 : Fin 2) * 1 + 1 * 0 = 0; omega

/-- The margin cosines' block at a point holds those of the point's row block. -/
theorem xb1_apply (n : Fin cfg0.N) (p : Fin 256) (r : Fin 2048) (hr : r.val = 256 * (n.val / 25) + p.val) :
    xb1 m c n (ix2 p 0) = (V m c main_v31 : Vec Ideal S2048x1 .f32) (ix2 r 0) := by
  obtain ⟨-, -, e0, e1, -⟩ := idx_facts n
  show V m c main_v31 (((cfg0.win 1).blk n).view.emb (ix2 p 0)) = V m c main_v31 (ix2 r 0)
  refine congrArg _ (funext fun a => Fin.ext ?_)
  match a with
  | ⟨0, _⟩ => show win0_1.index n (0 : Fin 2) * 256 + 1 * p.val = r.val; omega
  | ⟨1, _⟩ => show win0_1.index n (1 : Fin 2) * 1 + 1 * 0 = 0; omega

/-- The target logits' block at a point holds those of the point's row block. -/
theorem xb2_apply (n : Fin cfg0.N) (p : Fin 256) (r : Fin 2048) (hr : r.val = 256 * (n.val / 25) + p.val) :
    xb2 m c n (ix2 p 0) = (V m c main_v32 : Vec Ideal S2048x1 .f32) (ix2 r 0) := by
  obtain ⟨-, -, -, -, e0, e1, -⟩ := idx_facts n
  show V m c main_v32 (((cfg0.win 2).blk n).view.emb (ix2 p 0)) = V m c main_v32 (ix2 r 0)
  refine congrArg _ (funext fun a => Fin.ext ?_)
  match a with
  | ⟨0, _⟩ => show win0_2.index n (0 : Fin 2) * 256 + 1 * p.val = r.val; omega
  | ⟨1, _⟩ => show win0_2.index n (1 : Fin 2) * 1 + 1 * 0 = 0; omega

/-- The scalar's one-entry block is the one-by-one array. -/
theorem xb3_apply (n : Fin cfg0.N) :
    xb3 m c n (ix2 0 0) = (V m c main_v33 : Vec Ideal S1x1 .f32) (ix2 0 0) := by
  obtain ⟨-, -, -, -, -, -, e0, e1, -⟩ := idx_facts n
  show V m c main_v33 (((cfg0.win 3).blk n).view.emb (ix2 0 0)) = V m c main_v33 (ix2 0 0)
  refine congrArg _ (funext fun a => Fin.ext ?_)
  match a with
  | ⟨0, _⟩ => show win0_3.index n (0 : Fin 2) * 1 + 1 * 0 = 0; omega
  | ⟨1, _⟩ => show win0_3.index n (1 : Fin 2) * 1 + 1 * 0 = 0; omega

/-- A position of the cosine block that the transfer moves holds what the transfer brought there. -/
theorem fill_moved {α : Type} (i : grid0.Coords) (d : win0_4.block.Idx → α) (g : (win0_4.xblock i).Idx → α)
    (y : win0_4.block.Idx) (hm : win0_4.moved i y = true) :
    win0_4.fill i d g y = g (fun a => ⟨(y a).val, (win0_4.moved_iff i y).mp hm a⟩) := by
  unfold Pipeline.Window.fill
  exact dif_pos hm

/-- The cosine block at a point, at a column inside the array, holds the array's entry: row 256 · (row block) + p,
    column 4096 · (column block) + q. -/
theorem xb4_apply (n : Fin cfg0.N) (p : Fin 256) (q : Fin 4096) (r : Fin 2048) (j : Fin 100000)
    (hr : r.val = 256 * (n.val / 25) + p.val) (hj : j.val = 4096 * (n.val % 25) + q.val) :
    xb4 m c n (ix2 p q) = (V m c main_arg0 : Vec Ideal S2048x100000 .f32) (ix2 r j) := by
  obtain ⟨-, -, -, -, -, -, -, -, e0, e1, ec0, ec1⟩ := idx_facts n
  have hjlt : j.val < 100000 := j.isLt
  have hm : win0_4.moved (grid0.coords n) (ix2 p q) = true := by
    by_contra hm
    have h1 : 100000 ≤ 4096 * (grid0.coords n 1).val + q.val := col_ge_of_not_moved (grid0.coords n) (ix2 p q) hm
    omega
  unfold xb4
  refine (fill_moved (grid0.coords n) _ (iblk m c 4 n) (ix2 p q) hm).trans ?_
  show V m c main_arg0 (((cfg0.win 4).blk n).view.emb _) = V m c main_arg0 (ix2 r j)
  refine congrArg _ (funext fun a => Fin.ext ?_)
  match a with
  | ⟨0, _⟩ => show win0_4.index n (0 : Fin 2) * 256 + 1 * p.val = r.val; omega
  | ⟨1, _⟩ => show win0_4.index n (1 : Fin 2) * 4096 + 1 * q.val = j.val; omega

end Cert.KernelIdeal.Body.Lg

namespace Cert.KernelIdeal.Body

open Cert.KernelIdeal Cert.KernelIdeal.Gen Idealize.ShloMosaic Idealize.ShloMosaic.TcCoe Idealize.SL.Sem Cert.Alg ValueIdx
open Lg

/-! ### The block of masked scaled logits -/

variable (m : (ℓ : Loc nD τ sig) → Buf (Elt Ideal) ℓ) (c : Dev nD)
  (x : Fin 2048 → Fin 100000 → EReal) (l : Fin 2048 → ℕ) (t : EReal)

/-- THE BLOCK OF LOGITS. At the point of row block qi and column block k the body's block of masked scaled logits
    is, at row p and lane q, entry 4096 · k + q of row 256 · qi + p of the specification's scaled logits, and -∞ past
    the row's end: block k of the row's padded layout. -/
theorem lgAt_apply (hI : Inputs m c x l t) (qi : Fin 8) (k : Fin 25) (p : Fin 256) (q : Fin 4096) :
    lgAt m c (pt qi k) (ix2 p q) = Cert.Online.blocks (W := 4096) (Spec.logit x l t (row qi p)) k.val q := by
  have hqi : qi.val < 8 := qi.isLt
  have hk : k.val < 25 := k.isLt
  have hv : (pt qi k).val = 25 * qi.val + k.val := rfl
  have hd : (pt qi k).val / 25 = qi.val := by omega
  have hmod : (pt qi k).val % 25 = k.val := by omega
  have hrow : (row qi p).val = 256 * ((pt qi k).val / 25) + p.val := by rw [hd]; rfl
  obtain ⟨-, -, -, -, -, -, -, -, -, -, ec0, ec1⟩ := idx_facts (pt qi k)
  unfold lgAt Cert.Online.blocks
  by_cases hlt : k.val * 4096 + q.val < 100000
  · rw [dif_pos hlt]
    refine (pay7_in (grid0.coords (pt qi k)) _ _ _ _ _ p q (by omega)
      (x (row qi p) ⟨k.val * 4096 + q.val, hlt⟩) (Spec.ctmRow x l (row qi p)) (Spec.ftlRow x l (row qi p)) t (l (row qi p))
      ?_ ?_ ?_ ?_ ?_).trans ?_
    · exact (xb4_apply m c (pt qi k) p q (row qi p) ⟨k.val * 4096 + q.val, hlt⟩ hrow
        (by show k.val * 4096 + q.val = _; omega)).trans (hI.cos _ _)
    · exact (xb1_apply m c (pt qi k) p (row qi p) hrow).trans (hI.ctm _)
    · exact (xb3_apply m c (pt qi k)).trans hI.tt
    · exact (congrArg BitVec.toNat (xb0_apply m c (pt qi k) p (row qi p) hrow)).trans (hI.lab _)
    · exact (xb2_apply m c (pt qi k) p (row qi p) hrow).trans (hI.ftl _)
    · have e : 4096 * (grid0.coords (pt qi k) 1).val + q.val = k.val * 4096 + q.val := by omega
      rw [e]
      rfl
  · rw [dif_neg hlt]
    exact pay7_out (grid0.coords (pt qi k)) _ _ _ _ _ p q (by omega)

end Cert.KernelIdeal.Body

end
-- ==== Proof.PreDecode.lean ====
/-
  The printed precondition, read back at the extended reals.

  The predicate is a conjunction of three "for all" statements: every entry x of the 2048 × 100000
  array has |x| < +∞, the one entry of the temperature has |x| < +∞, and every label l satisfies
  0 ≤ l and l < 100000 as a signed 32-bit word. Each "for all" is a reduction by "and" from 1, which
  is 1 only if every reduced element is 1. An extended real whose absolute value max x (-x) is below
  +∞ is neither infinity, so it is a real number. A signed word that is at least 0 has its top bit
  clear, so it reads the same signed and unsigned, and being below 100000 signed it is below 100000
  as a natural number.
-/
import proofs.«421104_j22986664968859_1_alg».proof.Pre_finite_inputs
import proofs.«421104_j22986664968859_1_alg».proof.Proof.Gen.Pre_finite_inputs
import proofs.«421104_j22986664968859_1_alg».proof.Proof.LibRealVariance
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.Alg

/-- The shape of rank 0 has exactly one index. -/
instance subsingleton_S_ : Subsingleton Cert.Pre_finite_inputs.S_.Idx :=
  ⟨fun a b => funext fun d => d.elim0⟩

/-- The pattern 0x7F800000 denotes +∞. -/
theorem ofBits_inf : Ideal.ofBits .f32 0x7F800000#32 = (⊤ : EReal) := by
  simp [Ideal.ofBits, Ideal.ieee]

/-- The ordered comparison |x| < +∞ being 1 says that x is a real number. -/
theorem isReal_of_cmp {x : EReal}
    (h : FloatOps.cmpf (F := Ideal) (φ := .f32) .olt (FloatOps.hostAbsf (F := Ideal) (φ := .f32) x)
      (FloatOps.ofBits (F := Ideal) .f32 0x7F800000#32) = 1#1) : IsReal x := by
  apply isReal_of_abs_lt_top
  have h' : BitVec.ofBool (decide (max x (-x) < Ideal.ofBits .f32 0x7F800000#32)) = 1#1 := h
  rw [ofBits_inf, StableHlo.Predicate.ofBool_eq_one_iff, decide_eq_true_eq] at h'
  exact h'

/-- A signed 32-bit word that is at least 0 and below 100000 is below 100000 as a natural number,
    and its top bit is clear. -/
theorem word_bounds {w : BitVec 32} (h0 : IntOp.cmpi .sge w 0#32 = 1#1)
    (h1 : IntOp.cmpi .slt w 100000#32 = 1#1) : w.toNat < 100000 ∧ w.msb = false := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  have hm : w.msb = false := by
    rcases hb : w.msb with _ | _
    · rfl
    · exfalso
      have := BitVec.toInt_neg_of_msb_true hb
      omega
  refine ⟨?_, hm⟩
  rw [BitVec.toInt_eq_msb_cond, hm] at h1
  simp only [Bool.false_eq_true, if_false] at h1
  omega

variable [Cert.Pre_finite_inputs.Facts]

/-- The precondition, decoded: every entry of the array and of the temperature is a real number,
    and every label is a natural number below 100000. -/
theorem decode (a : FVec Ideal Cert.Pre_finite_inputs.S2048x100000 .f32)
    (l : IVec Cert.Pre_finite_inputs.S2048 32) (t : FVec Ideal Cert.Pre_finite_inputs.S1 .f32)
    (h : Cert.Pre_finite_inputs.fn (F := Ideal) a l t = (fun _ => 1#1)) :
    (∀ i, IsReal (a i)) ∧ (∀ i, IsReal (t i)) ∧ (∀ r, (l r).toNat < 100000) := by
  have h0 := congrFun h ValueIdx.ix0
  dsimp only [Cert.Pre_finite_inputs.fn] at h0
  obtain ⟨h8, h14⟩ := IntOp.andi_eq_one.1 h0
  obtain ⟨h3, h7⟩ := IntOp.andi_eq_one.1 h8
  refine ⟨fun i => ?_, fun i => ?_, fun r => ?_⟩
  · have e := Host.reduce_andi_all _ _ _ _ _ h3 i
    exact isReal_of_cmp e
  · have e := Host.reduce_andi_all _ _ _ _ _ h7 i
    exact isReal_of_cmp e
  · have e := Host.reduce_andi_all _ _ _ _ _ h14 r
    obtain ⟨e0, e1⟩ := IntOp.andi_eq_one.1 e
    exact (word_bounds e0 e1).1

/-- Under the precondition a label's top bit is clear. -/
theorem label_msb (a : FVec Ideal Cert.Pre_finite_inputs.S2048x100000 .f32)
    (l : IVec Cert.Pre_finite_inputs.S2048 32) (t : FVec Ideal Cert.Pre_finite_inputs.S1 .f32)
    (h : Cert.Pre_finite_inputs.fn (F := Ideal) a l t = (fun _ => 1#1))
    (r : Cert.Pre_finite_inputs.S2048.Idx) : (l r).msb = false :=
  BitVec.msb_eq_false_iff_two_mul_lt.mpr (by have := (decode a l t h).2.2 r; omega)

/-- Under the precondition a label reads the same as a signed and as an unsigned word. -/
theorem label_toInt (a : FVec Ideal Cert.Pre_finite_inputs.S2048x100000 .f32)
    (l : IVec Cert.Pre_finite_inputs.S2048 32) (t : FVec Ideal Cert.Pre_finite_inputs.S1 .f32)
    (h : Cert.Pre_finite_inputs.fn (F := Ideal) a l t = (fun _ => 1#1))
    (r : Cert.Pre_finite_inputs.S2048.Idx) : (l r).toInt = ((l r).toNat : ℤ) :=
  StableHlo.Predicate.toInt_eq_toNat_of_lt (by have := (decode a l t h).2.2 r; omega)

end Cert.PreDecode

end
-- ==== Proof.LibPointGather.lean ====
/-
  Point gather and point scatter of a rank-2 array, read at an entry.

  A table of index pairs `idx : [R, 2]` names one entry `(idx[r, 0], idx[r, 1])` of an array `x : [R, C]` per row `r`.
  The GATHER of `x` at `idx` (both operand axes collapsed and start-indexed, slices of one element, the index vector on
  axis 1 of the table) is the vector whose entry `r` is `x` at pair `r`, each component read signed and clamped into
  its axis. The SCATTER into `x` at `idx` of a vector `u : [R]` (both operand axes inserted, the index vector on axis
  1) combines `u r` into the entry pair `r` names, when that entry exists; entries no pair names keep `x`'s value.
  When pair `r` is `(r, l r)` with `l r` a column, the gather reads `x (r, l r)` and the scatter changes, in row `r`,
  the one entry of column `l r`.

  The first part is about `Host.scatter` for any dimension numbers: the left fold over the update indices, read at an
  entry that exactly one update index lands on, or none. The later parts restate the two reads with the index words
  read unsigned (a word whose top bit is clear reads the same signed and unsigned), read the table of pairs when it is
  two vectors laid side by side as columns, show that the wrap of a negative index, `v + n` where `v < 0`, leaves a
  word whose top bit is clear as it is, and put these together: the gather `x[rows, cols]` and the scatter-set
  `x.at[rows, cols].set(u)` read at an entry.
-/
import Idealize.ShloMosaic.Lib.ValueIdx
import Idealize.ShloMosaic.Lib.Affine
import Idealize.ShloMosaic.Lib.Pipeline.Value
import Mathlib.Data.List.Nodup
import Mathlib.Data.List.FinRange

noncomputable section

namespace Cert.PointGather

open Idealize.ShloMosaic Idealize.ShloMosaic.ValueIdx

variable {α : Type}

/-! ## A fold of point updates, read at a point -/

section Fold
variable {ι κ : Type} [DecidableEq κ]

/-- One step of the fold: the element `n` lands on (if any) is combined with `n`'s value. -/
abbrev step (g : ι → Option κ) (f : α → α → α) (v : ι → α) (r : κ → α) (n : ι) : κ → α :=
  match g n with
  | some i => fun i' => if i' = i then f (r i) (v n) else r i'
  | none => r

/-- A point no element of the list lands on keeps its value through the fold. -/
theorem foldl_step_miss (g : ι → Option κ) (f : α → α → α) (v : ι → α) (i : κ) :
    ∀ (L : List ι) (x : κ → α), (∀ n ∈ L, g n ≠ some i) → L.foldl (step g f v) x i = x i
  | [], _, _ => rfl
  | a :: L, x, h => by
    rw [List.foldl_cons, foldl_step_miss g f v i L _ fun n hn => h n (List.mem_cons_of_mem _ hn)]
    have ha := h a List.mem_cons_self
    unfold step
    cases hg : g a with
    | none => rfl
    | some k =>
      have hne : i ≠ k := fun e => ha (by rw [hg, e])
      simp only [if_neg hne]

/-- A point exactly one element `n` of a list without repeats lands on holds, after the fold, its value combined
    with `n`'s. -/
theorem foldl_step_hit (g : ι → Option κ) (f : α → α → α) (v : ι → α) (i : κ) (n : ι) (hn : g n = some i) :
    ∀ (L : List ι) (x : κ → α), L.Nodup → n ∈ L → (∀ m ∈ L, g m = some i → m = n) →
      L.foldl (step g f v) x i = f (x i) (v n)
  | [], _, _, h, _ => absurd h List.not_mem_nil
  | a :: L, x, hnd, hmem, huniq => by
    rw [List.foldl_cons]
    have hnd' := List.nodup_cons.1 hnd
    by_cases han : a = n
    · subst han
      rw [foldl_step_miss g f v i L _ fun m hm e => hnd'.1 (huniq m (List.mem_cons_of_mem _ hm) e ▸ hm)]
      unfold step
      simp only [hn, if_pos]
    · have hmem' : n ∈ L := (List.mem_cons.1 hmem).resolve_left fun e => han e.symm
      rw [foldl_step_hit g f v i n hn L _ hnd'.2 hmem' fun m hm => huniq m (List.mem_cons_of_mem _ hm)]
      congr 1
      unfold step
      cases hg : g a with
      | none => rfl
      | some k =>
        have hne : i ≠ k := fun e => han (huniq a List.mem_cons_self (by rw [hg, e]))
        simp only [if_neg hne]

end Fold

/-! ## `Host.scatter` at an entry -/

section Scatter
variable {s si u : Shape} {w : Nat}

/-- `Host.scatter` is the fold of `step` over the update positions in row-major order. -/
theorem scatter_eq_foldl (d : ScatterDims s si u) (f : α → α → α) (x : s.Idx → α) (idx : IVec si w) (upd : u.Idx → α) :
    Host.scatter d f x idx upd
      = (List.finRange u.numel).foldl
          (step (fun n => d.resultIdx? (u.rowMajor.symm n) idx) f (fun n => upd (u.rowMajor.symm n))) x := by
  unfold Host.scatter
  congr 1
  funext r n
  unfold step
  beta_reduce
  generalize d.resultIdx? (u.rowMajor.symm n) idx = o
  cases o <;> rfl

/-- An entry no update index lands on keeps the operand's value. -/
theorem scatter_apply_miss (d : ScatterDims s si u) (f : α → α → α) (x : s.Idx → α) (idx : IVec si w) (upd : u.Idx → α)
    (i : s.Idx) (h : ∀ j, d.resultIdx? j idx ≠ some i) : Host.scatter d f x idx upd i = x i := by
  rw [scatter_eq_foldl]
  exact foldl_step_miss _ f _ i _ x fun n _ => h _

/-- An entry exactly one update index `j` lands on holds the operand's value there combined with the update's at `j`. -/
theorem scatter_apply_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  rw [scatter_eq_foldl]
  have := foldl_step_hit (fun n => d.resultIdx? (u.rowMajor.symm n) idx) f (fun n => upd (u.rowMajor.symm n)) i
    (u.rowMajor j) (by simpa using hj) (List.finRange u.numel) x (List.nodup_finRange _) (List.mem_finRange _)
    (fun m _ hm => by
      have := huniq _ hm
      rw [← this]; simp)
  simpa using this

end Scatter

/-! ## The point gather and the point scatter of a rank-2 array -/

section Point
variable {R C w : Nat}

/-- The gather's dimension numbers: operand `[R, C]`, index pairs `[R, 2]`, result `[R]`; both operand axes collapsed
    and start-indexed, one-element slices, the index vector on axis 1. -/
abbrev gatherDims (R C : Nat)
    (wf : GatherDims.WF ⟨2, ![R, C]⟩ ⟨2, ![R, 2]⟩ ⟨1, ![R]⟩ [] [0, 1] [] [0, 1] [] 1 ![1, 1]) :
    GatherDims ⟨2, ![R, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The scatter's dimension numbers: operand `[R, C]`, index pairs `[R, 2]`, updates `[R]`; both operand axes inserted,
    the index vector on axis 1. -/
abbrev scatterDims (R C : Nat) (wf : ScatterDims.WF ⟨2, ![R, C]⟩ ⟨2, ![R, 2]⟩ ⟨1, ![R]⟩ [] [0, 1] [0, 1] 1) :
    ScatterDims ⟨2, ![R, C]⟩ ⟨2, ![R, 2]⟩ ⟨1, ![R]⟩ where
  updateWindowDims := []
  insertedWindowDims := [0, 1]
  scatterDimsToOperandDims := [0, 1]
  indexVectorDim := 1
  wf := wf

/-- THE GATHER READ AT ROW `r`: the operand at pair `r`, each component read signed and clamped into its axis. -/
theorem gather_apply (wf : GatherDims.WF ⟨2, ![R, C]⟩ ⟨2, ![R, 2]⟩ ⟨1, ![R]⟩ [] [0, 1] [] [0, 1] [] 1 ![1, 1])
    (x : (⟨2, ![R, C]⟩ : Shape).Idx → α) (idx : IVec ⟨2, ![R, 2]⟩ w) (r : Fin R) (hC : 0 < C) :
    Host.gather (gatherDims R C wf) x idx (ix1 r)
      = x (ix2 ⟨min (idx (ix2 r 0)).toInt.toNat (R - 1), by have := r.isLt; omega⟩
              ⟨min (idx (ix2 r 1)).toInt.toNat (C - 1), by omega⟩) := by
  unfold Host.gather
  congr 1
  funext a
  refine Fin.ext ?_
  have hb : ∀ a, (gatherDims R C wf).batchCoord (ix1 r) a = 0 := fun a =>
    GatherDims.batchCoord_eq_zero _ _ _ List.not_mem_nil
  have ho : ∀ a, (gatherDims R C wf).offCoord (ix1 r) a = 0 := fun a =>
    GatherDims.offCoord_eq_zero _ _ _ (fun h => ((GatherDims.mem_sKept _ _).mp h).1 (by
      show a ∈ ([0, 1] : List (Fin 2))
      match a with
      | ⟨0, _⟩ => exact List.mem_cons_self
      | ⟨1, _⟩ => exact List.mem_cons_of_mem _ List.mem_cons_self))
  show (gatherDims R C wf).start (ix1 r) idx a + (gatherDims R C wf).batchCoord (ix1 r) a
    + (gatherDims R C wf).offCoord (ix1 r) a = _
  simp only [hb, ho, Nat.add_zero]
  have k0 : (gatherDims R C wf).start (ix1 r) idx 0 = min (idx (ix2 r 0)).toInt.toNat (R - 1) := by
    unfold GatherDims.start
    rw [dif_pos (show (0 : Fin 2) ∈ (gatherDims R C wf).startIndexMap from List.mem_cons_self)]
    have hsi : (gatherDims R C wf).siIdx (ix1 r) ⟨List.idxOf (0 : Fin 2) (gatherDims R C wf).startIndexMap,
        List.idxOf_lt_length_iff.2 List.mem_cons_self⟩ = ix2 r 0 := by
      funext b; refine Fin.ext ?_
      match b with
      | ⟨0, _⟩ => rfl
      | ⟨1, _⟩ => rfl
    rw [hsi]
    rfl
  have k1 : (gatherDims R C wf).start (ix1 r) idx 1 = min (idx (ix2 r 1)).toInt.toNat (C - 1) := by
    unfold GatherDims.start
    rw [dif_pos (show (1 : Fin 2) ∈ (gatherDims R C wf).startIndexMap from List.mem_cons_of_mem _ List.mem_cons_self)]
    have hsi : (gatherDims R C wf).siIdx (ix1 r) ⟨List.idxOf (1 : Fin 2) (gatherDims R C wf).startIndexMap,
        List.idxOf_lt_length_iff.2 (List.mem_cons_of_mem _ List.mem_cons_self)⟩ = ix2 r 1 := by
      funext b; refine Fin.ext ?_
      match b with
      | ⟨0, _⟩ => rfl
      | ⟨1, _⟩ => rfl
    rw [hsi]
    rfl
  match a with
  | ⟨0, _⟩ => exact k0
  | ⟨1, _⟩ => exact k1

/-- The gather at row `r` when pair `r` is `(r, l)` with `l` a column: the operand at `(r, l)`. -/
theorem gather_apply_of_pair (wf : GatherDims.WF ⟨2, ![R, C]⟩ ⟨2, ![R, 2]⟩ ⟨1, ![R]⟩ [] [0, 1] [] [0, 1] [] 1 ![1, 1])
    (x : (⟨2, ![R, C]⟩ : Shape).Idx → α) (idx : IVec ⟨2, ![R, 2]⟩ w) (r : Fin R) (l : Fin C)
    (h0 : (idx (ix2 r 0)).toInt = (r.val : Int)) (h1 : (idx (ix2 r 1)).toInt = (l.val : Int)) :
    Host.gather (gatherDims R C wf) x idx (ix1 r) = x (ix2 r l) := by
  rw [gather_apply wf x idx r (Nat.lt_of_le_of_lt (Nat.zero_le _) l.isLt)]
  congr 1
  have hr := r.isLt
  have hl := l.isLt
  funext a
  refine Fin.ext ?_
  match a with
  | ⟨0, _⟩ => show min (idx (ix2 r 0)).toInt.toNat (R - 1) = r.val; rw [h0]; simp; omega
  | ⟨1, _⟩ => show min (idx (ix2 r 1)).toInt.toNat (C - 1) = l.val; rw [h1]; simp; omega

/-- Where update `r` lands when pair `r` is `(r, l)` with `l` a column: on entry `(r, l)`. -/
theorem resultIdx?_of_pair (wf : ScatterDims.WF ⟨2, ![R, C]⟩ ⟨2, ![R, 2]⟩ ⟨1, ![R]⟩ [] [0, 1] [0, 1] 1)
    (idx : IVec ⟨2, ![R, 2]⟩ w) (r : Fin R) (l : Fin C)
    (h0 : (idx (ix2 r 0)).toInt = (r.val : Int)) (h1 : (idx (ix2 r 1)).toInt = (l.val : Int)) :
    (scatterDims R C wf).resultIdx? (ix1 r) idx = some (ix2 r l) := by
  have hw : ∀ a, (scatterDims R C wf).window (ix1 r) a = 0 := fun a => by
    unfold ScatterDims.window
    rw [dif_neg]
    show a ∉ (⟨2, ![R, C]⟩ : Shape).kept [0, 1]
    match a with
    | ⟨0, _⟩ => simp [Shape.kept]
    | ⟨1, _⟩ => simp [Shape.kept]
  have hs0 : (scatterDims R C wf).start (ix1 r) idx 0 = (r.val : Int) := by
    unfold ScatterDims.start
    rw [dif_pos (show (0 : Fin 2) ∈ (scatterDims R C wf).scatterDimsToOperandDims from List.mem_cons_self)]
    have hsi : (scatterDims R C wf).siIdx (ix1 r) ⟨List.idxOf (0 : Fin 2) (scatterDims R C wf).scatterDimsToOperandDims,
        List.idxOf_lt_length_iff.2 List.mem_cons_self⟩ = ix2 r 0 := by
      funext b; refine Fin.ext ?_
      match b with
      | ⟨0, _⟩ => rfl
      | ⟨1, _⟩ => rfl
    rw [hsi, h0]
  have hs1 : (scatterDims R C wf).start (ix1 r) idx 1 = (l.val : Int) := by
    unfold ScatterDims.start
    rw [dif_pos (show (1 : Fin 2) ∈ (scatterDims R C wf).scatterDimsToOperandDims from
      List.mem_cons_of_mem _ List.mem_cons_self)]
    have hsi : (scatterDims R C wf).siIdx (ix1 r) ⟨List.idxOf (1 : Fin 2) (scatterDims R C wf).scatterDimsToOperandDims,
        List.idxOf_lt_length_iff.2 (List.mem_cons_of_mem _ List.mem_cons_self)⟩ = ix2 r 1 := by
      funext b; refine Fin.ext ?_
      match b with
      | ⟨0, _⟩ => rfl
      | ⟨1, _⟩ => rfl
    rw [hsi, h1]
  have hr := r.isLt
  have hl := l.isLt
  unfold ScatterDims.resultIdx?
  rw [dif_pos (fun a => by
    match a with
    | ⟨0, _⟩ =>
      show (0 : Int) ≤ (scatterDims R C wf).start (ix1 r) idx 0 + ((scatterDims R C wf).window (ix1 r) 0 : Nat) ∧
        (scatterDims R C wf).start (ix1 r) idx 0 + ((scatterDims R C wf).window (ix1 r) 0 : Nat) < (R : Nat)
      rw [hw, hs0]; omega
    | ⟨1, _⟩ =>
      show (0 : Int) ≤ (scatterDims R C wf).start (ix1 r) idx 1 + ((scatterDims R C wf).window (ix1 r) 1 : Nat) ∧
        (scatterDims R C wf).start (ix1 r) idx 1 + ((scatterDims R C wf).window (ix1 r) 1 : Nat) < (C : Nat)
      rw [hw, hs1]; omega)]
  congr 1
  funext a
  refine Fin.ext ?_
  match a with
  | ⟨0, _⟩ => show ((scatterDims R C wf).start (ix1 r) idx 0 + ((scatterDims R C wf).window (ix1 r) 0 : Nat)).toNat = r.val; rw [hw, hs0]; simp
  | ⟨1, _⟩ => show ((scatterDims R C wf).start (ix1 r) idx 1 + ((scatterDims R C wf).window (ix1 r) 1 : Nat)).toNat = l.val; rw [hw, hs1]; simp

/-- THE SCATTER READ AT `(r, j)` when every pair `r'` is `(r', l r')` with `l r'` a column: the rows are distinct, so
    entry `(r, l r)` is the operand's there combined with update `r`, and every other entry of row `r` is the operand's. -/
theorem scatter_apply (wf : ScatterDims.WF ⟨2, ![R, C]⟩ ⟨2, ![R, 2]⟩ ⟨1, ![R]⟩ [] [0, 1] [0, 1] 1)
    (f : α → α → α) (x : (⟨2, ![R, C]⟩ : Shape).Idx → α) (idx : IVec ⟨2, ![R, 2]⟩ w)
    (upd : (⟨1, ![R]⟩ : Shape).Idx → α) (l : Fin R → Fin C)
    (h0 : ∀ r, (idx (ix2 r 0)).toInt = (r.val : Int)) (h1 : ∀ r, (idx (ix2 r 1)).toInt = ((l r).val : Int))
    (r : Fin R) (j : Fin C) :
    Host.scatter (scatterDims R C wf) f x idx upd (ix2 r j)
      = if j = l r then f (x (ix2 r j)) (upd (ix1 r)) else x (ix2 r j) := by
  have hland : ∀ j' : (⟨1, ![R]⟩ : Shape).Idx,
      (scatterDims R C wf).resultIdx? j' idx = some (ix2 (j' 0) (l (j' 0))) := fun j' => by
    conv_lhs => rw [eq_ix1 j']
    exact resultIdx?_of_pair wf idx (j' 0) (l (j' 0)) (h0 _) (h1 _)
  by_cases hj : j = l r
  · rw [if_pos hj]
    subst hj
    refine scatter_apply_hit _ f x idx upd _ (ix1 r) (hland (ix1 r)) fun j' hj' => ?_
    rw [hland j'] at hj'
    have e := congrFun (Option.some.inj hj') 0
    rw [eq_ix1 j']
    exact congrArg ix1 e
  · rw [if_neg hj]
    refine scatter_apply_miss _ f x idx upd _ fun j' hj' => ?_
    rw [hland j'] at hj'
    have e0 : j' 0 = r := congrFun (Option.some.inj hj') 0
    have e1 : l (j' 0) = j := congrFun (Option.some.inj hj') 1
    exact hj (by rw [← e1, e0])

end Point

/-! ## The same, with the index words read unsigned

A word whose top bit is clear reads the same signed and unsigned; the hypotheses below are in that form. -/

section Unsigned
variable {R C w : Nat}

/-- A word whose top bit is clear reads the same as a signed and as an unsigned number. -/
theorem toInt_of_msb {k : Nat} (v : BitVec k) (h : v.msb = false) : v.toInt = (v.toNat : Int) := by
  rw [BitVec.toInt_eq_msb_cond, h]; simp

/-- The gather at row `r` when pair `r` is `(r, c)`, both words with the top bit clear and `c` a column: the operand
    at `(r, c)`. -/
theorem gather_point (wf : GatherDims.WF ⟨2, ![R, C]⟩ ⟨2, ![R, 2]⟩ ⟨1, ![R]⟩ [] [0, 1] [] [0, 1] [] 1 ![1, 1])
    (x : (⟨2, ![R, C]⟩ : Shape).Idx → α) (idx : IVec ⟨2, ![R, 2]⟩ w) (r : Fin R)
    (hr : (idx (ix2 r 0)).toNat = r.val) (hrm : (idx (ix2 r 0)).msb = false)
    (hc : (idx (ix2 r 1)).toNat < C) (hcm : (idx (ix2 r 1)).msb = false) :
    Host.gather (gatherDims R C wf) x idx (ix1 r) = x (ix2 r ⟨(idx (ix2 r 1)).toNat, hc⟩) :=
  gather_apply_of_pair wf x idx r ⟨_, hc⟩ (by rw [toInt_of_msb _ hrm, hr]) (toInt_of_msb _ hcm)

/-- The scatter read at `(r, j)` when every pair `r'` is `(r', c r')`, all words with the top bit clear and every
    `c r'` a column: the rows are pairwise distinct, so each entry is written at most once — entry `(r, c r)` holds
    the operand's value combined with update `r`, every other entry of row `r` the operand's. -/
theorem scatter_point (wf : ScatterDims.WF ⟨2, ![R, C]⟩ ⟨2, ![R, 2]⟩ ⟨1, ![R]⟩ [] [0, 1] [0, 1] 1)
    (f : α → α → α) (x : (⟨2, ![R, C]⟩ : Shape).Idx → α) (idx : IVec ⟨2, ![R, 2]⟩ w)
    (upd : (⟨1, ![R]⟩ : Shape).Idx → α)
    (hrow : ∀ r : Fin R, (idx (ix2 r 0)).toNat = r.val) (hrowm : ∀ r : Fin R, (idx (ix2 r 0)).msb = false)
    (hcol : ∀ r : Fin R, (idx (ix2 r 1)).toNat < C) (hcolm : ∀ r : Fin R, (idx (ix2 r 1)).msb = false)
    (r : Fin R) (j : Fin C) :
    Host.scatter (scatterDims R C wf) f x idx upd (ix2 r j)
      = if j.val = (idx (ix2 r 1)).toNat then f (x (ix2 r j)) (upd (ix1 r)) else x (ix2 r j) := by
  rw [scatter_apply wf f x idx upd (fun r => ⟨(idx (ix2 r 1)).toNat, hcol r⟩)
    (fun r => by rw [toInt_of_msb _ (hrowm r), hrow r]) (fun r => toInt_of_msb _ (hcolm r)) r j]
  by_cases h : j.val = (idx (ix2 r 1)).toNat
  · rw [if_pos h, if_pos (Fin.ext h)]
  · rw [if_neg h, if_neg (fun e => h (congrArg Fin.val e))]

/-- The scatter that SETS (the combining function returns the update): entry `(r, c r)` holds update `r`, every other
    entry of row `r` the operand's value. -/
theorem scatter_point_set (wf : ScatterDims.WF ⟨2, ![R, C]⟩ ⟨2, ![R, 2]⟩ ⟨1, ![R]⟩ [] [0, 1] [0, 1] 1)
    (x : (⟨2, ![R, C]⟩ : Shape).Idx → α) (idx : IVec ⟨2, ![R, 2]⟩ w) (upd : (⟨1, ![R]⟩ : Shape).Idx → α)
    (hrow : ∀ r : Fin R, (idx (ix2 r 0)).toNat = r.val) (hrowm : ∀ r : Fin R, (idx (ix2 r 0)).msb = false)
    (hcol : ∀ r : Fin R, (idx (ix2 r 1)).toNat < C) (hcolm : ∀ r : Fin R, (idx (ix2 r 1)).msb = false)
    (r : Fin R) (j : Fin C) :
    Host.scatter (scatterDims R C wf) (fun _ b => b) x idx upd (ix2 r j)
      = if j.val = (idx (ix2 r 1)).toNat then upd (ix1 r) else x (ix2 r j) :=
  scatter_point wf (fun _ b => b) x idx upd hrow hrowm hcol hcolm r j

end Unsigned

/-! ## The table of index pairs: two columns side by side

The table `[R, 2]` is the concatenation along axis 1 of two vectors of length `R`, each laid as an `[R, 1]` column:
its entry `(r, 0)` is the first vector's at `r`, its entry `(r, 1)` the second's. -/

section Pairs
variable {β : Type} {R : Nat}

/-- A vector laid as an `[R, 1]` column reads, at `(r, 0)`, the vector at `r`. -/
theorem bcast_col_apply (hb : (⟨1, ![R]⟩ : Shape).BroadcastsInDim ⟨2, ![R, 1]⟩ ![0])
    (p : (⟨1, ![R]⟩ : Shape).Idx → β) (r : Fin R) :
    broadcastInDim ⟨2, ![R, 1]⟩ ![0] hb p (ix2 r 0) = p (ix1 r) := by
  simp only [broadcastInDim]
  congr 1
  funext a
  have ha : a = 0 := Subsingleton.elim _ _
  subst ha
  apply Fin.ext
  have hr := r.isLt
  split
  · next h1 => change R = 1 at h1; show (0 : Nat) = r.val; omega
  · rfl

/-- Entry `(r, 0)` of two columns side by side is the first vector's at `r`. -/
theorem pairs_fst (hb hb' : (⟨1, ![R]⟩ : Shape).BroadcastsInDim ⟨2, ![R, 1]⟩ ![0])
    (hc : Shape.Concatenates [(⟨2, ![R, 1]⟩ : Shape), ⟨2, ![R, 1]⟩] ⟨2, ![R, 2]⟩ 1)
    (p q : (⟨1, ![R]⟩ : Shape).Idx → β) (r : Fin R) :
    concatenate ⟨2, ![R, 2]⟩ 1 [⟨⟨2, ![R, 1]⟩, broadcastInDim ⟨2, ![R, 1]⟩ ![0] hb p⟩,
      ⟨⟨2, ![R, 1]⟩, broadcastInDim ⟨2, ![R, 1]⟩ ![0] hb' q⟩] hc (ix2 r 0) = p (ix1 r) := by
  rw [concatenate_pair_apply_left 1 _ _ hc (ix2 r 0) rfl (ix2 r 0) (fun b => by
    match b with
    | ⟨0, _⟩ => rfl
    | ⟨1, _⟩ => rfl)]
  exact bcast_col_apply hb p r

/-- Entry `(r, 1)` of two columns side by side is the second vector's at `r`. -/
theorem pairs_snd (hb hb' : (⟨1, ![R]⟩ : Shape).BroadcastsInDim ⟨2, ![R, 1]⟩ ![0])
    (hc : Shape.Concatenates [(⟨2, ![R, 1]⟩ : Shape), ⟨2, ![R, 1]⟩] ⟨2, ![R, 2]⟩ 1)
    (p q : (⟨1, ![R]⟩ : Shape).Idx → β) (r : Fin R) :
    concatenate ⟨2, ![R, 2]⟩ 1 [⟨⟨2, ![R, 1]⟩, broadcastInDim ⟨2, ![R, 1]⟩ ![0] hb p⟩,
      ⟨⟨2, ![R, 1]⟩, broadcastInDim ⟨2, ![R, 1]⟩ ![0] hb' q⟩] hc (ix2 r 1) = q (ix1 r) := by
  rw [concatenate_pair_apply_right 1 _ _ hc (ix2 r 1) rfl rfl (ix2 r 0) (fun b hb => by
    match b, hb with
    | ⟨0, _⟩, _ => rfl
    | ⟨1, _⟩, hb => exact absurd rfl hb) rfl]
  exact bcast_col_apply hb' q r

end Pairs

/-! ## The wrap of a negative index

An index `v` is first replaced by `v + n` where `v < 0` as a signed word. A word whose top bit is clear is not
negative, so the wrap leaves it as it is. -/

section Wrap

/-- The wrap of one word whose top bit is clear is the word. -/
theorem wrap_of_msb {k : Nat} (v n : BitVec k) (h : v.msb = false) :
    Scalar.select (IntOp.cmpi .slt v 0#k) (IntOp.addi v n) v = v := by
  have hn : ¬IntOp.cmpi .slt v 0#k = 1#1 := by
    rw [IntOp.cmpi_slt, toInt_of_msb v h]
    simp
  rw [eq_zero_of_ne_one hn]
  exact select_zero _ _

/-- The wrap of a vector of words, read at an index where the word's top bit is clear. -/
theorem wrap_apply {s : Shape} {k : Nat} (zero n v : IVec s k) (i : s.Idx) (hz : zero i = 0#k)
    (h : (v i).msb = false) : select (cmpi .slt v zero) (addi v n) v i = v i := by
  show Scalar.select (IntOp.cmpi .slt (v i) (zero i)) (IntOp.addi (v i) (n i)) (v i) = v i
  rw [hz]
  exact wrap_of_msb _ _ h

/-- The position along a vector of length `R < 2³¹`, as a 32-bit word: its value is the position and its top bit
    is clear. -/
theorem iota_word {R : Nat} (hR : R ≤ 2 ^ 31) (r : Fin R) :
    iotaInDim (⟨1, ![R]⟩ : Shape) 32 0 (ix1 r) = BitVec.ofNat 32 r.val
      ∧ (BitVec.ofNat 32 r.val).toNat = r.val ∧ (BitVec.ofNat 32 r.val).msb = false := by
  have hr := r.isLt
  have e : (BitVec.ofNat 32 r.val).toNat = r.val := by rw [BitVec.toNat_ofNat]; omega
  exact ⟨rfl, e, BitVec.msb_eq_false_iff_two_mul_lt.mpr (by rw [e]; omega)⟩

end Wrap

/-! ## The gather and the scatter through the table of pairs laid side by side -/

section Printed
variable {R C : Nat}

/-- THE GATHER `x[rows, cols]` AT ROW `r`, the table of pairs being the two vectors side by side: when `rows r` is
    `r` and `cols r` a column, both words with the top bit clear, the result is `x (r, cols r)`. -/
theorem gather_pairs (wf : GatherDims.WF ⟨2, ![R, C]⟩ ⟨2, ![R, 2]⟩ ⟨1, ![R]⟩ [] [0, 1] [] [0, 1] [] 1 ![1, 1])
    (hb hb' : (⟨1, ![R]⟩ : Shape).BroadcastsInDim ⟨2, ![R, 1]⟩ ![0])
    (hc : Shape.Concatenates [(⟨2, ![R, 1]⟩ : Shape), ⟨2, ![R, 1]⟩] ⟨2, ![R, 2]⟩ 1)
    {w : Nat} (x : (⟨2, ![R, C]⟩ : Shape).Idx → α) (rows cols : IVec ⟨1, ![R]⟩ w) (r : Fin R)
    (hr : (rows (ix1 r)).toNat = r.val) (hrm : (rows (ix1 r)).msb = false)
    (hl : (cols (ix1 r)).toNat < C) (hlm : (cols (ix1 r)).msb = false) :
    Host.gather (gatherDims R C wf) x
        (concatenate ⟨2, ![R, 2]⟩ 1 [⟨⟨2, ![R, 1]⟩, broadcastInDim ⟨2, ![R, 1]⟩ ![0] hb rows⟩,
          ⟨⟨2, ![R, 1]⟩, broadcastInDim ⟨2, ![R, 1]⟩ ![0] hb' cols⟩] hc) (ix1 r)
      = x (ix2 r ⟨(cols (ix1 r)).toNat, hl⟩) := by
  have e0 := pairs_fst hb hb' hc rows cols r
  have e1 := pairs_snd hb hb' hc rows cols r
  exact gather_apply_of_pair wf x _ r ⟨_, hl⟩ (by rw [e0, toInt_of_msb _ hrm, hr])
    (by rw [e1]; exact toInt_of_msb _ hlm)

/-- THE SCATTER-SET `x.at[rows, cols].set(u)` AT `(r, j)`, the table of pairs being the two vectors side by side:
    when every `rows r'` is `r'` and every `cols r'` a column, all words with the top bit clear, entry `(r, cols r)`
    holds `u r` and every other entry of row `r` keeps `x`'s value. -/
theorem scatter_set_pairs (wf : ScatterDims.WF ⟨2, ![R, C]⟩ ⟨2, ![R, 2]⟩ ⟨1, ![R]⟩ [] [0, 1] [0, 1] 1)
    (hb hb' : (⟨1, ![R]⟩ : Shape).BroadcastsInDim ⟨2, ![R, 1]⟩ ![0])
    (hc : Shape.Concatenates [(⟨2, ![R, 1]⟩ : Shape), ⟨2, ![R, 1]⟩] ⟨2, ![R, 2]⟩ 1)
    {w : Nat} (x : (⟨2, ![R, C]⟩ : Shape).Idx → α) (rows cols : IVec ⟨1, ![R]⟩ w)
    (upd : (⟨1, ![R]⟩ : Shape).Idx → α)
    (hr : ∀ r : Fin R, (rows (ix1 r)).toNat = r.val) (hrm : ∀ r : Fin R, (rows (ix1 r)).msb = false)
    (hl : ∀ r : Fin R, (cols (ix1 r)).toNat < C) (hlm : ∀ r : Fin R, (cols (ix1 r)).msb = false)
    (r : Fin R) (j : Fin C) :
    Host.scatter (scatterDims R C wf) (fun _ b => b) x
        (concatenate ⟨2, ![R, 2]⟩ 1 [⟨⟨2, ![R, 1]⟩, broadcastInDim ⟨2, ![R, 1]⟩ ![0] hb rows⟩,
          ⟨⟨2, ![R, 1]⟩, broadcastInDim ⟨2, ![R, 1]⟩ ![0] hb' cols⟩] hc) upd (ix2 r j)
      = if j.val = (cols (ix1 r)).toNat then upd (ix1 r) else x (ix2 r j) := by
  have e0 := fun r => pairs_fst hb hb' hc rows cols r
  have e1 := fun r => pairs_snd hb hb' hc rows cols r
  rw [scatter_point_set wf x _ upd (fun r => by rw [e0]; exact hr r) (fun r => by rw [e0]; exact hrm r)
    (fun r => by rw [e1]; exact hl r) (fun r => by rw [e1]; exact hlm r) r j, e1]

end Printed

end Cert.PointGather

end
-- ==== Proof.KI.Host.lean ====
/- The host side of the kernel program at the ideal instance.

   Before the pipelined region the host computes, for each of the 2048 rows r, the target cosine
   tl r = clip (x r (label r)) (a gather of one entry per row, the row's position and the label each
   wrapped into range when negative, which a position and a label in range never are), from it the margin
   cosine ctm r = tl·cos m − sqrt (1 − tl²)·sin m and the margin-adjusted target logit ftl r (ctm r where
   tl r exceeds cos (π − m), else tl r − mm), and lays the labels, the two vectors and the scalar t out as
   columns: these, with the cosine array itself, are the region's five input arrays. The first half of this
   file reads those arrays in the specification's terms.

   After the region the host takes the region's output column o, forms per row 64·ftl r − o r, sums the
   2048 terms from 0, divides by 2048 and negates. The second half reads the program's result as that
   function of the target logits and the output column. -/
import proofs.«421104_j22986664968859_1_alg».proof.Proof.KI.Inputs
import proofs.«421104_j22986664968859_1_alg».proof.Proof.PreDecode
import proofs.«421104_j22986664968859_1_alg».proof.Proof.LibPointGather
import Idealize.ShloMosaic.Lib.Pipeline.Value
import Idealize.ShloMosaic.Lib.Pipeline.Frame
import Idealize.ShloMosaic.Lib.Pipeline.FrameSuffix
import Idealize.ShloMosaic.Lib.ValueIdx
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.SL.Sem
open Cert.Alg ValueIdx
open scoped BigOperators

variable (m : (ℓ : Loc nD τ sig) → Buf (Elt Ideal) ℓ)

namespace HostSide

/-! ## Sums and reshapes read at a row -/

/-- A sum over the indices of a one-axis shape is the sum over the axis's coordinates. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A column read at row r is the vector it was reshaped from at r, -/
theorem col_of_vec {α : Type} (v : S2048.Idx → α) (r : Fin 2048) :
    shapeCast S2048x1 v shapeCasts_S2048_S2048x1 (ix2 r 0) = v (ix1 r) :=
  shapeCast_apply v _ (ix2 r 0) (ix1 r) (by
    rw [Shape.rowMajor_val_two, Shape.rowMajor_val_one]; show r.val = r.val * 1 + 0; omega)

/-- and a vector read at r is the column it was reshaped from at row r. -/
theorem vec_of_col {α : Type} (v : S2048x1.Idx → α) (r : Fin 2048) :
    shapeCast S2048 v shapeCasts_S2048x1_S2048 (ix1 r) = v (ix2 r 0) :=
  shapeCast_apply v _ (ix1 r) (ix2 r 0) (by
    rw [Shape.rowMajor_val_two, Shape.rowMajor_val_one]; show r.val * 1 + 0 = r.val; omega)

/-! ## The host operations before the region, as functions of the two argument arrays -/

/-- A word read signed, wrapped into a range of n positions when negative. -/
def wrapW (n : BitVec 32) (v : Vec Ideal S2048 .i32) : Vec Ideal S2048 .i32 :=
  select (cmpi .slt v (broadcastInDim S2048 ![] bcast_S_S2048 (constantI S_ 32 0#32)))
    (addi v (broadcastInDim S2048 ![] bcast_S_S2048 (constantI S_ 32 n))) v

/-- The table of (row, label) pairs the gather reads. -/
def idxTab (a1 : Vec Ideal S2048 .i32) : Vec Ideal S2048x2 .i32 :=
  concatenate S2048x2 1
    [⟨S2048x1, broadcastInDim S2048x1 ![0] bcast_S2048_S2048x1_0 (wrapW 2048#32 (iotaInDim S2048 32 0))⟩,
     ⟨S2048x1, broadcastInDim S2048x1 ![0] bcast_S2048_S2048x1_0 (wrapW 100000#32 a1)⟩]
    concatenates_S2048x1_S2048x1_S2048x2_d1

/-- The cosine at each row's label. -/
def gathered (a0 : Vec Ideal S2048x100000 .f32) (a1 : Vec Ideal S2048 .i32) : Vec Ideal S2048 .f32 :=
  Host.gather gather_S2048x100000_S2048x2_S2048_n_01_n_n_01_1_11 a0 (idxTab a1)

/-- Clipping a vector to [-1, 1]. -/
def clipVec (v : Vec Ideal S2048 .f32) : Vec Ideal S2048 .f32 :=
  minimumf (broadcastInDim S2048 ![] bcast_S_S2048 (constant (F := Ideal) S_ .f32 0x3F800000#32))
    (maximumf (broadcastInDim S2048 ![] bcast_S_S2048 (constant (F := Ideal) S_ .f32 0xBF800000#32)) v)

/-- The margin cosines from the clipped target cosines. -/
def ctmVec (v : Vec Ideal S2048 .f32) : Vec Ideal S2048 .f32 :=
  subf (mulf v (broadcastInDim S2048 ![] bcast_S_S2048 (constant (F := Ideal) S_ .f32 0x3F60A940#32)))
    (mulf (Host.sqrt (subf (broadcastInDim S2048 ![] bcast_S_S2048 (constant (F := Ideal) S_ .f32 0x3F800000#32)) (mulf v v)))
      (broadcastInDim S2048 ![] bcast_S_S2048 (constant (F := Ideal) S_ .f32 0x3EF57744#32)))

/-- The margin-adjusted target logits from the clipped target cosines. -/
def ftlVec (v : Vec Ideal S2048 .f32) : Vec Ideal S2048 .f32 :=
  select (cmpf .ogt v (broadcastInDim S2048 ![] bcast_S_S2048 (constant (F := Ideal) S_ .f32 0xBF60A940#32)))
    (ctmVec v)
    (subf v (broadcastInDim S2048 ![] bcast_S_S2048 (constant (F := Ideal) S_ .f32 0x3E757744#32)))

/-! ## The same functions read at a row -/

theorem clipVec_apply (v : Vec Ideal S2048 .f32) (i : S2048.Idx) : clipVec v i = Spec.clipE (v i) := rfl

theorem ctmVec_apply (v : Vec Ideal S2048 .f32) (i : S2048.Idx) : ctmVec v i = Spec.ctmOf (v i) := rfl

theorem ftlVec_apply (v : Vec Ideal S2048 .f32) (i : S2048.Idx) : ftlVec v i = Spec.ftlOf (v i) := by
  show Scalar.select (Ideal.cmp .ogt (v i) (Ideal.ofBits .f32 0xBF60A940#32)) (ctmVec v i) (v i - Ideal.ofBits .f32 0x3E757744#32) = _
  unfold Spec.ftlOf Scalar.select
  rw [ctmVec_apply]

/-- A wrapped word whose top bit is clear is the word. -/
theorem wrapW_apply (n : BitVec 32) (v : Vec Ideal S2048 .i32) (i : S2048.Idx) (h : (v i).msb = false) :
    wrapW n v i = v i :=
  Cert.PointGather.wrap_apply _ _ v i rfl h

/-- The gathered vector at row r is the cosine at (r, label of r), for a label that is a column and whose
    top bit is clear: the row's position is its own wrap, and so is such a label. -/
theorem gathered_apply (a0 : Vec Ideal S2048x100000 .f32) (a1 : Vec Ideal S2048 .i32) (r : Fin 2048)
    (hl : (a1 (ix1 r)).toNat < 100000) (hm : (a1 (ix1 r)).msb = false) :
    gathered a0 a1 (ix1 r) = a0 (ix2 r ⟨(a1 (ix1 r)).toNat, hl⟩) := by
  obtain ⟨e1, e2, e3⟩ := Cert.PointGather.iota_word (R := 2048) (by norm_num) r
  have hw0 : wrapW 2048#32 (iotaInDim S2048 32 0) (ix1 r) = BitVec.ofNat 32 r.val :=
    (wrapW_apply _ _ (ix1 r) (by rw [e1]; exact e3)).trans e1
  have hw1 : wrapW 100000#32 a1 (ix1 r) = a1 (ix1 r) := wrapW_apply _ _ (ix1 r) hm
  have hl' : (wrapW 100000#32 a1 (ix1 r)).toNat < 100000 := by rw [hw1]; exact hl
  have g := Cert.PointGather.gather_pairs gather_S2048x100000_S2048x2_S2048_n_01_n_n_01_1_11_wf
    bcast_S2048_S2048x1_0 bcast_S2048_S2048x1_0 concatenates_S2048x1_S2048x1_S2048x2_d1 a0
    (wrapW 2048#32 (iotaInDim S2048 32 0)) (wrapW 100000#32 a1) r
    (by rw [hw0]; exact e2) (by rw [hw0]; exact e3) hl' (by rw [hw1]; exact hm)
  refine Eq.trans g ?_
  exact congrArg a0 (congrArg (ix2 r) (Fin.ext (by show (wrapW 100000#32 a1 (ix1 r)).toNat = _; rw [hw1])))

/-! ## The contents at the region's entry, by stretches of host operations -/

/-- The buffers after the gather and the clip (the first two stretches), from the launch contents. -/
def W1 (c : Dev nD) : Valuation τ sig (Elt Ideal) :=
  StableHlo.after (hostOps0 ++ hostOps0_1) (fun b => m (c, b))
/-- The buffers after the margin formulas (the next two stretches). -/
def W3 (c : Dev nD) : Valuation τ sig (Elt Ideal) :=
  StableHlo.after (hostOps0_2 ++ hostOps0_3) (W1 m c)

/-- The contents at the region's entry are the four reshapes applied after the margin formulas. -/
theorem V0_split (c : Dev nD) : V0 m c = StableHlo.after hostOps0_4 (W3 m c) := by
  unfold W3 W1
  dsimp only [Gen.V0]
  simp only [List.flatten_cons, List.flatten_nil, List.append_nil]
  rw [← List.append_assoc, StableHlo.after_append, ← List.append_assoc, StableHlo.after_append, StableHlo.after_append]

set_option maxHeartbeats 1000000 in
/-- After the first two stretches the clipped target cosines are in place. -/
theorem W1_v15 (c : Dev nD) :
    (W1 m c (Proc.devRef .tc main_v15) : Vec Ideal S2048 .f32)
      = clipVec (gathered (m ((c.tc : Thread nD τ).loc main_arg0)) (m ((c.tc : Thread nD τ).loc main_arg1))) := by
  unfold W1
  simp only [Gen.hostOps0, Gen.hostOps0_1, List.cons_append, List.nil_append]
  after_results
  rfl

set_option maxHeartbeats 1000000 in
/-- The margin cosines are the margin formula of the clipped target cosines. -/
theorem W3_v24 (c : Dev nD) :
    (W3 m c (Proc.devRef .tc main_v24) : Vec Ideal S2048 .f32) = ctmVec (W1 m c (Proc.devRef .tc main_v15)) := by
  unfold W3
  generalize W1 m c = W
  simp only [Gen.hostOps0_2, Gen.hostOps0_3, List.cons_append, List.nil_append]
  after_results
  rfl

set_option maxHeartbeats 1000000 in
/-- The target logits are the margin adjustment of the clipped target cosines. -/
theorem W3_v29 (c : Dev nD) :
    (W3 m c (Proc.devRef .tc main_v29) : Vec Ideal S2048 .f32) = ftlVec (W1 m c (Proc.devRef .tc main_v15)) := by
  unfold W3
  generalize W1 m c = W
  simp only [Gen.hostOps0_2, Gen.hostOps0_3, List.cons_append, List.nil_append]
  after_results
  rfl

/-- The two argument arrays the reshapes read are as launched after the earlier stretches. -/
theorem W3_arg1 (c : Dev nD) :
    (W3 m c (Proc.devRef .tc main_arg1) : Vec Ideal S2048 .i32) = m ((c.tc : Thread nD τ).loc main_arg1) := by
  unfold W3 W1
  simp only [Gen.hostOps0, Gen.hostOps0_1, Gen.hostOps0_2, Gen.hostOps0_3, List.cons_append, List.nil_append]
  after_results
theorem W3_arg2 (c : Dev nD) :
    (W3 m c (Proc.devRef .tc main_arg2) : Vec Ideal S1 .f32) = m ((c.tc : Thread nD τ).loc main_arg2) := by
  unfold W3 W1
  simp only [Gen.hostOps0, Gen.hostOps0_1, Gen.hostOps0_2, Gen.hostOps0_3, List.cons_append, List.nil_append]
  after_results

/-- The four reshapes, and the vector of target logits the host reads again after the region. -/
theorem V_v30 (c : Dev nD) :
    (V m c main_v30 : Vec Ideal S2048x1 .i32)
      = shapeCast S2048x1 (m ((c.tc : Thread nD τ).loc main_arg1) : Vec Ideal S2048 .i32) shapeCasts_S2048_S2048x1 := by
  show V0 m c (Proc.devRef .tc main_v30) = _
  rw [V0_split, ← W3_arg1 m c]
  generalize W3 m c = W
  simp only [Gen.hostOps0_4]
  after_results
  rfl
theorem V_v31 (c : Dev nD) :
    (V m c main_v31 : Vec Ideal S2048x1 .f32)
      = shapeCast S2048x1 (W3 m c (Proc.devRef .tc main_v24) : Vec Ideal S2048 .f32) shapeCasts_S2048_S2048x1 := by
  show V0 m c (Proc.devRef .tc main_v31) = _
  rw [V0_split]
  generalize W3 m c = W
  simp only [Gen.hostOps0_4]
  after_results
  rfl
theorem V_v32 (c : Dev nD) :
    (V m c main_v32 : Vec Ideal S2048x1 .f32)
      = shapeCast S2048x1 (W3 m c (Proc.devRef .tc main_v29) : Vec Ideal S2048 .f32) shapeCasts_S2048_S2048x1 := by
  show V0 m c (Proc.devRef .tc main_v32) = _
  rw [V0_split]
  generalize W3 m c = W
  simp only [Gen.hostOps0_4]
  after_results
  rfl
theorem V_v33 (c : Dev nD) :
    (V m c main_v33 : Vec Ideal S1x1 .f32)
      = shapeCast S1x1 (m ((c.tc : Thread nD τ).loc main_arg2) : Vec Ideal S1 .f32) shapeCasts_S1_S1x1 := by
  show V0 m c (Proc.devRef .tc main_v33) = _
  rw [V0_split, ← W3_arg2 m c]
  generalize W3 m c = W
  simp only [Gen.hostOps0_4]
  after_results
  rfl
theorem V_v29 (c : Dev nD) :
    (V m c main_v29 : Vec Ideal S2048 .f32) = W3 m c (Proc.devRef .tc main_v29) := by
  show V0 m c (Proc.devRef .tc main_v29) = _
  rw [V0_split]
  generalize W3 m c = W
  simp only [Gen.hostOps0_4]
  after_results

/-! ## The host operations after the region -/

/-- The host operations after the region, as a function of the target logits a and the region's output column o:
    minus the mean over the rows of 64·a r − o r. -/
theorem tail_pure (a : Vec Ideal S2048 .f32) (o : Vec Ideal S2048x1 .f32) :
    (Host.negf (Host.divf (Host.reduceAdd
        (subf (mulf a (broadcastInDim S2048 ![] bcast_S_S2048 (constant (F := Ideal) S_ .f32 0x42800000#32)))
          (shapeCast S2048 o shapeCasts_S2048x1_S2048))
        (constant (F := Ideal) S_ .f32 0x00000000#32) reducesTo_S2048_S_d0 h_S_)
      (constant (F := Ideal) S_ .f32 0x45000000#32)) : Vec Ideal S_ .f32)
      = fun _ => Spec.lossOf (fun r => a (ix1 r) * Spec.lit 0x42800000#32 - o (ix2 r 0)) := by
  funext j
  show -(Ideal.div (Ideal.hostReduceAdd reducesTo_S2048_S_d0 _ (Ideal.ofBits .f32 0x00000000#32) j) (Ideal.ofBits .f32 0x45000000#32)) = _
  rw [Ideal.hostReduceAdd_total _ (fun b => b.elim0), Ideal.ofBits_zero_f32, sum_idx1]
  unfold Spec.lossOf
  refine congrArg (fun s => -(Ideal.div (0 + s) _)) (Finset.sum_congr rfl fun r _ => ?_)
  show a (ix1 r) * Ideal.ofBits .f32 0x42800000#32 - shapeCast S2048 o _ (ix1 r) = _
  rw [vec_of_col]

end HostSide

open HostSide

/-! ## The region's inputs in the specification's terms -/

/-- The cosine array as launched, by row and column. -/
def xOf (c : Dev nD) : Fin 2048 → Fin 100000 → EReal :=
  fun r j => (m ((c.tc : Thread nD τ).loc main_arg0) : Vec Ideal S2048x100000 .f32) (ix2 r j)
/-- The labels as launched, as numbers. -/
def lOf (c : Dev nD) : Fin 2048 → ℕ :=
  fun r => ((m ((c.tc : Thread nD τ).loc main_arg1) : Vec Ideal S2048 .i32) (ix1 r)).toNat
/-- The scalar t as launched. -/
def tOf (c : Dev nD) : EReal := (m ((c.tc : Thread nD τ).loc main_arg2) : Vec Ideal S1 .f32) (ix1 0)

/-- Under the precondition the region's five input arrays hold the cosines, the labels, the rows' margin cosines
    and margin-adjusted target logits, and t: the host gathers each row's cosine at its label (a label in range
    names a column of the row), clips it, and applies the margin formulas entry by entry. -/
theorem inputs_of_pre [Cert.Pre_finite_inputs.Facts] (c : Dev nD)
    (h : Cert.Pre_finite_inputs.fn (F := Ideal) (m ((c.tc : Thread nD τ).loc main_arg0))
      (m ((c.tc : Thread nD τ).loc main_arg1)) (m ((c.tc : Thread nD τ).loc main_arg2)) = (fun _ => 1#1)) :
    Inputs m c (xOf m c) (lOf m c) (tOf m c) := by
  obtain ⟨hx, ht, hl⟩ := Cert.PreDecode.decode _ _ _ h
  have hmsb := Cert.PreDecode.label_msb _ _ _ h
  have tl : ∀ r : Fin 2048, clipVec (gathered (m ((c.tc : Thread nD τ).loc main_arg0))
      (m ((c.tc : Thread nD τ).loc main_arg1))) (ix1 r) = Spec.tlRow (xOf m c) (lOf m c) r := fun r => by
    rw [clipVec_apply, gathered_apply _ _ r (hl (ix1 r)) (hmsb (ix1 r))]
    unfold Spec.tlRow Spec.xAt
    rw [dif_pos (show lOf m c r < 100000 from hl (ix1 r))]
    rfl
  refine
    { cos := fun r j => congrFun (V_main_arg0 m c) (ix2 r j)
      lab := fun r => ?_
      labr := fun r => hl (ix1 r)
      ctm := fun r => ?_
      ftl := fun r => ?_
      ftl1 := fun r => ?_
      tt := ?_
      realX := fun r j => hx (ix2 r j)
      realT := ht (ix1 0) }
  · rw [V_v30, col_of_vec]; rfl
  · rw [V_v31, col_of_vec, W3_v24, W1_v15, ctmVec_apply, tl]; rfl
  · rw [V_v32, col_of_vec, W3_v29, W1_v15, ftlVec_apply, tl]; rfl
  · rw [V_v29, W3_v29, W1_v15, ftlVec_apply, tl]; rfl
  · rw [V_v33]
    exact shapeCast_apply _ _ (ix2 0 0) (ix1 0) (by rw [Shape.rowMajor_val_two, Shape.rowMajor_val_one]; rfl)

/-! ## The program's result -/

set_option maxHeartbeats 400000 in
/-- The program's result is minus the mean over the rows of 64·ftl r − o r, with o the region's output column. -/
theorem tail_eq (c : Dev nD) (x : Fin 2048 → Fin 100000 → EReal) (l : Fin 2048 → ℕ) (t : EReal) (hI : Inputs m c x l t) :
    (Pipeline.afterTail₀ cfgs (dats m) 0 (V0 m) [hostOps1] c main_v41 : Vec Ideal S_ .f32)
      = fun _ => Spec.lossOf (fun r => Spec.ftlRow x l r * Spec.lit 0x42800000#32
          - ((dats m 0 c).arrAt 5 cfg0.N : Vec Ideal S2048x1 .f32) (ix2 r 0)) := by
  unfold Pipeline.afterTail₀
  show StableHlo.after hostOps1 _ (Proc.devRef .tc main_v41) = _
  after_results
  rw [Pipeline.withArrays_of_ne _ c (V0 m c) _ main_v29 (by exact (by decide : ∀ w, Pipeline.arrRef spec0 w ≠ main_v29))]
  have e5 := Pipeline.withArrays_arr (τ := τ) spec0 launch0.win.arr_inj c (V0 m c) (fun w => (dats m 0 c).arrAt w (cfgs 0).N) 5
  rw [show Pipeline.withArrays (cfgs 0).spec c (V0 m c) (fun w => (dats m 0 c).arrAt w (cfgs 0).N) (Proc.tc.devRef main_v34) = (dats m 0 c).arrAt 5 (cfgs 0).N from e5]
  refine (tail_pure (V m c main_v29) ((dats m 0 c).arrAt 5 cfg0.N)).trans ?_
  funext _
  refine congrArg Spec.lossOf (funext fun r => ?_)
  rw [hI.ftl1]

end Cert.KernelIdeal.Body

end
-- ==== Proof.SpecReal.lean ====
/- The specification's row terms are real numbers when the cosines and t are: clipping a real to
   [-1, 1] is a real in [-1, 1]; 1 − c² is then nonnegative, so its square root is a real; and sums,
   differences, products and a choice between two reals are reals. -/
import proofs.«421104_j22986664968859_1_alg».proof.Proof.Spec
import proofs.«421104_j22986664968859_1_alg».proof.Proof.LibRealVariance
import Mathlib.Analysis.SpecialFunctions.Sqrt

noncomputable section

namespace Cert.Spec

open Idealize.ShloMosaic Cert.Alg

/-- The pattern of 1.0 denotes the real 1. -/
theorem lit_one : lit 0x3F800000#32 = ((1 : ℝ) : EReal) := by
  simp [lit, Ideal.ofBits, Ideal.ieee, -EReal.coe_mul]; norm_num

/-- The pattern of -1.0 denotes the real -1. -/
theorem lit_negOne : lit 0xBF800000#32 = ((-1 : ℝ) : EReal) := by
  simp [lit, Ideal.ofBits, Ideal.ieee, -EReal.coe_mul]; norm_num

/-- The five other finite patterns the programs carry denote real numbers. -/
theorem isReal_lit_cosM : IsReal (lit 0x3F60A940#32) := by
  rw [isReal_iff]; constructor <;> simp [lit, Ideal.ofBits, Ideal.ieee, -EReal.coe_mul]
theorem isReal_lit_sinM : IsReal (lit 0x3EF57744#32) := by
  rw [isReal_iff]; constructor <;> simp [lit, Ideal.ofBits, Ideal.ieee, -EReal.coe_mul]
theorem isReal_lit_thr : IsReal (lit 0xBF60A940#32) := by
  rw [isReal_iff]; constructor <;> simp [lit, Ideal.ofBits, Ideal.ieee, -EReal.coe_mul]
theorem isReal_lit_mm : IsReal (lit 0x3E757744#32) := by
  rw [isReal_iff]; constructor <;> simp [lit, Ideal.ofBits, Ideal.ieee, -EReal.coe_mul]
theorem isReal_lit_64 : IsReal (lit 0x42800000#32) := by
  rw [isReal_iff]; constructor <;> simp [lit, Ideal.ofBits, Ideal.ieee, -EReal.coe_mul]

/-- Clipping a real a is the real min 1 (max (-1) a). -/
theorem clipE_coe (a : ℝ) : clipE (a : EReal) = ((min 1 (max (-1) a) : ℝ) : EReal) := by
  unfold clipE; rw [lit_one, lit_negOne]
  have hmax : max ((-1 : ℝ) : EReal) (a : EReal) = ((max (-1) a : ℝ) : EReal) :=
    (EReal.coe_strictMono.monotone.map_max).symm
  have hmin : min ((1 : ℝ) : EReal) ((max (-1) a : ℝ) : EReal) = ((min 1 (max (-1) a) : ℝ) : EReal) :=
    (EReal.coe_strictMono.monotone.map_min).symm
  rw [hmax, hmin]

theorem isReal_clipE {x : EReal} (hx : IsReal x) : IsReal (clipE x) := by
  obtain ⟨a, rfl⟩ := hx; exact ⟨_, clipE_coe a⟩

/-- A clipped real is a real b with b² ≤ 1. -/
theorem clipE_sq_le {x : EReal} (hx : IsReal x) : ∃ b : ℝ, clipE x = (b : EReal) ∧ b * b ≤ 1 := by
  obtain ⟨a, rfl⟩ := hx
  refine ⟨min 1 (max (-1) a), clipE_coe a, ?_⟩
  have h1 : min 1 (max (-1) a) ≤ 1 := min_le_left _ _
  have h2 : -1 ≤ min 1 (max (-1) a) := le_min (by norm_num) (le_max_left _ _)
  nlinarith

/-- The sine from a clipped cosine is a real: the radicand 1 − b² is nonnegative. -/
theorem isReal_sinOf {tl : EReal} (h : ∃ b : ℝ, tl = (b : EReal) ∧ b * b ≤ 1) : IsReal (sinOf tl) := by
  obtain ⟨b, rfl, hb⟩ := h
  unfold sinOf
  rw [lit_one, ← EReal.coe_mul, ← EReal.coe_sub]
  show IsReal (Ideal.sqrt ((1 - b * b : ℝ) : EReal))
  have : Ideal.sqrt ((1 - b * b : ℝ) : EReal) = ((Real.sqrt (1 - b * b) : ℝ) : EReal) := by
    show (if (1 - b * b : ℝ) < 0 then (⊥ : EReal) else _) = _
    rw [if_neg (by linarith)]
  rw [this]; exact ⟨_, rfl⟩

theorem isReal_ctmOf {tl : EReal} (h : ∃ b : ℝ, tl = (b : EReal) ∧ b * b ≤ 1) : IsReal (ctmOf tl) := by
  have htl : IsReal tl := by obtain ⟨b, hb, _⟩ := h; exact ⟨b, hb⟩
  unfold ctmOf
  exact (htl.mul isReal_lit_cosM).sub ((isReal_sinOf h).mul isReal_lit_sinM)

theorem isReal_ftlOf {tl : EReal} (h : ∃ b : ℝ, tl = (b : EReal) ∧ b * b ≤ 1) : IsReal (ftlOf tl) := by
  have htl : IsReal tl := by obtain ⟨b, hb, _⟩ := h; exact ⟨b, hb⟩
  unfold ftlOf
  split
  · exact isReal_ctmOf h
  · exact htl.sub isReal_lit_mm

theorem isReal_modOf {c ctm t : EReal} (hc : IsReal c) (ht : IsReal t) : IsReal (modOf c ctm t) := by
  unfold modOf
  split
  · exact hc.mul (ht.add hc)
  · exact hc

variable (x : Fin 2048 → Fin 100000 → EReal) (l : Fin 2048 → ℕ) (t : EReal)

theorem isReal_xAt (hx : ∀ r j, IsReal (x r j)) (r : Fin 2048) (n : ℕ) : IsReal (xAt x r n) := by
  unfold xAt; split
  · exact hx _ _
  · exact IsReal.zero

theorem tlRow_sq_le (hx : ∀ r j, IsReal (x r j)) (r : Fin 2048) : ∃ b : ℝ, tlRow x l r = (b : EReal) ∧ b * b ≤ 1 :=
  clipE_sq_le (isReal_xAt x hx r (l r))

/-- The margin-adjusted target logit of a row of real cosines is a real, -/
theorem isReal_ftlRow (hx : ∀ r j, IsReal (x r j)) (r : Fin 2048) : IsReal (ftlRow x l r) :=
  isReal_ftlOf (tlRow_sq_le x l hx r)

/-- so is its scaled value, -/
theorem isReal_ftl64 (hx : ∀ r j, IsReal (x r j)) (r : Fin 2048) : IsReal (ftlRow x l r * lit 0x42800000#32) :=
  (isReal_ftlRow x l hx r).mul isReal_lit_64

/-- and so is every scaled logit of the row. -/
theorem isReal_logit (hx : ∀ r j, IsReal (x r j)) (ht : IsReal t) (r : Fin 2048) (j : Fin 100000) :
    IsReal (logit x l t r j) := by
  unfold logit
  refine IsReal.mul ?_ isReal_lit_64
  split
  · exact isReal_ftlRow x l hx r
  · exact isReal_modOf (isReal_clipE (hx r j)) ht

/-- At the label's column the scaled logit is the scaled target logit. -/
theorem logit_label (r : Fin 2048) (h : l r < 100000) : logit x l t r ⟨l r, h⟩ = ftlRow x l r * lit 0x42800000#32 := by
  unfold logit; rw [if_pos rfl]

end Cert.Spec

end
-- ==== Proof.KI.Result.lean ====
/- The kernel program's result at the ideal instance. The frame run leaves the region's output array at the
   rows' online log-sum-exps (the two scratch buffers follow the online recurrence over the 25 column
   blocks, whose blocks of masked logits are the padded layout of the row's logits); the row law turns each
   into the reference's two-pass form; and the host lines after the region take minus the mean of
   64·ftl r − lse r over the 2048 rows. -/
import proofs.«421104_j22986664968859_1_alg».proof.Proof.KI.Body
import proofs.«421104_j22986664968859_1_alg».proof.Proof.KI.Final
import proofs.«421104_j22986664968859_1_alg».proof.Proof.KI.Recur
import proofs.«421104_j22986664968859_1_alg».proof.Proof.KI.Value
import proofs.«421104_j22986664968859_1_alg».proof.Proof.KI.Host
import proofs.«421104_j22986664968859_1_alg».proof.Proof.SpecReal
import proofs.«421104_j22986664968859_1_alg».proof.Proof.LibOnlineSoftmax

noncomputable section

namespace Cert.KernelIdeal.Body

open Cert.KernelIdeal Cert.KernelIdeal.Gen
open Idealize.ShloMosaic Idealize.ShloMosaic.TcCoe Idealize.SL.Sem
open Cert.Alg ValueIdx

variable (m : (ℓ : Loc nD τ sig) → Buf (Elt Ideal) ℓ) (ρ : Dev nD → PrngReg)

/-- What the output block holds after the last column block of row block `qi`, at row `p`: the online pass
    over the padded layout of the row's logits, as maximum + log sum. -/
theorem outAt_apply (c : Dev nD) (x : Fin 2048 → Fin 100000 → EReal) (l : Fin 2048 → ℕ) (t : EReal) (hI : Inputs m c x l t)
    (qi : Fin 8) (p : Fin 256) :
    outAt m c (pt qi ⟨24, by decide⟩).val (pt qi ⟨24, by decide⟩).isLt (ix2 p 0)
      = (Cert.Online.run (Cert.Online.blocks (W := 4096) (Spec.logit x l t (row qi p))) 24).1
        + Ideal.log (Cert.Online.run (Cert.Online.blocks (W := 4096) (Spec.logit x l t (row qi p))) 24).2 :=
  outAt_run m c qi p _ (fun k q => lgAt_apply m c x l t hI qi k p q)

/-- The kernel's row term is the reference's: the online pass over the 25 column blocks ends at the row's
    maximum and its sum of exponentials, all of them real numbers. -/
theorem row_eq (c : Dev nD) (x : Fin 2048 → Fin 100000 → EReal) (l : Fin 2048 → ℕ) (t : EReal) (hI : Inputs m c x l t) (r : Fin 2048) :
    Spec.ftlRow x l r * Spec.lit 0x42800000#32 - ((dats m 0 c).arrAt 5 cfg0.N : Vec Ideal S2048x1 .f32) (ix2 r 0)
      = Spec.rowRef x l t r := by
  have hr := r.isLt
  have hq : r.val / 256 < 8 := by omega
  have hrow : row ⟨r.val / 256, hq⟩ ⟨r.val % 256, Nat.mod_lt _ (by decide)⟩ = r :=
    Fin.ext (by show 256 * (r.val / 256) + r.val % 256 = r.val; omega)
  rw [final5 m c r]
  have h := outAt_apply m c x l t hI ⟨r.val / 256, hq⟩ ⟨r.val % 256, Nat.mod_lt _ (by decide)⟩
  rw [hrow] at h
  refine (congrArg (fun z => Spec.ftlRow x l r * Spec.lit 0x42800000#32 - z) h).trans ?_
  exact Cert.Online.row_law (W := 4096) (K := 24) (N := 100000) (by norm_num) (by norm_num) (by norm_num)
    (Spec.logit x l t r) (Spec.isReal_logit x l t hI.realX hI.realT r) _ (Spec.isReal_ftl64 x l hI.realX r)

/-- The kernel program's result and its unchanged arguments: the frame run read at the result buffer — the
    host lines after the region applied to the region's output array — is minus the mean of the
    reference's row terms. -/
theorem kernel_result [Cert.Pre_finite_inputs.Facts]
    (hpre : ∀ c : Dev nD, Cert.Pre_finite_inputs.fn (F := Ideal) (m ((c.tc : Thread nD τ).loc main_arg0)) (m ((c.tc : Thread nD τ).loc main_arg1)) (m ((c.tc : Thread nD τ).loc main_arg2)) = (fun _ => 1#1)) :
    θ_run defs (onTc (τ := τ) (main (F := Ideal))) ⟨m, fun _ => 0, ρ⟩ (fun r => ∀ c : Dev nD,
      r.2.mem ((c.tc : Thread nD τ).loc main_v41) = (fun _ => Spec.lossOf (Spec.rowRef (xOf m c) (lOf m c) (tOf m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main (F := Ideal) m ρ)
  · have hI := inputs_of_pre m c (hpre c)
    refine ((h c).2 main_v41 (Pipeline.mem_restRefs_of main_v41 (by decide) (by decide))).trans ?_
    refine (tail_eq m c _ _ _ hI).trans ?_
    funext _
    exact congrArg Spec.lossOf (funext fun r => row_eq m c _ _ _ hI r)
  · exact ((h c).1 4).trans (((dats m 0 c).arrAt_in 4 rfl _).trans ((A_eq m c 4).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.Body

end
-- ==== Proof.RefSoftmax.lean ====
/- The reference program after its logits array, at the extended reals, row by row: the log-softmax of
   a row (the row maximum M folded from -∞, the differences z - M, their exponentials summed from 0, the
   logarithm of the sum, logp = (z - M) - log S), the entry of logp at the row's label (the gather at the
   pairs (r, label r): row numbers and labels are words with a clear top bit, so the wrap of negative
   indices leaves them alone), the sum of the 2048 entries from 0, the division by 2048 and the negation. -/
import proofs.«421104_j22986664968859_1_alg».proof.Proof.RefRead
import proofs.«421104_j22986664968859_1_alg».proof.Proof.Spec
import proofs.«421104_j22986664968859_1_alg».proof.Proof.LibPointGather
import proofs.«421104_j22986664968859_1_alg».proof.Proof.LibSoftmax
import Idealize.ShloMosaic.PureOps.Ideal.Laws
import Idealize.ShloMosaic.PureOps.Reduce
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read
open scoped BigOperators

/-! ## Sums over a vector's indices -/

/-- A rank-1 index set is its one coordinate's range … -/
def idxEquiv1 {n : ℕ} : (⟨1, ![n]⟩ : Shape).Idx ≃ Fin n where
  toFun i := i 0
  invFun r := ix1 r
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ r : Fin n, f (ix1 r) := by
  rw [← Equiv.sum_comp (idxEquiv1 (n := n)).symm f]
  rfl

/-! ## The row maximum -/

/-- The host's maximum over the columns, from -∞: at row `r` the fold of `max` over the row's entries. -/
theorem rowmax_host (y : Vec Ideal S2048x100000 .f32) (r : Fin 2048) :
    Host.reduce (FloatOps.maximumf (F := Ideal) (φ := .f32)) y (val_main_call3_cst (F := Ideal)) reducesTo_S2048x100000_S2048_d1 h_S_ (ix1 r)
      = (Finset.univ : Finset (Fin 100000)).fold max ⊥ (fun j => y (ix2 r j)) := by
  have hR : S2048x100000.Reduces [1] S2048 := by decide
  refine (Host.reduce_eq_fold_single (FloatOps.maximumf (F := Ideal) (φ := .f32)) y _ reducesTo_S2048x100000_S2048_d1 hR h_S_ (ix1 r)).trans ?_
  have e : (y ∘ hR.lift (ix1 r)) = fun j : Fin 100000 => y (ix2 r j) :=
    funext fun j => congrArg y (funext fun a => Fin.ext <| match a with | ⟨0, _⟩ => rfl | ⟨1, _⟩ => rfl)
  have c0 : val_main_call3_cst (F := Ideal) (Shape.Idx.first h_S_) = ⊥ := Cert.Softmax.ofBits_neg_inf
  show (Finset.univ : Finset (Fin 100000)).fold max (val_main_call3_cst (F := Ideal) (Shape.Idx.first h_S_)) (y ∘ hR.lift (ix1 r)) = _
  rw [c0, e]
  rfl

section Rows
variable (x0 : (⟨S2048x100000, .f32⟩ : BufTy).Contents (Elt Ideal)) (x1 : (⟨S2048, .i32⟩ : BufTy).Contents (Elt Ideal)) (x2 : (⟨S1, .f32⟩ : BufTy).Contents (Elt Ideal))
variable (z : Fin 2048 → Fin 100000 → EReal) (hz : ∀ r j, (val_main_v54 (F := Ideal) x0 x1 x2 : Vec Ideal S2048x100000 .f32) (ix2 r j) = z r j)
include hz

/-- The row's maximum: the reduce's result. -/
theorem v0_row (r : Fin 2048) :
    val_main_call3_v0 (F := Ideal) x0 x1 x2 (ix1 r) = (Finset.univ : Finset (Fin 100000)).fold max ⊥ (z r) :=
  (rowmax_host (val_main_v54 (F := Ideal) x0 x1 x2) r).trans
    (congrArg (fun f : Fin 100000 → EReal => (Finset.univ : Finset (Fin 100000)).fold max ⊥ f) (funext fun j => hz r j))

/-- The row's maximum as the program takes it: the greater of -∞ and the reduce's result. -/
theorem m_row (r : Fin 2048) :
    val_main_call3_v2 (F := Ideal) x0 x1 x2 (ix1 r) = max ⊥ ((Finset.univ : Finset (Fin 100000)).fold max ⊥ (z r)) := by
  rw [val_main_call3_v2_apply, val_main_call3_v1_apply, val_main_call3_cst_0_apply, v0_row x0 x1 x2 z hz r]
  show max (Ideal.ofBits .f32 0xFF800000#32) _ = _
  rw [Cert.Softmax.ofBits_neg_inf]

/-- The difference from the maximum. -/
theorem d_row (r : Fin 2048) (j : Fin 100000) :
    val_main_call3_v5 (F := Ideal) x0 x1 x2 (ix2 r j) = z r j - max ⊥ ((Finset.univ : Finset (Fin 100000)).fold max ⊥ (z r)) := by
  have hi : idx_main_call3_v3 (idx_main_call3_v4 (ix2 r j)) = ix1 r :=
    funext fun a => Fin.ext <| match a with | ⟨0, _⟩ => rfl
  rw [val_main_call3_v5_apply, hz, val_main_call3_v4_apply, val_main_call3_v3_apply, hi, m_row x0 x1 x2 z hz r]
  exact Ideal.subf_def (φ := .f32) _ _

/-- Its exponential. -/
theorem e_row (r : Fin 2048) (j : Fin 100000) :
    val_main_call3_v6 (F := Ideal) x0 x1 x2 (ix2 r j)
      = Ideal.exp (z r j - max ⊥ ((Finset.univ : Finset (Fin 100000)).fold max ⊥ (z r))) := by
  rw [val_main_call3_v6_apply, d_row x0 x1 x2 z hz r j]
  exact Ideal.hostUnary_exp_def (φ := .f32) _

/-- The row's sum of exponentials, from 0. -/
theorem s_row (r : Fin 2048) :
    val_main_call3_v7 (F := Ideal) x0 x1 x2 (ix1 r)
      = 0 + ∑ j, Ideal.exp (z r j - max ⊥ ((Finset.univ : Finset (Fin 100000)).fold max ⊥ (z r))) := by
  have hi : ∀ k : Fin 100000, idx_main_call3_v7 (ix1 r) k = ix2 r k := fun k =>
    funext fun a => Fin.ext <| match a with | ⟨0, _⟩ => rfl | ⟨1, _⟩ => rfl
  rw [val_main_call3_v7_apply, val_main_call3_cst_1_apply]
  refine congrArg₂ (· + ·) Ideal.ofBits_zero_f32 (Finset.sum_congr rfl fun k _ => ?_)
  rw [hi k, e_row x0 x1 x2 z hz r k]

/-- The logarithm of the row's sum, broadcast along the row. -/
theorem l_row (r : Fin 2048) (j : Fin 100000) :
    val_main_call3_v10 (F := Ideal) x0 x1 x2 (ix2 r j)
      = Ideal.log (0 + ∑ j, Ideal.exp (z r j - max ⊥ ((Finset.univ : Finset (Fin 100000)).fold max ⊥ (z r)))) := by
  have hi : idx_main_call3_v8 (idx_main_call3_v10 (ix2 r j)) = ix1 r :=
    funext fun a => Fin.ext <| match a with | ⟨0, _⟩ => rfl
  rw [val_main_call3_v10_apply, val_main_call3_v9_apply, val_main_call3_v8_apply, hi, s_row x0 x1 x2 z hz r]
  exact Ideal.hostUnary_log_def (φ := .f32) _

/-- The log-softmax at an entry. -/
theorem logp_row (r : Fin 2048) (j : Fin 100000) :
    val_main_v55 (F := Ideal) x0 x1 x2 (ix2 r j)
      = (z r j - max ⊥ ((Finset.univ : Finset (Fin 100000)).fold max ⊥ (z r)))
        - Ideal.log (0 + ∑ j, Ideal.exp (z r j - max ⊥ ((Finset.univ : Finset (Fin 100000)).fold max ⊥ (z r)))) := by
  rw [val_main_v55_apply, d_row x0 x1 x2 z hz r j, l_row x0 x1 x2 z hz r j]
  exact Ideal.subf_def (φ := .f32) _ _

end Rows

/-! ## The index pairs -/

/-- The row numbers, wrapped: row `r`'s word is `r`. -/
theorem rows_word (r : Fin 2048) : val_main_v60 (F := Ideal) (ix1 r) = BitVec.ofNat 32 r.val := by
  obtain ⟨e0, -, hm⟩ := Cert.PointGather.iota_word (R := 2048) (by norm_num) r
  have h56 : val_main_v56 (F := Ideal) (ix1 r) = 0#32 := by rw [val_main_v56_apply, val_main_c_14_apply]
  have hv : val_main_v0 (F := Ideal) (ix1 r) = BitVec.ofNat 32 r.val := e0
  exact (Cert.PointGather.wrap_apply (val_main_v56 (F := Ideal)) (val_main_v58 (F := Ideal)) (val_main_v0 (F := Ideal)) (ix1 r) h56
    (by rw [hv]; exact hm)).trans hv

/-- The labels, wrapped: a label whose top bit is clear is left as it is. -/
theorem cols_word (x1 : (⟨S2048, .i32⟩ : BufTy).Contents (Elt Ideal)) (r : Fin 2048) (hm : (x1 (ix1 r)).msb = false) :
    val_main_v65 (F := Ideal) x1 (ix1 r) = x1 (ix1 r) := by
  have h61 : val_main_v61 (F := Ideal) (ix1 r) = 0#32 := by rw [val_main_v61_apply, val_main_c_16_apply]
  exact Cert.PointGather.wrap_apply (val_main_v61 (F := Ideal)) (val_main_v63 (F := Ideal)) x1 (ix1 r) h61 hm

/-- The gather at the pairs (row, label) reads, at row `r`, the operand's entry at the row's label. -/
theorem gath_row (x0 : (⟨S2048x100000, .f32⟩ : BufTy).Contents (Elt Ideal)) (x1 : (⟨S2048, .i32⟩ : BufTy).Contents (Elt Ideal)) (x2 : (⟨S1, .f32⟩ : BufTy).Contents (Elt Ideal)) (l : Fin 2048 → ℕ) (hl : ∀ r, (x1 (ix1 r)).toNat = l r) (hmsb : ∀ r, (x1 (ix1 r)).msb = false)
    (hlr : ∀ r, l r < 100000) (r : Fin 2048) :
    val_main_v69 (F := Ideal) x0 x1 x2 (ix1 r) = val_main_v55 (F := Ideal) x0 x1 x2 (ix2 r ⟨l r, hlr r⟩) := by
  have hc := cols_word x1 r (hmsb r)
  have hrw := rows_word r
  obtain ⟨-, hrn, hrm⟩ := Cert.PointGather.iota_word (R := 2048) (by norm_num) r
  have g := Cert.PointGather.gather_pairs gather_S2048x100000_S2048x2_S2048_n_01_n_n_01_1_11_wf
    bcast_S2048_S2048x1_0 bcast_S2048_S2048x1_0 concatenates_S2048x1_S2048x1_S2048x2_d1
    (val_main_v55 (F := Ideal) x0 x1 x2) (val_main_v60 (F := Ideal)) (val_main_v65 (F := Ideal) x1) r
    (by rw [hrw]; exact hrn) (by rw [hrw]; exact hrm) (by rw [hc, hl r]; exact hlr r) (by rw [hc]; exact hmsb r)
  refine (show val_main_v69 (F := Ideal) x0 x1 x2 (ix1 r) = _ from g).trans ?_
  exact congrArg (fun k : Fin 100000 => val_main_v55 (F := Ideal) x0 x1 x2 (ix2 r k)) (Fin.ext (by show (val_main_v65 (F := Ideal) x1 (ix1 r)).toNat = l r; rw [hc]; exact hl r))

/-! ## The tail -/

/-- THE REFERENCE'S RESULT from its logits: minus the mean of the rows' log-softmax entries at their labels. -/
theorem ref_tail (x0 : (⟨S2048x100000, .f32⟩ : BufTy).Contents (Elt Ideal)) (x1 : (⟨S2048, .i32⟩ : BufTy).Contents (Elt Ideal)) (x2 : (⟨S1, .f32⟩ : BufTy).Contents (Elt Ideal)) (l : Fin 2048 → ℕ) (hl : ∀ r, (x1 (ix1 r)).toNat = l r) (hmsb : ∀ r, (x1 (ix1 r)).msb = false)
    (hlr : ∀ r, l r < 100000) (z : Fin 2048 → Fin 100000 → EReal) (hz : ∀ r j, (val_main_v54 (F := Ideal) x0 x1 x2 : Vec Ideal S2048x100000 .f32) (ix2 r j) = z r j) :
    (val_main_v72 (F := Ideal) x0 x1 x2 : Vec Ideal S_ .f32)
      = fun _ => Spec.lossOf (fun r => (z r ⟨l r, hlr r⟩ - max ⊥ ((Finset.univ : Finset (Fin 100000)).fold max ⊥ (z r)))
          - Ideal.log (0 + ∑ j, Ideal.exp (z r j - max ⊥ ((Finset.univ : Finset (Fin 100000)).fold max ⊥ (z r))))) := by
  funext i
  rw [val_main_v72_apply, val_main_v71_apply, val_main_v70_apply, val_main_cst_18_apply, val_main_cst_19_apply, sum_idx1]
  have e : ∀ r : Fin 2048, val_main_v69 (F := Ideal) x0 x1 x2 (ix1 r)
      = (z r ⟨l r, hlr r⟩ - max ⊥ ((Finset.univ : Finset (Fin 100000)).fold max ⊥ (z r)))
        - Ideal.log (0 + ∑ j, Ideal.exp (z r j - max ⊥ ((Finset.univ : Finset (Fin 100000)).fold max ⊥ (z r)))) := fun r =>
    (gath_row x0 x1 x2 l hl hmsb hlr r).trans (logp_row x0 x1 x2 z hz r ⟨l r, hlr r⟩)
  rw [Finset.sum_congr rfl fun r _ => e r]
  unfold Spec.lossOf
  show -(Ideal.div (Ideal.ofBits .f32 0x00000000#32 + _) _) = _
  rw [Ideal.ofBits_zero_f32]
  rfl

end Cert.ReferenceIdeal.RefValue

end
-- ==== Proof.RefValue.lean ====
/- The reference program's result is the specification.

   Index by index, the value each host operation of the reference writes is the specification's term:
   the clip to [-1, 1]; the row's target cosine, read at (r, l r) by a point gather whose index pairs are
   the row number and the label (a negative index would be wrapped by adding the axis' size: neither is
   negative); the margin arithmetic and the choice of the target logit; the hard-example update against
   the row's margin cosine; the target logit written at (r, l r) by a point scatter; the scale by 64; the
   log-softmax spelt as a maximum folded from -∞, a subtraction, exponentials, a sum from 0, a logarithm,
   a subtraction; its entry at (r, l r) by a second point gather; the sum of the 2048 row terms from 0,
   the division by 2048, the negation. No algebra is involved. -/
import proofs.«421104_j22986664968859_1_alg».proof.Proof.RefRead
import proofs.«421104_j22986664968859_1_alg».proof.Proof.Spec
import proofs.«421104_j22986664968859_1_alg».proof.Proof.LibPointGather
import proofs.«421104_j22986664968859_1_alg».proof.Proof.LibSoftmax
import proofs.«421104_j22986664968859_1_alg».proof.Proof.RefSoftmax
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem ValueIdx
open Cert.ReferenceIdeal.Read Cert.PointGather
open scoped BigOperators

namespace Logits

/-! ## Indices -/

/-- The column entry (r, 0) read through the row-to-column broadcast is row r. -/
theorem idx16 (r : Fin 2048) : idx_main_v16 (ix2 r (0 : Fin 1)) = ix1 r := by
  funext a; match a with | ⟨0, _⟩ => rfl

/-- The entry (r, j) read through the column-to-array broadcast is the column entry (r, 0). -/
theorem idx31 (r : Fin 2048) (j : Fin 100000) : idx_main_v31 (ix2 r j) = ix2 r (0 : Fin 1) := by
  funext a; match a with | ⟨0, _⟩ => rfl | ⟨1, _⟩ => rfl

/-- Row r read through the column-to-vector reshape is the column entry (r, 0). -/
theorem idx38 (r : Fin 2048) : idx_main_v38 (ix1 r) = ix2 r (0 : Fin 1) := by
  funext a; match a with | ⟨0, _⟩ => exact Fin.ext (Nat.div_one _) | ⟨1, _⟩ => rfl

section
variable (x0 : (⟨S2048x100000, .f32⟩ : BufTy).Contents (Elt Ideal)) (x1 : (⟨S2048, .i32⟩ : BufTy).Contents (Elt Ideal))
  (x2 : (⟨S1, .f32⟩ : BufTy).Contents (Elt Ideal))
  (x : Fin 2048 → Fin 100000 → EReal) (l : Fin 2048 → ℕ) (t : EReal)

/-! ## The clip -/

/-- The clipped array at (r, j) is the clip of x r j. -/
theorem clip_at (hx : ∀ r j, x0 (ix2 r j) = x r j) (r : Fin 2048) (j : Fin 100000) :
    val_main_v1 (F := Ideal) x0 (ix2 r j) = Spec.clipE (x r j) := by
  rw [val_main_v1_apply, val_main_call0_v4_apply, val_main_call0_v3_apply, val_main_cst_0_apply,
    val_main_call0_v2_apply, val_main_call0_v1_apply, val_main_call0_v0_apply, val_main_cst_apply, hx]
  simp only [Ideal.minimumf_def, Ideal.maximumf_def, Ideal.ofBits_def]
  rfl

/-! ## The index pairs -/

/-- The row numbers, after the wrap of negative indices, are the row numbers. -/
theorem rows_v6 (r : Fin 2048) : val_main_v6 (F := Ideal) (ix1 r) = BitVec.ofNat 32 r.val :=
  (wrap_apply (val_main_v2 (F := Ideal)) (val_main_v4 (F := Ideal)) (val_main_v0 (F := Ideal)) (ix1 r)
    (by rw [val_main_v2_apply, val_main_c_apply])
    (by rw [val_main_v0_apply]; exact (iota_word (R := 2048) (by norm_num) r).2.2)).trans (val_main_v0_apply _)
theorem rows_v43 (r : Fin 2048) : val_main_v43 (F := Ideal) (ix1 r) = BitVec.ofNat 32 r.val :=
  (wrap_apply (val_main_v39 (F := Ideal)) (val_main_v41 (F := Ideal)) (val_main_v0 (F := Ideal)) (ix1 r)
    (by rw [val_main_v39_apply, val_main_c_9_apply])
    (by rw [val_main_v0_apply]; exact (iota_word (R := 2048) (by norm_num) r).2.2)).trans (val_main_v0_apply _)
theorem rows_v60 (r : Fin 2048) : val_main_v60 (F := Ideal) (ix1 r) = BitVec.ofNat 32 r.val :=
  (wrap_apply (val_main_v56 (F := Ideal)) (val_main_v58 (F := Ideal)) (val_main_v0 (F := Ideal)) (ix1 r)
    (by rw [val_main_v56_apply, val_main_c_14_apply])
    (by rw [val_main_v0_apply]; exact (iota_word (R := 2048) (by norm_num) r).2.2)).trans (val_main_v0_apply _)

/-- The labels, after the wrap of negative indices, are the labels. -/
theorem cols_v11 (hmsb : ∀ r, (x1 (ix1 r)).msb = false) (r : Fin 2048) :
    val_main_v11 (F := Ideal) x1 (ix1 r) = x1 (ix1 r) :=
  wrap_apply (val_main_v7 (F := Ideal)) (val_main_v9 (F := Ideal)) x1 (ix1 r)
    (by rw [val_main_v7_apply, val_main_c_2_apply]) (hmsb r)
theorem cols_v48 (hmsb : ∀ r, (x1 (ix1 r)).msb = false) (r : Fin 2048) :
    val_main_v48 (F := Ideal) x1 (ix1 r) = x1 (ix1 r) :=
  wrap_apply (val_main_v44 (F := Ideal)) (val_main_v46 (F := Ideal)) x1 (ix1 r)
    (by rw [val_main_v44_apply, val_main_c_11_apply]) (hmsb r)
theorem cols_v65 (hmsb : ∀ r, (x1 (ix1 r)).msb = false) (r : Fin 2048) :
    val_main_v65 (F := Ideal) x1 (ix1 r) = x1 (ix1 r) :=
  wrap_apply (val_main_v61 (F := Ideal)) (val_main_v63 (F := Ideal)) x1 (ix1 r)
    (by rw [val_main_v61_apply, val_main_c_16_apply]) (hmsb r)

/-- A row number as a 32-bit word reads back as itself, its top bit clear. -/
theorem row_word (r : Fin 2048) : (BitVec.ofNat 32 r.val).toNat = r.val ∧ (BitVec.ofNat 32 r.val).msb = false :=
  (iota_word (R := 2048) (by norm_num) r).2

/-! ## The target cosine, the margin cosine and the target logit -/

/-- The first point gather reads the clipped array at (r, l r): the row's target cosine. -/
theorem tl_at (hx : ∀ r j, x0 (ix2 r j) = x r j) (hl : ∀ r, (x1 (ix1 r)).toNat = l r)
    (hmsb : ∀ r, (x1 (ix1 r)).msb = false) (hlr : ∀ r, l r < 100000) (r : Fin 2048) :
    val_main_v15 (F := Ideal) x0 x1 (ix1 r) = Spec.tlRow x l r := by
  have hcol : (val_main_v11 (F := Ideal) x1 (ix1 r)).toNat < 100000 := by
    rw [cols_v11 x1 hmsb r, hl]; exact hlr r
  have h := gather_pairs Facts₀.gather_S2048x100000_S2048x2_S2048_n_01_n_n_01_1_11_wf Facts₀.bcast_S2048_S2048x1_0
    Facts₀.bcast_S2048_S2048x1_0 Facts₀.concatenates_S2048x1_S2048x1_S2048x2_d1 (val_main_v1 (F := Ideal) x0)
    (val_main_v6 (F := Ideal)) (val_main_v11 (F := Ideal) x1) r (by rw [rows_v6]; exact (row_word r).1)
    (by rw [rows_v6]; exact (row_word r).2) hcol (by rw [cols_v11 x1 hmsb r]; exact hmsb r)
  have e : (⟨(val_main_v11 (F := Ideal) x1 (ix1 r)).toNat, hcol⟩ : Fin 100000) = ⟨l r, hlr r⟩ :=
    Fin.ext (by show (val_main_v11 (F := Ideal) x1 (ix1 r)).toNat = l r; rw [cols_v11 x1 hmsb r, hl])
  rw [e, clip_at x0 x hx] at h
  refine (h : val_main_v15 (F := Ideal) x0 x1 (ix1 r) = _).trans ?_
  unfold Spec.tlRow Spec.xAt
  rw [dif_pos (hlr r)]

/-- The target cosine as a column. -/
theorem v16_at (hx : ∀ r j, x0 (ix2 r j) = x r j) (hl : ∀ r, (x1 (ix1 r)).toNat = l r)
    (hmsb : ∀ r, (x1 (ix1 r)).msb = false) (hlr : ∀ r, l r < 100000) (r : Fin 2048) :
    val_main_v16 (F := Ideal) x0 x1 (ix2 r (0 : Fin 1)) = Spec.tlRow x l r := by
  rw [val_main_v16_apply, idx16, tl_at x0 x1 x l hx hl hmsb hlr]

/-- The margin cosine of the row. -/
theorem ctm_at (hx : ∀ r j, x0 (ix2 r j) = x r j) (hl : ∀ r, (x1 (ix1 r)).toNat = l r)
    (hmsb : ∀ r, (x1 (ix1 r)).msb = false) (hlr : ∀ r, l r < 100000) (r : Fin 2048) :
    val_main_v25 (F := Ideal) x0 x1 (ix2 r (0 : Fin 1)) = Spec.ctmRow x l r := by
  rw [val_main_v25_apply, val_main_v22_apply, val_main_v24_apply, val_main_v20_apply, val_main_v19_apply,
    val_main_v17_apply, val_main_v18_apply, val_main_cst_4_apply, val_main_v21_apply, val_main_cst_5_apply,
    val_main_v23_apply, val_main_cst_6_apply, v16_at x0 x1 x l hx hl hmsb hlr]
  simp only [Ideal.subf_def, Ideal.mulf_def, Ideal.hostUnary_sqrt_def, Ideal.ofBits_def]
  rfl

/-- The margin-adjusted target logit of the row. -/
theorem ftl_at (hx : ∀ r j, x0 (ix2 r j) = x r j) (hl : ∀ r, (x1 (ix1 r)).toNat = l r)
    (hmsb : ∀ r, (x1 (ix1 r)).msb = false) (hlr : ∀ r, l r < 100000) (r : Fin 2048) :
    val_main_v30 (F := Ideal) x0 x1 (ix2 r (0 : Fin 1)) = Spec.ftlRow x l r := by
  rw [val_main_v30_apply, val_main_v27_apply, val_main_v29_apply, val_main_v26_apply, val_main_cst_7_apply,
    val_main_v28_apply, val_main_cst_8_apply, ctm_at x0 x1 x l hx hl hmsb hlr,
    v16_at x0 x1 x l hx hl hmsb hlr]
  simp only [Ideal.subf_def, Ideal.ofBits_def]
  rfl

/-! ## The hard-example update, the scatter of the target logit, the scale -/

/-- The scalar t, read from its one-entry array through the reshape to rank 0. -/
theorem v33_at (ht : x2 (ix1 (0 : Fin 1)) = t) (i : S_.Idx) : val_main_v33 (F := Ideal) x2 i = t := by
  unfold val_main_v33
  refine (shapeCast_dropUnit_apply (n := 0) ![] x2 Facts₀.shapeCasts_S1_S_ i).trans ?_
  rw [← ht]
  exact congrArg x2 (funext fun a => by match a with | ⟨0, _⟩ => rfl)

/-- The updated cosine at (r, j): c·(t + c) where the clipped cosine c exceeds the row's margin cosine. -/
theorem mod_at (hx : ∀ r j, x0 (ix2 r j) = x r j) (hl : ∀ r, (x1 (ix1 r)).toNat = l r)
    (hmsb : ∀ r, (x1 (ix1 r)).msb = false) (hlr : ∀ r, l r < 100000) (ht : x2 (ix1 (0 : Fin 1)) = t)
    (r : Fin 2048) (j : Fin 100000) :
    val_main_v37 (F := Ideal) x0 x1 x2 (ix2 r j) = Spec.modOf (Spec.clipE (x r j)) (Spec.ctmRow x l r) t := by
  rw [val_main_v37_apply, val_main_v32_apply, val_main_v36_apply, val_main_v35_apply, val_main_v34_apply,
    v33_at x2 t ht, val_main_v31_apply, idx31, ctm_at x0 x1 x l hx hl hmsb hlr, clip_at x0 x hx]
  simp only [Ideal.addf_def, Ideal.mulf_def]
  rfl

/-- The scaled logits at (r, j). -/
theorem logit_at (hx : ∀ r j, x0 (ix2 r j) = x r j) (hl : ∀ r, (x1 (ix1 r)).toNat = l r)
    (hmsb : ∀ r, (x1 (ix1 r)).msb = false) (hlr : ∀ r, l r < 100000) (ht : x2 (ix1 (0 : Fin 1)) = t)
    (r : Fin 2048) (j : Fin 100000) :
    val_main_v54 (F := Ideal) x0 x1 x2 (ix2 r j) = Spec.logit x l t r j := by
  have h := scatter_set_pairs Facts₀.scatter_S2048x100000_S2048x2_S2048_n_01_01_1_wf Facts₀.bcast_S2048_S2048x1_0
    Facts₀.bcast_S2048_S2048x1_0 Facts₀.concatenates_S2048x1_S2048x1_S2048x2_d1 (val_main_v37 (F := Ideal) x0 x1 x2)
    (val_main_v43 (F := Ideal)) (val_main_v48 (F := Ideal) x1) (val_main_v38 (F := Ideal) x0 x1)
    (fun r => by rw [rows_v43]; exact (row_word r).1) (fun r => by rw [rows_v43]; exact (row_word r).2)
    (fun r => by rw [cols_v48 x1 hmsb r, hl]; exact hlr r) (fun r => by rw [cols_v48 x1 hmsb r]; exact hmsb r) r j
  rw [cols_v48 x1 hmsb r, hl, val_main_v38_apply, idx38, ftl_at x0 x1 x l hx hl hmsb hlr,
    mod_at x0 x1 x2 x l t hx hl hmsb hlr ht] at h
  rw [val_main_v54_apply, val_main_v53_apply, val_main_cst_13_apply]
  have h' : val_main_v52 (F := Ideal) x0 x1 x2 (ix2 r j)
      = if j.val = l r then Spec.ftlRow x l r else Spec.modOf (Spec.clipE (x r j)) (Spec.ctmRow x l r) t := h
  rw [h']
  simp only [Ideal.mulf_def, Ideal.ofBits_def]
  rfl

end

end Logits

/-! ## The reference's result -/

/-- THE REFERENCE IS THE SPECIFICATION: with the cosine array read as x, the labels as numbers below
    100000 (their words' top bits clear) and the scalar as t, the reference's result is minus the mean
    of the rows' log-softmax terms at their labels. -/
theorem ref_eq (m' : (ℓ : Loc nD τ sig) → Buf (Elt Ideal) ℓ) (c : Dev nD) (x : Fin 2048 → Fin 100000 → EReal) (l : Fin 2048 → ℕ) (t : EReal)
    (hx : ∀ r j, (m' ((c.tc : Thread nD τ).loc main_arg0) : Vec Ideal S2048x100000 .f32) (ix2 r j) = x r j)
    (hl : ∀ r, ((m' ((c.tc : Thread nD τ).loc main_arg1) : Vec Ideal S2048 .i32) (ix1 r)).toNat = l r)
    (hmsb : ∀ r, ((m' ((c.tc : Thread nD τ).loc main_arg1) : Vec Ideal S2048 .i32) (ix1 r)).msb = false)
    (hlr : ∀ r, l r < 100000)
    (ht : (m' ((c.tc : Thread nD τ).loc main_arg2) : Vec Ideal S1 .f32) (ix1 0) = t) :
    (Cert.ReferenceIdeal.Value.res_out0 m' c : Vec Ideal S_ .f32) = fun _ => Spec.lossOf (Spec.rowRef x l t) := by
  show Cert.ReferenceIdeal.Value.res_main_v72 m' c = _
  rw [val_main_v72_eq]
  rw [ref_tail _ _ _ l hl hmsb hlr (Spec.logit x l t)
    (fun r j => Logits.logit_at _ _ _ x l t hx hl hmsb hlr ht r j)]
  refine funext fun _ => congrArg Spec.lossOf (funext fun r => ?_)
  unfold Spec.rowRef Spec.rowMax
  have e : Spec.logit x l t r ⟨l r, hlr r⟩ = Spec.ftlRow x l r * Spec.lit 0x42800000#32 := by
    unfold Spec.logit; rw [if_pos rfl]
  rw [e]

end Cert.ReferenceIdeal.RefValue

end
-- ==== Proof.lean ====
/- The five claims of the certificate.

   The word-level kernel program and its idealization run, fault nowhere and leave their arguments unchanged:
   the pipelined region's body is run case by case (first column block, a middle one, the last), the two
   scratch buffers carrying the running maximum and running sum from point to point, the cosine window's
   overhanging tail at whatever the fetch left there (the masked logits do not read it). The reference's frame
   is its run with the result dropped. The idealization's one rewrite names the padding fill -1e30 as -∞.

   At the ideal instance both programs return minus the mean over the 2048 rows of the log-softmax of the
   row's scaled logits at its label: the reference as (z − M) − log Σ exp (z_j − M) in two passes over the
   100000 columns, the kernel as 64·ftl − (M' + log S') with M', S' from one online pass over 25 blocks of
   4096 columns whose 2400 padding columns are at -∞. The two agree on rows of real numbers (every cosine and
   t finite) with labels in [0, 100000). -/
import proofs.«421104_j22986664968859_1_alg».proof.Defs
import proofs.«421104_j22986664968859_1_alg».proof.Proof.Gen.Kernel
import proofs.«421104_j22986664968859_1_alg».proof.Proof.Gen.KernelIdeal
import proofs.«421104_j22986664968859_1_alg».proof.Proof.Gen.ReferenceIdeal
import proofs.«421104_j22986664968859_1_alg».proof.Proof.Gen.Pre_finite_inputs
import proofs.«421104_j22986664968859_1_alg».proof.Proof.K.Body
import proofs.«421104_j22986664968859_1_alg».proof.Proof.KI.Result
import proofs.«421104_j22986664968859_1_alg».proof.Proof.RefRun
import proofs.«421104_j22986664968859_1_alg».proof.Proof.RefValue
import proofs.«421104_j22986664968859_1_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and keeps its arguments. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the certificate's table gives the padding fill's name the value -∞, and the
    printed constant is that value at the ideal instance. -/
theorem preserves : Cert.preserves_Kernel_KernelIdeal :=
  IdealRules.named_const.statement Cert.KernelIdeal.κ "neg_big" .f32 0xF149F2CA#32 ⊥ rfl

/-- Both idealized programs end with minus the mean of the rows' log-softmax terms at their labels. -/
theorem algebraic : Cert.algebraic_KernelIdeal_ReferenceIdeal := by
  intro m ρ m' ρ' hpre hagree
  refine ⟨fun c => (fun _ => Cert.Spec.lossOf (Cert.Spec.rowRef (Cert.KernelIdeal.Body.xOf m c) (Cert.KernelIdeal.Body.lOf m c) (Cert.KernelIdeal.Body.tOf m c))),
    Cert.KernelIdeal.Body.kernel_result m ρ hpre, ?_⟩
  refine (θ_run Cert.ReferenceIdeal.defs _ _).mono (fun _ h c => ⟨(h c).1.trans ?_, (h c).2⟩)
    (Cert.ReferenceIdeal.Value.run (F := Ideal) m' ρ')
  obtain ⟨-, -, hlab⟩ := Cert.PreDecode.decode _ _ _ (hpre c)
  refine Cert.ReferenceIdeal.RefValue.ref_eq m' c _ _ _ (fun r j => ?_) (fun r => ?_) (fun r => ?_) (fun r => hlab (ix1 r)) ?_
  · rw [(hagree c).1]; rfl
  · rw [(hagree c).2.1]; rfl
  · rw [(hagree c).2.1]; exact Cert.PreDecode.label_msb _ _ _ (hpre c) (ix1 r)
  · rw [(hagree c).2.2]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
